-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000x128 : Shape := ⟨2, ![800000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg2 : IVec S800000 32) (main_arg13 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_c_22 : IVec S_ 32 := constantI S_ 32 4294917296#32
  let main_v59 : IVec S800000 32 := broadcastInDim S800000 ![] bcast_S_S800000 main_c_22
  let main_v60 : IVec S800000 1 := cmpi .sge main_arg2 main_v59
  let main_c_23 : IVec S_ 32 := constantI S_ 32 50000#32
  let main_v61 : IVec S800000 32 := broadcastInDim S800000 ![] bcast_S_S800000 main_c_23
  let main_v62 : IVec S800000 1 := cmpi .slt main_arg2 main_v61
  let main_v63 : IVec S800000 1 := andi main_v60 main_v62
  let main_c_24 : IVec S_ 1 := constantI S_ 1 1#1
  let main_v64 : IVec S_ 1 := (fun x v => Host.reduce IntOp.andi x v reducesTo_S800000_S_d0 h_S_) main_v63 main_c_24
  let main_v65 : IVec S_ 1 := andi main_v58 main_v64
  main_v65

def fn_part2 {F : FTy → Type} [FloatOps F] (main_arg2 : IVec S800000 32) (main_arg9 : FVec F S256 .f32) (main_arg10 : FVec F S256 .f32) (main_arg11 : FVec F S256 .f32) (main_arg12 : FVec F S256 .f32) (main_arg13 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg2 main_arg13 main_v48 main_v49 main_v50

def fn_part1 {F : FTy → Type} [FloatOps F] (main_arg2 : IVec S800000 32) (main_arg6 : FVec F S256x256 .f32) (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg9 main_arg10 main_arg11 main_arg12 main_arg13 main_v33

def fn {F : FTy → Type} [FloatOps F] (main_arg0 : FVec F S50000x256 .f32) (main_arg1 : FVec F S800000x128 .f32) (main_arg2 : IVec S800000 32) (main_arg3 : IVec S800000 32) (main_arg4 : FVec F S128x256 .f32) (main_arg5 : FVec F S256 .f32) (main_arg6 : FVec F S256x256 .f32) (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg6 main_arg7 main_arg8 main_arg9 main_arg10 main_arg11 main_arg12 main_arg13 main_v13 main_v16
-- ==== Kernel.lean ====
abbrev S50000x256 : Shape := ⟨2, ![50000, 256]⟩
abbrev S800000x128 : Shape := ⟨2, ![800000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x256 : Shape := ⟨2, ![800000, 256]⟩
abbrev S50000x128 : Shape := ⟨2, ![50000, 128]⟩
abbrev S50000 : Shape := ⟨1, ![50000]⟩
abbrev S1x256 : Shape := ⟨2, ![1, 256]⟩
abbrev S50000x1 : Shape := ⟨2, ![50000, 1]⟩
abbrev S2000x256 : Shape := ⟨2, ![2000, 256]⟩
abbrev S2000x128 : Shape := ⟨2, ![2000, 128]⟩

abbrev nBuf : Space → Nat
  | .hbm => 127
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S1, .i32⟩
  | .hbm, ⟨23, _⟩ => ⟨S_, .i32⟩
  | .hbm, ⟨24, _⟩ => ⟨S800000x1, .i32⟩
  | .hbm, ⟨25, _⟩ => ⟨S800000x1, .i1⟩
  | .hbm, ⟨26, _⟩ => ⟨S1x1, .i32⟩
  | .hbm, ⟨27, _⟩ => ⟨S800000x1, .i32⟩
  | .hbm, ⟨28, _⟩ => ⟨S800000x1, .i1⟩
  | .hbm, ⟨29, _⟩ => ⟨S800000x1, .i1⟩
  | .hbm, ⟨30, _⟩ => ⟨S_, .i1⟩
  | .hbm, ⟨31, _⟩ => ⟨S800000, .i1⟩
  | .hbm, ⟨32, _⟩ => ⟨S800000x256, .f32⟩
  | .hbm, ⟨33, _⟩ => ⟨S800000x256, .i1⟩
  | .hbm, ⟨34, _⟩ => ⟨S_, .f32⟩
  | .hbm, ⟨35, _⟩ => ⟨S800000x256, .f32⟩
  | .hbm, ⟨36, _⟩ => ⟨S800000x256, .f32⟩
  | .hbm, ⟨37, _⟩ => ⟨S_, .f32⟩
  | .hbm, ⟨38, _⟩ => ⟨S50000x256, .f32⟩
  | .hbm, ⟨39, _⟩ => ⟨S800000x1, .i32⟩
  | .hbm, ⟨40, _⟩ => ⟨S50000x256, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S_, .f32⟩
  | .hbm, ⟨46, _⟩ => ⟨S800000, .f32⟩
  | .hbm, ⟨47, _⟩ => ⟨S_, .f32⟩
  | .hbm, ⟨48, _⟩ => ⟨S50000, .f32⟩
  | .hbm, ⟨49, _⟩ => ⟨S800000x1, .i32⟩
  | .hbm, ⟨50, _⟩ => ⟨S50000, .f32⟩
  | .hbm, ⟨51, _⟩ => ⟨S1x256, .f32⟩
  | .hbm, ⟨52, _⟩ => ⟨S50000x1, .f32⟩
  | .hbm, ⟨53, _⟩ => ⟨S1x256, .f32⟩
  | .hbm, ⟨54, _⟩ => ⟨S50000x256, .f32⟩
  | .hbm, ⟨55, _⟩ => ⟨S50000x256, .f32⟩
  | .hbm, ⟨56, _⟩ => ⟨S50000x256, .f32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S_, .f32⟩
  | .hbm, ⟨61, _⟩ => ⟨S256, .f32⟩
  | .hbm, ⟨62, _⟩ => ⟨S_, .f32⟩
  | .hbm, ⟨63, _⟩ => ⟨S256, .f32⟩
  | .hbm, ⟨64, _⟩ => ⟨S256, .f32⟩
  | .hbm, ⟨65, _⟩ => ⟨S_, .i32⟩
  | .hbm, ⟨66, _⟩ => ⟨S_, .f32⟩
  | .hbm, ⟨67, _⟩ => ⟨S256, .f32⟩
  | .hbm, ⟨68, _⟩ => ⟨S1x256, .f32⟩
  | .hbm, ⟨69, _⟩ => ⟨S_, .f32⟩
  | .hbm, ⟨70, _⟩ => ⟨S1x256, .f32⟩
  | .hbm, ⟨71, _⟩ => ⟨S1x256, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S256, .f32⟩
  | .hbm, ⟨80, _⟩ => ⟨S256, .f32⟩
  | .hbm, ⟨81, _⟩ => ⟨S256, .f32⟩
  | .hbm, ⟨82, _⟩ => ⟨S_, .f32⟩
  | .hbm, ⟨83, _⟩ => ⟨S_, .i1⟩
  | .hbm, ⟨84, _⟩ => ⟨S_, .f32⟩
  | .hbm, ⟨85, _⟩ => ⟨S_, .f32⟩
  | .hbm, ⟨86, _⟩ => ⟨S256, .f32⟩
  | .hbm, ⟨87, _⟩ => ⟨S256, .f32⟩
  | .hbm, ⟨88, _⟩ => ⟨S1x256, .f32⟩
  | .hbm, ⟨89, _⟩ => ⟨S1x256, .f32⟩
  | .hbm, ⟨90, _⟩ => ⟨S1x256, .f32⟩
  | .hbm, ⟨91, _⟩ => ⟨S1x256, .f32⟩
  | .hbm, ⟨92, _⟩ => ⟨S1x256, .f32⟩
  | .hbm, ⟨93, _⟩ => ⟨S50000x256, .f32⟩
  | .hbm, ⟨94, _⟩ => ⟨S_, .f32⟩
  | .hbm, ⟨95, _⟩ => ⟨S256, .f32⟩
  | .hbm, ⟨96, _⟩ => ⟨S_, .f32⟩
  | .hbm, ⟨97, _⟩ => ⟨S256, .f32⟩
  | .hbm, ⟨98, _⟩ => ⟨S256, .f32⟩
  | .hbm, ⟨99, _⟩ => ⟨S_, .i32⟩
  | .hbm, ⟨100, _⟩ => ⟨S_, .f32⟩
  | .hbm, ⟨101, _⟩ => ⟨S256, .f32⟩
  | .hbm, ⟨102, _⟩ => ⟨S1x256, .f32⟩
  | .hbm, ⟨103, _⟩ => ⟨S_, .f32⟩
  | .hbm, ⟨104, _⟩ => ⟨S1x256, .f32⟩
  | .hbm, ⟨105, _⟩ => ⟨S1x256, .f32⟩
  | .hbm, ⟨106, _⟩ => ⟨S50000x256, .f32⟩
  | .hbm, ⟨107, _⟩ => ⟨S50000x256, .f32⟩
  | .hbm, ⟨108, _⟩ => ⟨S50000x256, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S256, .f32⟩
  | .hbm, ⟨114, _⟩ => ⟨S256, .f32⟩
  | .hbm, ⟨115, _⟩ => ⟨S256, .f32⟩
  | .hbm, ⟨116, _⟩ => ⟨S_, .f32⟩
  | .hbm, ⟨117, _⟩ => ⟨S_, .i1⟩
  | .hbm, ⟨118, _⟩ => ⟨S_, .f32⟩
  | .hbm, ⟨119, _⟩ => ⟨S_, .f32⟩
  | .hbm, ⟨120, _⟩ => ⟨S256, .f32⟩
  | .hbm, ⟨121, _⟩ => ⟨S256, .f32⟩
  | .hbm, ⟨122, _⟩ => ⟨S1x256, .f32⟩
  | .hbm, ⟨123, _⟩ => ⟨S1x256, .f32⟩
  | .hbm, ⟨124, _⟩ => ⟨S1x256, .f32⟩
  | .hbm, ⟨125, _⟩ => ⟨S1x256, .f32⟩
  | .hbm, ⟨126, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x128, .f32⟩
  | .local _ .vmem, ⟨3, _⟩ => ⟨S2000x128, .f32⟩
  | .local _ .vmem, ⟨4, _⟩ => ⟨S256x256, .f32⟩
  | .local _ .vmem, ⟨5, _⟩ => ⟨S128x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S256x256, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v0 : Ref sig .tc := ⟨.hbm, 36, rfl⟩
abbrev main_cst : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_cst_0 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_cst_1 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_3 : Ref sig .tc := ⟨.hbm, 60, rfl⟩
abbrev main_v20 : Ref sig .tc := ⟨.hbm, 61, rfl⟩
abbrev main_cst_4 : Ref sig .tc := ⟨.hbm, 62, rfl⟩
abbrev main_v21 : Ref sig .tc := ⟨.hbm, 63, rfl⟩
abbrev main_v22 : Ref sig .tc := ⟨.hbm, 64, rfl⟩
abbrev main_c : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_cst_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_cst_1 : Ref sig .tc := ⟨.hbm, 76, rfl⟩
abbrev main_call1_v8 : Ref sig .tc := ⟨.hbm, 77, rfl⟩
abbrev main_call1_cst_2 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_cst_3 : Ref sig .tc := ⟨.hbm, 82, rfl⟩
abbrev main_call1_v12 : Ref sig .tc := ⟨.hbm, 83, rfl⟩
abbrev main_call1_cst_4 : Ref sig .tc := ⟨.hbm, 84, rfl⟩
abbrev main_call1_call0_v0 : Ref sig .tc := ⟨.hbm, 85, rfl⟩
abbrev main_call1_call0_v1 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_cst_5 : Ref sig .tc := ⟨.hbm, 94, rfl⟩
abbrev main_v30 : Ref sig .tc := ⟨.hbm, 95, rfl⟩
abbrev main_cst_6 : Ref sig .tc := ⟨.hbm, 96, rfl⟩
abbrev main_v31 : Ref sig .tc := ⟨.hbm, 97, rfl⟩
abbrev main_v32 : Ref sig .tc := ⟨.hbm, 98, rfl⟩
abbrev main_c_7 : Ref sig .tc := ⟨.hbm, 99, rfl⟩
abbrev main_call2_cst : Ref sig .tc := ⟨.hbm, 100, rfl⟩
abbrev main_call2_v0 : Ref sig .tc := ⟨.hbm, 101, rfl⟩
abbrev main_call2_v1 : Ref sig .tc := ⟨.hbm, 102, rfl⟩
abbrev main_call2_cst_0 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_v6 : Ref sig .tc := ⟨.hbm, 108, rfl⟩
abbrev main_call2_v7 : Ref sig .tc := ⟨.hbm, 109, rfl⟩
abbrev main_call2_cst_1 : Ref sig .tc := ⟨.hbm, 110, rfl⟩
abbrev main_call2_v8 : Ref sig .tc := ⟨.hbm, 111, rfl⟩
abbrev main_call2_cst_2 : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_cst_3 : Ref sig .tc := ⟨.hbm, 116, rfl⟩
abbrev main_call2_v12 : Ref sig .tc := ⟨.hbm, 117, rfl⟩
abbrev main_call2_cst_4 : Ref sig .tc := ⟨.hbm, 118, rfl⟩
abbrev main_call2_call0_v0 : Ref sig .tc := ⟨.hbm, 119, rfl⟩
abbrev main_call2_call0_v1 : Ref sig .tc := ⟨.hbm, 120, rfl⟩
abbrev main_v33 : Ref sig .tc := ⟨.hbm, 121, rfl⟩
abbrev main_v34 : Ref sig .tc := ⟨.hbm, 122, rfl⟩
abbrev main_v35 : Ref sig .tc := ⟨.hbm, 123, rfl⟩
abbrev main_v36 : Ref sig .tc := ⟨.hbm, 124, rfl⟩
abbrev main_v37 : Ref sig .tc := ⟨.hbm, 125, rfl⟩
abbrev main_v38 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem7_0 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  bcast_S_S50000x128 : S_.BroadcastsInDim S50000x128 (![] : Fin 0 → Fin S50000x128.rank)
  bcast_S_S50000 : S_.BroadcastsInDim S50000 (![] : Fin 0 → Fin S50000.rank)
  bcast_S256_S1x256_1 : S256.BroadcastsInDim S1x256 (![1] : Fin 1 → Fin S1x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S1x256_S50000x256_0_1 : S1x256.BroadcastsInDim S50000x256 (![0, 1] : Fin 2 → Fin S50000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  reducesTo_S50000x256_S256_d0 : S50000x256.ReducesTo [0] S256
  bcast_S_S256 : S_.BroadcastsInDim S256 (![] : Fin 0 → Fin S256.rank)
  bcast_S_S1x256 : S_.BroadcastsInDim S1x256 (![] : Fin 0 → Fin S1x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x256_S256x256_S2000x256_1_0_0_1_n_n_wf : DotDims.WF S2000x256 S256x256 S2000x256 [1] [0] [0] [1] [] []
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S50000x256.size a
  hwx1_8 : ∀ i : grid1.Coords, EltTy.bits .f32 = 32 ∨ (Rect.block (s := S50000x256) S2000x256.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_v3) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S2000x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg0) S2000x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v29) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v29) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x256 : Shape := ⟨2, ![50000, 256]⟩
abbrev S800000x128 : Shape := ⟨2, ![800000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S800000x256 : Shape := ⟨2, ![800000, 256]⟩
abbrev S1x256 : Shape := ⟨2, ![1, 256]⟩
abbrev S_ : Shape := ⟨0, ![]⟩
abbrev S800000x1 : Shape := ⟨2, ![800000, 1]⟩

abbrev nBuf : Space → Nat
  | .hbm => 139
  | .vmem => 0
  | .smem => 0
  | _ => 0

abbrev hbmTy0_0 (i : Nat) : BufTy := match i % 128 with
  | 0 => ⟨S50000x256, .f32⟩
  | 1 => ⟨S800000x128, .f32⟩
  | 2 => ⟨S800000, .i32⟩
  | 3 => ⟨S800000, .i32⟩
  | 4 => ⟨S128x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256, .f32⟩
  | 11 => ⟨S256, .f32⟩
  | 12 => ⟨S256, .f32⟩
  | 13 => ⟨S256, .f32⟩
  | 14 => ⟨S800000x256, .f32⟩
  | 15 => ⟨S1x256, .f32⟩
  | 16 => ⟨S800000x256, .f32⟩
  | 17 => ⟨S800000x256, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x256, .f32⟩
  | 27 => ⟨S_, .f32⟩
  | 28 => ⟨S50000x256, .f32⟩
  | 29 => ⟨S800000x1, .i32⟩
  | 30 => ⟨S50000x256, .f32⟩
  | 31 => ⟨S_, .f32⟩
  | 32 => ⟨S50000x256, .f32⟩
  | 33 => ⟨S800000x1, .i32⟩
  | 34 => ⟨S50000x256, .f32⟩
  | 35 => ⟨S50000x256, .f32⟩
  | 36 => ⟨S1x256, .f32⟩
  | 37 => ⟨S50000x256, .f32⟩
  | 38 => ⟨S50000x256, .f32⟩
  | 39 => ⟨S50000x256, .f32⟩
  | 40 => ⟨S_, .f32⟩
  | 41 => ⟨S50000x256, .f32⟩
  | 42 => ⟨S50000x256, .f32⟩
  | 43 => ⟨S_, .f32⟩
  | 44 => ⟨S256, .f32⟩
  | 45 => ⟨S_, .f32⟩
  | 46 => ⟨S256, .f32⟩
  | 47 => ⟨S256, .f32⟩
  | 48 => ⟨S_, .i32⟩
  | 49 => ⟨S_, .f32⟩
  | 50 => ⟨S256, .f32⟩
  | 51 => ⟨S1x256, .f32⟩
  | 52 => ⟨S_, .f32⟩
  | 53 => ⟨S1x256, .f32⟩
  | 54 => ⟨S1x256, .f32⟩
  | 55 => ⟨S50000x256, .f32⟩
  | 56 => ⟨S50000x256, .f32⟩
  | 57 => ⟨S50000x256, .f32⟩
  | 58 => ⟨S_, .f32⟩
  | 59 => ⟨S_, .f32⟩
  | 60 => ⟨S_, .f32⟩
  | 61 => ⟨S_, .f32⟩
  | 62 => ⟨S256, .f32⟩
  | 63 => ⟨S256, .f32⟩
  | 64 => ⟨S256, .f32⟩
  | 65 => ⟨S_, .f32⟩
  | 66 => ⟨S_, .i1⟩
  | 67 => ⟨S_, .f32⟩
  | 68 => ⟨S_, .f32⟩
  | 69 => ⟨S256, .f32⟩
  | 70 => ⟨S256, .f32⟩
  | 71 => ⟨S1x256, .f32⟩
  | 72 => ⟨S50000x256, .f32⟩
  | 73 => ⟨S50000x256, .f32⟩
  | 74 => ⟨S_, .f32⟩
  | 75 => ⟨S256, .f32⟩
  | 76 => ⟨S256, .f32⟩
  | 77 => ⟨S256, .f32⟩
  | 78 => ⟨S1x256, .f32⟩
  | 79 => ⟨S50000x256, .f32⟩
  | 80 => ⟨S50000x256, .f32⟩
  | 81 => ⟨S1x256, .f32⟩
  | 82 => ⟨S50000x256, .f32⟩
  | 83 => ⟨S50000x256, .f32⟩
  | 84 => ⟨S1x256, .f32⟩
  | 85 => ⟨S50000x256, .f32⟩
  | 86 => ⟨S50000x256, .f32⟩
  | 87 => ⟨S50000x256, .f32⟩
  | 88 => ⟨S1x256, .f32⟩
  | 89 => ⟨S50000x256, .f32⟩
  | 90 => ⟨S50000x256, .f32⟩
  | 91 => ⟨S50000x256, .f32⟩
  | 92 => ⟨S_, .f32⟩
  | 93 => ⟨S50000x256, .f32⟩
  | 94 => ⟨S50000x256, .f32⟩
  | 95 => ⟨S_, .f32⟩
  | 96 => ⟨S256, .f32⟩
  | 97 => ⟨S_, .f32⟩
  | 98 => ⟨S256, .f32⟩
  | 99 => ⟨S256, .f32⟩
  | 100 => ⟨S_, .i32⟩
  | 101 => ⟨S_, .f32⟩
  | 102 => ⟨S256, .f32⟩
  | 103 => ⟨S1x256, .f32⟩
  | 104 => ⟨S_, .f32⟩
  | 105 => ⟨S1x256, .f32⟩
  | 106 => ⟨S1x256, .f32⟩
  | 107 => ⟨S50000x256, .f32⟩
  | 108 => ⟨S50000x256, .f32⟩
  | 109 => ⟨S50000x256, .f32⟩
  | 110 => ⟨S_, .f32⟩
  | 111 => ⟨S_, .f32⟩
  | 112 => ⟨S_, .f32⟩
  | 113 => ⟨S_, .f32⟩
  | 114 => ⟨S256, .f32⟩
  | 115 => ⟨S256, .f32⟩
  | 116 => ⟨S256, .f32⟩
  | 117 => ⟨S_, .f32⟩
  | 118 => ⟨S_, .i1⟩
  | 119 => ⟨S_, .f32⟩
  | 120 => ⟨S_, .f32⟩
  | 121 => ⟨S256, .f32⟩
  | 122 => ⟨S256, .f32⟩
  | 123 => ⟨S1x256, .f32⟩
  | 124 => ⟨S50000x256, .f32⟩
  | 125 => ⟨S50000x256, .f32⟩
  | 126 => ⟨S_, .f32⟩
  | 127 => ⟨S256, .f32⟩
  | _ => ⟨S50000x256, .f32⟩

abbrev hbmTy0_1 (i : Nat) : BufTy := match i % 128 with
  | 0 => ⟨S256, .f32⟩
  | 1 => ⟨S256, .f32⟩
  | 2 => ⟨S1x256, .f32⟩
  | 3 => ⟨S50000x256, .f32⟩
  | 4 => ⟨S50000x256, .f32⟩
  | 5 => ⟨S1x256, .f32⟩
  | 6 => ⟨S50000x256, .f32⟩
  | 7 => ⟨S50000x256, .f32⟩
  | 8 => ⟨S1x256, .f32⟩
  | 9 => ⟨S50000x256, .f32⟩
  | 10 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call0_cst : Ref sig .tc := ⟨.hbm, 40, rfl⟩
abbrev main_call0_v0 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_c_4 : Ref sig .tc := ⟨.hbm, 48, rfl⟩
abbrev main_call1_cst : Ref sig .tc := ⟨.hbm, 49, rfl⟩
abbrev main_call1_v0 : Ref sig .tc := ⟨.hbm, 50, rfl⟩
abbrev main_call1_v1 : Ref sig .tc := ⟨.hbm, 51, rfl⟩
abbrev main_call1_cst_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_cst_1 : Ref sig .tc := ⟨.hbm, 59, rfl⟩
abbrev main_call1_v8 : Ref sig .tc := ⟨.hbm, 60, rfl⟩
abbrev main_call1_cst_2 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_cst_3 : Ref sig .tc := ⟨.hbm, 65, rfl⟩
abbrev main_call1_v12 : Ref sig .tc := ⟨.hbm, 66, rfl⟩
abbrev main_call1_cst_4 : Ref sig .tc := ⟨.hbm, 67, rfl⟩
abbrev main_call1_call0_v0 : Ref sig .tc := ⟨.hbm, 68, rfl⟩
abbrev main_call1_call0_v1 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_cst_5 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_call2_cst : Ref sig .tc := ⟨.hbm, 92, rfl⟩
abbrev main_call2_v0 : Ref sig .tc := ⟨.hbm, 93, rfl⟩
abbrev main_v47 : Ref sig .tc := ⟨.hbm, 94, rfl⟩
abbrev main_cst_6 : Ref sig .tc := ⟨.hbm, 95, rfl⟩
abbrev main_v48 : Ref sig .tc := ⟨.hbm, 96, rfl⟩
abbrev main_cst_7 : Ref sig .tc := ⟨.hbm, 97, rfl⟩
abbrev main_v49 : Ref sig .tc := ⟨.hbm, 98, rfl⟩
abbrev main_v50 : Ref sig .tc := ⟨.hbm, 99, rfl⟩
abbrev main_c_8 : Ref sig .tc := ⟨.hbm, 100, rfl⟩
abbrev main_call3_cst : Ref sig .tc := ⟨.hbm, 101, rfl⟩
abbrev main_call3_v0 : Ref sig .tc := ⟨.hbm, 102, rfl⟩
abbrev main_call3_v1 : Ref sig .tc := ⟨.hbm, 103, rfl⟩
abbrev main_call3_cst_0 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_v6 : Ref sig .tc := ⟨.hbm, 109, rfl⟩
abbrev main_call3_v7 : Ref sig .tc := ⟨.hbm, 110, rfl⟩
abbrev main_call3_cst_1 : Ref sig .tc := ⟨.hbm, 111, rfl⟩
abbrev main_call3_v8 : Ref sig .tc := ⟨.hbm, 112, rfl⟩
abbrev main_call3_cst_2 : Ref sig .tc := ⟨.hbm, 113, rfl⟩
abbrev main_call3_v9 : Ref sig .tc := ⟨.hbm, 114, rfl⟩
abbrev main_call3_v10 : Ref sig .tc := ⟨.hbm, 115, rfl⟩
abbrev main_call3_v11 : Ref sig .tc := ⟨.hbm, 116, rfl⟩
abbrev main_call3_cst_3 : Ref sig .tc := ⟨.hbm, 117, rfl⟩
abbrev main_call3_v12 : Ref sig .tc := ⟨.hbm, 118, rfl⟩
abbrev main_call3_cst_4 : Ref sig .tc := ⟨.hbm, 119, rfl⟩
abbrev main_call3_call0_v0 : Ref sig .tc := ⟨.hbm, 120, rfl⟩
abbrev main_call3_call0_v1 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_cst_9 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  dot_S800000x128_S128x256_S800000x256_1_0_0_1_n_n_wf : DotDims.WF S800000x128 S128x256 S800000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def dot_S800000x128_S128x256_S800000x256_1_0_0_1_n_n : DotDims S800000x128 S128x256 S800000x256 where
  lhsContracting := [1]
  rhsContracting := [0]
  lhsNonContracting := [0]
  rhsNonContracting := [1]
  lhsBatch := []
  rhsBatch := []
  wf := dot_S800000x128_S128x256_S800000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Spec.lean ====
/- The three stages of the layer as functions of whole arrays, index by index, on the extended reals.

   Stage 1 is a rectified sum of two matrix products and a bias array; stage 2 normalises each column of its
   input by a mean and a variance given as rows, scales and shifts it, multiplies by a weight matrix, adds a
   bias row and a residual array and rectifies; stage 3 is the column normalisation alone. -/
import Idealize.ShloMosaic.PureOps.Ideal
import Idealize.ShloMosaic.Lib.ValueIdx

noncomputable section

namespace Cert.Spec

open Idealize.ShloMosaic Idealize.ShloMosaic.ValueIdx
open scoped BigOperators

abbrev SNxH : Shape := ⟨2, ![50000, 256]⟩
abbrev SNxB : Shape := ⟨2, ![50000, 128]⟩
abbrev SHxH : Shape := ⟨2, ![256, 256]⟩
abbrev SBxH : Shape := ⟨2, ![128, 256]⟩
abbrev S1xH : Shape := ⟨2, ![1, 256]⟩

/-- The small positive number added to a variance before the inverse square root: the extended real the
    single-precision pattern of 1e-5 denotes. -/
def eps : EReal := Ideal.ofBits .f32 0x3727C5AC#32

/-- Stage 1 at node `v`, feature `j`: the aggregated neighbour states times the first weight matrix, plus the
    aggregated edge rows times the bond matrix, plus the bias array, rectified. -/
def stage1 (h1 : SNxH.Idx → EReal) (agg : SNxB.Idx → EReal) (W1 : SHxH.Idx → EReal) (bW : SBxH.Idx → EReal)
    (eb : SNxH.Idx → EReal) (v : Fin 50000) (j : Fin 256) : EReal :=
  max (((∑ k : Fin 256, h1 (ix2 v k) * W1 (ix2 k j)) + (∑ k : Fin 128, agg (ix2 v k) * bW (ix2 k j))) + eb (ix2 v j)) 0

/-- The column normalisation at node `v`, feature `k`: centre by the mean row, scale by the inverse square
    root of the variance row plus `eps`, then by the gain row, and shift by the offset row. -/
def norm (x : SNxH.Idx → EReal) (μ σ g β : S1xH.Idx → EReal) (v : Fin 50000) (k : Fin 256) : EReal :=
  ((x (ix2 v k) - μ (ix2 0 k)) * Ideal.rsqrt (σ (ix2 0 k) + eps)) * g (ix2 0 k) + β (ix2 0 k)

/-- Stage 2 at node `v`, feature `j`: the normalised input times the second weight matrix, plus the bias row,
    plus the residual array, rectified. -/
def stage2 (x : SNxH.Idx → EReal) (μ σ g β : S1xH.Idx → EReal) (feat : SNxH.Idx → EReal) (W2 : SHxH.Idx → EReal)
    (b2 : S1xH.Idx → EReal) (v : Fin 50000) (j : Fin 256) : EReal :=
  max (((∑ k : Fin 256, norm x μ σ g β v k * W2 (ix2 k j)) + b2 (ix2 0 j)) + feat (ix2 v j)) 0

/-- A stage as a whole array: the function of the two coordinates read at an index. -/
def arr2 (f : Fin 50000 → Fin 256 → EReal) : SNxH.Idx → EReal := fun i => f (i 0) (i 1)

theorem arr2_ix2 (f : Fin 50000 → Fin 256 → EReal) (v : Fin 50000) (j : Fin 256) : arr2 f (ix2 v j) = f v j := rfl

end Cert.Spec

end
-- ==== Proof.Region0.lean ====
/- The first kernel's output array after its 25 grid points is stage 1 of the arrays its input windows read, whatever
   the contents it is entered from.  At grid point t the body writes rows 2000·t … 2000·t + 1999: two block products
   into zero accumulators (each the sum over the contracted coordinate), their sum plus the bias block, rectified; the
   25 blocks cover the 50000 rows. -/
import proofs.«421841_j88399016886795_2_alg».proof.Proof.Gen.KernelIdeal.Frame
import proofs.«421841_j88399016886795_2_alg».proof.Proof.Spec
import Idealize.ShloMosaic.Lib.Pipeline.Value
import Idealize.ShloMosaic.PureOps.Ideal.Laws
import Idealize.ShloMosaic.Lib.ValueIdx
set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## The two contractions' operand indices, axis by axis -/

theorem lhsH_0 (j : S2000x256.Idx) (k : dot_S2000x256_S256x256_S2000x256_1_0_0_1_n_n.contr.Idx) :
    (dot_S2000x256_S256x256_S2000x256_1_0_0_1_n_n.lhsIdx j k 0 : ℕ) = j 0 := by
  simp [DotDims.lhsIdx, dot_S2000x256_S256x256_S2000x256_1_0_0_1_n_n]; rfl
theorem lhsH_1 (j : S2000x256.Idx) (k : dot_S2000x256_S256x256_S2000x256_1_0_0_1_n_n.contr.Idx) :
    (dot_S2000x256_S256x256_S2000x256_1_0_0_1_n_n.lhsIdx j k 1 : ℕ) = k ⟨0, by decide⟩ :=
  dot_S2000x256_S256x256_S2000x256_1_0_0_1_n_n.lhsIdx_val_of_single (cl := 1) rfl j k
theorem rhsH_0 (j : S2000x256.Idx) (k : dot_S2000x256_S256x256_S2000x256_1_0_0_1_n_n.contr.Idx) :
    (dot_S2000x256_S256x256_S2000x256_1_0_0_1_n_n.rhsIdx j k 0 : ℕ) = k ⟨0, by decide⟩ :=
  dot_S2000x256_S256x256_S2000x256_1_0_0_1_n_n.rhsIdx_val_of_single (cr := 0) rfl j k
theorem rhsH_1 (j : S2000x256.Idx) (k : dot_S2000x256_S256x256_S2000x256_1_0_0_1_n_n.contr.Idx) :
    (dot_S2000x256_S256x256_S2000x256_1_0_0_1_n_n.rhsIdx j k 1 : ℕ) = j 1 := by
  simp [DotDims.rhsIdx, dot_S2000x256_S256x256_S2000x256_1_0_0_1_n_n]; rfl

theorem lhsB_0 (j : S2000x256.Idx) (k : dot_S2000x128_S128x256_S2000x256_1_0_0_1_n_n.contr.Idx) :
    (dot_S2000x128_S128x256_S2000x256_1_0_0_1_n_n.lhsIdx j k 0 : ℕ) = j 0 := by
  simp [DotDims.lhsIdx, dot_S2000x128_S128x256_S2000x256_1_0_0_1_n_n]; rfl
theorem lhsB_1 (j : S2000x256.Idx) (k : dot_S2000x128_S128x256_S2000x256_1_0_0_1_n_n.contr.Idx) :
    (dot_S2000x128_S128x256_S2000x256_1_0_0_1_n_n.lhsIdx j k 1 : ℕ) = k ⟨0, by decide⟩ :=
  dot_S2000x128_S128x256_S2000x256_1_0_0_1_n_n.lhsIdx_val_of_single (cl := 1) rfl j k
theorem rhsB_0 (j : S2000x256.Idx) (k : dot_S2000x128_S128x256_S2000x256_1_0_0_1_n_n.contr.Idx) :
    (dot_S2000x128_S128x256_S2000x256_1_0_0_1_n_n.rhsIdx j k 0 : ℕ) = k ⟨0, by decide⟩ :=
  dot_S2000x128_S128x256_S2000x256_1_0_0_1_n_n.rhsIdx_val_of_single (cr := 0) rfl j k
theorem rhsB_1 (j : S2000x256.Idx) (k : dot_S2000x128_S128x256_S2000x256_1_0_0_1_n_n.contr.Idx) :
    (dot_S2000x128_S128x256_S2000x256_1_0_0_1_n_n.rhsIdx j k 1 : ℕ) = j 1 := by
  simp [DotDims.rhsIdx, dot_S2000x128_S128x256_S2000x256_1_0_0_1_n_n]; rfl

/-- The product of a row block with the square weight matrix into a zero accumulator, at row r and column j: the
    sum over the 256 contraction positions of the products. -/
theorem mmH_apply (x : FVec Ideal S2000x256 .bf16) (w : FVec Ideal S256x256 .bf16) (r : Fin 2000) (j : Fin 256) :
    matmul dot_S2000x256_S256x256_S2000x256_1_0_0_1_n_n none x w (constant S2000x256 .f32 0x00000000#32) (ix2 r j)
      = ∑ k : Fin 256, x (ix2 r k) * w (ix2 k j) := by
  show FloatOps.matmul dot_S2000x256_S256x256_S2000x256_1_0_0_1_n_n none x w (constant S2000x256 .f32 0x00000000#32) (ix2 r j) = _
  rw [Ideal.matmul_constant_zero_apply,
    ← Equiv.sum_comp (contrEquiv1 dot_S2000x256_S256x256_S2000x256_1_0_0_1_n_n 256 rfl rfl).symm]
  refine Finset.sum_congr rfl fun k _ => ?_
  congr 2
  · funext a; apply Fin.ext
    match a with
    | ⟨0, _⟩ => exact lhsH_0 _ _
    | ⟨1, _⟩ => exact (lhsH_1 _ _).trans (contrEquiv1_symm_val _ 256 rfl rfl k)
  · funext a; apply Fin.ext
    match a with
    | ⟨0, _⟩ => exact (rhsH_0 _ _).trans (contrEquiv1_symm_val _ 256 rfl rfl k)
    | ⟨1, _⟩ => exact rhsH_1 _ _

theorem mmB_apply (x : FVec Ideal S2000x128 .bf16) (w : FVec Ideal S128x256 .bf16) (r : Fin 2000) (j : Fin 256) :
    matmul dot_S2000x128_S128x256_S2000x256_1_0_0_1_n_n none x w (constant S2000x256 .f32 0x00000000#32) (ix2 r j)
      = ∑ k : Fin 128, x (ix2 r k) * w (ix2 k j) := by
  show FloatOps.matmul dot_S2000x128_S128x256_S2000x256_1_0_0_1_n_n none x w (constant S2000x256 .f32 0x00000000#32) (ix2 r j) = _
  rw [Ideal.matmul_constant_zero_apply,
    ← Equiv.sum_comp (contrEquiv1 dot_S2000x128_S128x256_S2000x256_1_0_0_1_n_n 128 rfl rfl).symm]
  refine Finset.sum_congr rfl fun k _ => ?_
  congr 2
  · funext a; apply Fin.ext
    match a with
    | ⟨0, _⟩ => exact lhsB_0 _ _
    | ⟨1, _⟩ => exact (lhsB_1 _ _).trans (contrEquiv1_symm_val _ 128 rfl rfl k)
  · funext a; apply Fin.ext
    match a with
    | ⟨0, _⟩ => exact (rhsB_0 _ _).trans (contrEquiv1_symm_val _ 128 rfl rfl k)
    | ⟨1, _⟩ => exact rhsB_1 _ _

/-- The body's arithmetic at row r and column j of its block: the two products summed, plus the bias block,
    rectified. -/
theorem pay_apply (x0 : Vec Ideal S2000x256 .f32) (w1 : Vec Ideal S256x256 .f32) (x1 : Vec Ideal S2000x128 .f32)
    (w3 : Vec Ideal S128x256 .f32) (x4 : Vec Ideal S2000x256 .f32) (r : Fin 2000) (j : Fin 256) :
    k0_pay1 x0 w1 x1 w3 x4 (ix2 r j)
      = max (((∑ k : Fin 256, x0 (ix2 r k) * w1 (ix2 k j)) + (∑ k : Fin 128, x1 (ix2 r k) * w3 (ix2 k j))) + x4 (ix2 r j)) 0 := by
  unfold k0_pay1
  simp only [shapeCast_self]
  show max ((matmul (F := Ideal) dot_S2000x256_S256x256_S2000x256_1_0_0_1_n_n none (truncf (F := Ideal) .bf16 x0 bitsLt_bf16_f32) (truncf (F := Ideal) .bf16 w1 bitsLt_bf16_f32) (constant (F := Ideal) S2000x256 .f32 0x00000000#32) (ix2 r j)
      + matmul (F := Ideal) dot_S2000x128_S128x256_S2000x256_1_0_0_1_n_n none (truncf (F := Ideal) .bf16 x1 bitsLt_bf16_f32) (truncf (F := Ideal) .bf16 w3 bitsLt_bf16_f32) (constant (F := Ideal) S2000x256 .f32 0x00000000#32) (ix2 r j)) + x4 (ix2 r j)) (Ideal.ofBits .f32 0x00000000#32) = _
  rw [mmH_apply, mmB_apply, Ideal.ofBits_zero_f32]
  rfl

/-! ## From the blocks to the array -/

theorem zero_offsets : (![0, 0] : Fin 2 → Nat) = fun _ => 0 := funext fun a => by fin_cases a <;> rfl

/-- The printed index maps over the 25 grid points: a row-blocked window's block index is the point's number on the
    row axis and 0 on the column axis; a whole-array window's is 0 on both. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The body's arithmetic on blocks that read five arrays where the output index `i` says (the rows of the two
    row-blocked operands and the bias at `i`'s row, the columns of the two matrices at `i`'s column) is stage 1
    of those arrays at `i`. -/
theorem pay_eq_stage1 (x0 : Vec Ideal S2000x256 .f32) (w1 : Vec Ideal S256x256 .f32) (x1 : Vec Ideal S2000x128 .f32)
    (w3 : Vec Ideal S128x256 .f32) (x4 : Vec Ideal S2000x256 .f32)
    (h1 : S50000x256.Idx → EReal) (agg : S50000x128.Idx → EReal) (W1 : S256x256.Idx → EReal) (bW : S128x256.Idx → EReal)
    (eb : S50000x256.Idx → EReal) (y : S2000x256.Idx) (i : S50000x256.Idx)
    (hx0 : ∀ k : Fin 256, x0 (ix2 (y 0) k) = h1 (ix2 (i 0) k))
    (hw1 : ∀ k : Fin 256, w1 (ix2 k (y 1)) = W1 (ix2 k (i 1)))
    (hx1 : ∀ k : Fin 128, x1 (ix2 (y 0) k) = agg (ix2 (i 0) k))
    (hw3 : ∀ k : Fin 128, w3 (ix2 k (y 1)) = bW (ix2 k (i 1)))
    (hx4 : x4 (ix2 (y 0) (y 1)) = eb (ix2 (i 0) (i 1))) :
    k0_pay1 x0 w1 x1 w3 x4 y = Cert.Spec.arr2 (Cert.Spec.stage1 h1 agg W1 bW eb) i := by
  obtain ⟨r, j, rfl⟩ : ∃ (r : Fin 2000) (j : Fin 256), y = ix2 r j := ⟨y 0, y 1, eq_ix2 y⟩
  obtain ⟨v, u, rfl⟩ : ∃ (v : Fin 50000) (u : Fin 256), i = ix2 v u := ⟨i 0, i 1, eq_ix2 i⟩
  have hx0' : ∀ k : Fin 256, x0 (ix2 r k) = h1 (ix2 v k) := hx0
  have hw1' : ∀ k : Fin 256, w1 (ix2 k j) = W1 (ix2 k u) := hw1
  have hx1' : ∀ k : Fin 128, x1 (ix2 r k) = agg (ix2 v k) := hx1
  have hw3' : ∀ k : Fin 128, w3 (ix2 k j) = bW (ix2 k u) := hw3
  have hx4' : x4 (ix2 r j) = eb (ix2 v u) := hx4
  have s1 : (∑ k : Fin 256, x0 (ix2 r k) * w1 (ix2 k j)) = ∑ k : Fin 256, h1 (ix2 v k) * W1 (ix2 k u) :=
    Finset.sum_congr rfl fun k _ => by rw [hx0' k, hw1' k]
  have s2 : (∑ k : Fin 128, x1 (ix2 r k) * w3 (ix2 k j)) = ∑ k : Fin 128, agg (ix2 v k) * bW (ix2 k u) :=
    Finset.sum_congr rfl fun k _ => by rw [hx1' k, hw3' k]
  rw [pay_apply, s1, s2, hx4']
  rfl

/-- WHAT POINT `t` WRITES BACK is block `t` of stage 1 of the arrays the region finds. -/
theorem flushed_eq (V : (c : Dev nD) → (b : Ref sig .tc) → Buf (Elt Ideal) ((c : Thread nD τ).loc b)) (c : Dev nD) (t : Fin cfg0.N) :
    (dat0 (F := Ideal) V c).flushed 5 t = ((cfg0.win 5).blk t).view.read (Elt Ideal)
      (Cert.Spec.arr2 (Cert.Spec.stage1 (V c main_v3) (V c main_v6) (V c main_arg6) (V c main_arg4) (V c main_v18))) := by
  show (cfg0.win 5).cut (grid0.coords t) ((dat0 V c).after 5 t) = _
  rw [after0_5]
  unfold out0_5
  rw [View.canon_unit_zero zero_offsets]
  simp only [View.ld_unit_zero (S := S2000x256) zero_offsets, View.ld_unit_zero (S := S256x256) zero_offsets,
    View.ld_unit_zero (S := S2000x128) zero_offsets, View.ld_unit_zero (S := S128x256) zero_offsets]
  obtain ⟨e00, e01, e10, e11, e20, e21, e30, e31, e40, e41, e50, e51⟩ := block_indices t
  funext y
  refine pay_eq_stage1 (iblk0 V c 0 t) (iblk0 V c 2 t) (iblk0 V c 1 t) (iblk0 V c 3 t) (iblk0 V c 4 t)
    (V c main_v3) (V c main_v6) (V c main_arg6) (V c main_arg4) (V c main_v18) y (((cfg0.win 5).blk t).view.emb y) ?_ ?_ ?_ ?_ ?_
  · intro k
    show V c main_v3 (((cfg0.win 0).blk t).view.emb (ix2 (y 0) k)) = V c main_v3 (ix2 (((cfg0.win 5).blk t).view.emb y 0) k)
    refine congrArg (V c main_v3) (funext fun a => Fin.ext ?_)
    match a with
    | ⟨0, _⟩ => show win0_0.index t (0 : Fin 2) * 2000 + 1 * (y 0).val = win0_5.index t (0 : Fin 2) * 2000 + 1 * (y 0).val; omega
    | ⟨1, _⟩ => show win0_0.index t (1 : Fin 2) * 256 + 1 * k.val = k.val; omega
  · intro k
    show V c main_arg6 (((cfg0.win 2).blk t).view.emb (ix2 k (y 1))) = V c main_arg6 (ix2 k (((cfg0.win 5).blk t).view.emb y 1))
    refine congrArg (V c main_arg6) (funext fun a => Fin.ext ?_)
    match a with
    | ⟨0, _⟩ => show win0_2.index t (0 : Fin 2) * 256 + 1 * k.val = k.val; omega
    | ⟨1, _⟩ => show win0_2.index t (1 : Fin 2) * 256 + 1 * (y 1).val = win0_5.index t (1 : Fin 2) * 256 + 1 * (y 1).val; omega
  · intro k
    show V c main_v6 (((cfg0.win 1).blk t).view.emb (ix2 (y 0) k)) = V c main_v6 (ix2 (((cfg0.win 5).blk t).view.emb y 0) k)
    refine congrArg (V c main_v6) (funext fun a => Fin.ext ?_)
    match a with
    | ⟨0, _⟩ => show win0_1.index t (0 : Fin 2) * 2000 + 1 * (y 0).val = win0_5.index t (0 : Fin 2) * 2000 + 1 * (y 0).val; omega
    | ⟨1, _⟩ => show win0_1.index t (1 : Fin 2) * 128 + 1 * k.val = k.val; omega
  · intro k
    show V c main_arg4 (((cfg0.win 3).blk t).view.emb (ix2 k (y 1))) = V c main_arg4 (ix2 k (((cfg0.win 5).blk t).view.emb y 1))
    refine congrArg (V c main_arg4) (funext fun a => Fin.ext ?_)
    match a with
    | ⟨0, _⟩ => show win0_3.index t (0 : Fin 2) * 128 + 1 * k.val = k.val; omega
    | ⟨1, _⟩ => show win0_3.index t (1 : Fin 2) * 256 + 1 * (y 1).val = win0_5.index t (1 : Fin 2) * 256 + 1 * (y 1).val; omega
  · show V c main_v18 (((cfg0.win 4).blk t).view.emb (ix2 (y 0) (y 1))) = V c main_v18 (ix2 (((cfg0.win 5).blk t).view.emb y 0) (((cfg0.win 5).blk t).view.emb y 1))
    refine congrArg (V c main_v18) (funext fun a => Fin.ext ?_)
    match a with
    | ⟨0, _⟩ => show win0_4.index t (0 : Fin 2) * 2000 + 1 * (y 0).val = win0_5.index t (0 : Fin 2) * 2000 + 1 * (y 0).val; omega
    | ⟨1, _⟩ => show win0_4.index t (1 : Fin 2) * 256 + 1 * (y 1).val = win0_5.index t (1 : Fin 2) * 256 + 1 * (y 1).val; omega

/-- An index of the array is in point `t`'s block iff each coordinate is in the block's range on its axis. -/
theorem mem_block (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v19).slice (win0_5.rect t)).set ↔ _
  rw [View.set_slice_whole, Rect.mem_set_unit]
  exact Iff.rfl

/-- Every index of the array is in the block of the point numbered by its row divided by 2000. -/
theorem covered (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : (i 0).val / 2000 < cfg0.N := by rw [show cfg0.N = 25 from N_0]; omega
  obtain ⟨e00, e01, e10, e11, e20, e21, e30, e31, e40, e41, e50, e51⟩ := block_indices ⟨(i 0).val / 2000, hN⟩
  have e50' : win0_5.index ⟨(i 0).val / 2000, hN⟩ (0 : Fin 2) = (i 0).val / 2000 := e50
  refine ⟨⟨(i 0).val / 2000, hN⟩, flush0_5 _, ?_⟩
  rw [mem_block]
  intro a
  match a with
  | ⟨0, _⟩ =>
    show win0_5.index ⟨(i 0).val / 2000, hN⟩ (0 : Fin 2) * 2000 ≤ (i 0).val ∧ (i 0).val < win0_5.index ⟨(i 0).val / 2000, hN⟩ (0 : Fin 2) * 2000 + 2000
    omega
  | ⟨1, _⟩ =>
    show win0_5.index ⟨(i 0).val / 2000, hN⟩ (1 : Fin 2) * 256 ≤ (i 1).val ∧ (i 1).val < win0_5.index ⟨(i 0).val / 2000, hN⟩ (1 : Fin 2) * 256 + 256
    omega

/-- The first region's output array after its 25 grid points, whatever the contents `V` it is entered from: stage 1
    of the arrays its five input windows read. -/
theorem region0 (V : (c : Dev nD) → (b : Ref sig .tc) → Buf (Elt Ideal) ((c : Thread nD τ).loc b)) (c : Dev nD) :
    (dat0 (F := Ideal) V c).arrAt 5 cfg0.N
      = Cert.Spec.arr2 (Cert.Spec.stage1 (V c main_v3) (V c main_v6) (V c main_arg6) (V c main_arg4) (V c main_v18)) :=
  (dat0 (F := Ideal) V c).arrAt_eq_of_cover 5
    (Cert.Spec.arr2 (Cert.Spec.stage1 (V c main_v3) (V c main_v6) (V c main_arg6) (V c main_arg4) (V c main_v18)))
    (fun t _ => flushed_eq V c t) covered

end Cert.KernelIdeal.Val

end
-- ==== Proof.Region1.lean ====
/- The second kernel's output array after its 25 grid points is stage 2 of the arrays its input windows read, whatever
   the contents it is entered from.  At grid point t the body normalises rows 2000·t … 2000·t + 1999 of its input by the
   mean, variance, gain and offset rows, multiplies by the weight matrix (the sum over the contracted coordinate), adds
   the bias row and the residual block and rectifies; the 25 blocks cover the 50000 rows. -/
import proofs.«421841_j88399016886795_2_alg».proof.Proof.Gen.KernelIdeal.Frame
import proofs.«421841_j88399016886795_2_alg».proof.Proof.Spec
import Idealize.ShloMosaic.Lib.Pipeline.Value
import Idealize.ShloMosaic.Lib.ValueIdx
import Idealize.ShloMosaic.PureOps.Ideal.Laws
set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## The block product's operand indices, axis by axis -/

theorem r1_lhs_axis0 (j : S2000x256.Idx) (k : dot_S2000x256_S256x256_S2000x256_1_0_0_1_n_n.contr.Idx) :
    (dot_S2000x256_S256x256_S2000x256_1_0_0_1_n_n.lhsIdx j k 0 : ℕ) = j 0 := by
  simp [DotDims.lhsIdx, dot_S2000x256_S256x256_S2000x256_1_0_0_1_n_n]; rfl
theorem r1_lhs_axis1 (j : S2000x256.Idx) (k : dot_S2000x256_S256x256_S2000x256_1_0_0_1_n_n.contr.Idx) :
    (dot_S2000x256_S256x256_S2000x256_1_0_0_1_n_n.lhsIdx j k 1 : ℕ) = k ⟨0, by decide⟩ := by
  simp [DotDims.lhsIdx, dot_S2000x256_S256x256_S2000x256_1_0_0_1_n_n]; rfl
theorem r1_rhs_axis0 (j : S2000x256.Idx) (k : dot_S2000x256_S256x256_S2000x256_1_0_0_1_n_n.contr.Idx) :
    (dot_S2000x256_S256x256_S2000x256_1_0_0_1_n_n.rhsIdx j k 0 : ℕ) = k ⟨0, by decide⟩ := by
  simp [DotDims.rhsIdx, dot_S2000x256_S256x256_S2000x256_1_0_0_1_n_n]; rfl
theorem r1_rhs_axis1 (j : S2000x256.Idx) (k : dot_S2000x256_S256x256_S2000x256_1_0_0_1_n_n.contr.Idx) :
    (dot_S2000x256_S256x256_S2000x256_1_0_0_1_n_n.rhsIdx j k 1 : ℕ) = j 1 := by
  simp [DotDims.rhsIdx, dot_S2000x256_S256x256_S2000x256_1_0_0_1_n_n]; rfl

/-- A row broadcast down the 2000 rows reads the row at the column. -/
theorem r1_bcast_row (x : S1x256.Idx → EReal) (r : Fin 2000) (j : Fin 256) :
    broadcastTo S2000x256 x broadcasts_S1x256_S2000x256 (ix2 r j) = x (ix2 0 j) := by
  refine broadcastTo_apply x _ _ _ fun a => ?_
  match a with
  | ⟨0, _⟩ => rfl
  | ⟨1, _⟩ => rfl

/-- The block product into the zero accumulator at (r, j): the sum over the contracted coordinate. -/
theorem r1_mm_apply (A : FVec Ideal S2000x256 .bf16) (B : FVec Ideal S256x256 .bf16) (r : Fin 2000) (j : Fin 256) :
    matmul dot_S2000x256_S256x256_S2000x256_1_0_0_1_n_n none A B (constant (F := Ideal) S2000x256 .f32 0x00000000#32) (ix2 r j)
      = ∑ k : Fin 256, A (ix2 r k) * B (ix2 k j) := by
  simp only [matmul]
  rw [Ideal.matmul_constant_zero_apply,
    ← Equiv.sum_comp (contrEquiv1 dot_S2000x256_S256x256_S2000x256_1_0_0_1_n_n 256 rfl rfl).symm]
  refine Finset.sum_congr rfl fun c _ => ?_
  have c2 := contrEquiv1_symm_val dot_S2000x256_S256x256_S2000x256_1_0_0_1_n_n 256 rfl rfl c
  have l2 : dot_S2000x256_S256x256_S2000x256_1_0_0_1_n_n.lhsIdx (ix2 r j) ((contrEquiv1 _ 256 rfl rfl).symm c) = ix2 r c := by
    funext ax; apply Fin.ext
    match ax with
    | ⟨0, _⟩ => exact r1_lhs_axis0 _ _
    | ⟨1, _⟩ => exact (r1_lhs_axis1 _ _).trans c2
  have r2 : dot_S2000x256_S256x256_S2000x256_1_0_0_1_n_n.rhsIdx (ix2 r j) ((contrEquiv1 _ 256 rfl rfl).symm c) = ix2 c j := by
    funext ax; apply Fin.ext
    match ax with
    | ⟨0, _⟩ => exact (r1_rhs_axis0 _ _).trans c2
    | ⟨1, _⟩ => exact r1_rhs_axis1 _ _
  rw [l2, r2]

/-- The body's arithmetic at row r, column j of its block: stage 2's formula over the loaded blocks. -/
theorem r1_pay_apply (σ : Vec Ideal S1x256 .f32) (x : Vec Ideal S2000x256 .f32) (μ g β : Vec Ideal S1x256 .f32)
    (W : Vec Ideal S256x256 .f32) (b : Vec Ideal S1x256 .f32) (f : Vec Ideal S2000x256 .f32) (r : Fin 2000) (j : Fin 256) :
    k1_pay1 (F := Ideal) σ x μ g β W b f (ix2 r j)
      = max (((∑ k : Fin 256, ((((x (ix2 r k) - μ (ix2 0 k)) * Ideal.rsqrt (σ (ix2 0 k) + Cert.Spec.eps)) * g (ix2 0 k)) + β (ix2 0 k)) * W (ix2 k j))
          + b (ix2 0 j)) + f (ix2 r j)) 0 := by
  unfold k1_pay1
  simp only [shapeCast_self]
  rw [maximumf_apply, addf_apply, addf_apply, broadcast_apply, r1_mm_apply, r1_bcast_row]
  simp only [truncf_apply, addf_apply, mulf_apply, subf_apply, r1_bcast_row, broadcast_apply, Ideal.ofBits_def, Ideal.ofBits_zero_f32]
  rfl

/-! ## From the blocks to the array -/

theorem r1_zero_offsets : (![0, 0] : Fin 2 → Nat) = fun _ => 0 := funext fun a => by fin_cases a <;> rfl

/-- The printed index maps, decided over the 25 grid points: the three row-blocked windows (the input array, the
    residual features, the output) sit at block row `t`, block column 0; the six whole-array windows at block (0, 0). -/
theorem r1_index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

section Reads
variable (V : (c : Dev nD) → (b : Ref sig .tc) → Buf (Elt Ideal) ((c : Thread nD τ).loc b)) (c : Dev nD) (t : Fin cfg1.N)

/-- Row r of block t of the input array is row 2000·t + r of the array. -/
theorem r1_read_x (r : Fin 2000) (k : Fin 256) (v : Fin 50000) (hv : v.val = t.val * 2000 + r.val) :
    iblk1 (F := Ideal) V c 0 t (ix2 r k) = V c main_v19 (ix2 v k) := by
  obtain ⟨e0, e1, -⟩ := r1_index_maps t
  show V c main_v19 (((cfg1.win 0).blk t).view.emb (ix2 r k)) = V c main_v19 (ix2 v k)
  refine congrArg _ (funext fun a => Fin.ext ?_)
  match a with
  | ⟨0, _⟩ => show win1_0.index t (0 : Fin 2) * 2000 + 1 * r.val = v.val; omega
  | ⟨1, _⟩ => show win1_0.index t (1 : Fin 2) * 256 + 1 * k.val = k.val; omega

/-- Likewise the residual features. -/
theorem r1_read_feat (r : Fin 2000) (k : Fin 256) (v : Fin 50000) (hv : v.val = t.val * 2000 + r.val) :
    iblk1 (F := Ideal) V c 5 t (ix2 r k) = V c main_arg0 (ix2 v k) := by
  obtain ⟨-, -, -, -, -, -, -, -, -, -, e0, e1, -⟩ := r1_index_maps t
  show V c main_arg0 (((cfg1.win 5).blk t).view.emb (ix2 r k)) = V c main_arg0 (ix2 v k)
  refine congrArg _ (funext fun a => Fin.ext ?_)
  match a with
  | ⟨0, _⟩ => show win1_5.index t (0 : Fin 2) * 2000 + 1 * r.val = v.val; omega
  | ⟨1, _⟩ => show win1_5.index t (1 : Fin 2) * 256 + 1 * k.val = k.val; omega

/-- The whole-array windows read their arrays: the mean row, -/
theorem r1_read_mean (k : Fin 256) : iblk1 (F := Ideal) V c 1 t (ix2 0 k) = V c main_v24 (ix2 0 k) := by
  obtain ⟨-, -, e0, e1, -⟩ := r1_index_maps t
  show V c main_v24 (((cfg1.win 1).blk t).view.emb (ix2 0 k)) = V c main_v24 (ix2 0 k)
  refine congrArg _ (funext fun a => Fin.ext ?_)
  match a with
  | ⟨0, _⟩ => show win1_1.index t (0 : Fin 2) * 1 + 1 * 0 = 0; omega
  | ⟨1, _⟩ => show win1_1.index t (1 : Fin 2) * 256 + 1 * k.val = k.val; omega
/-- the variance row, -/
theorem r1_read_var (k : Fin 256) : iblk1 (F := Ideal) V c 2 t (ix2 0 k) = V c main_v25 (ix2 0 k) := by
  obtain ⟨-, -, -, -, e0, e1, -⟩ := r1_index_maps t
  show V c main_v25 (((cfg1.win 2).blk t).view.emb (ix2 0 k)) = V c main_v25 (ix2 0 k)
  refine congrArg _ (funext fun a => Fin.ext ?_)
  match a with
  | ⟨0, _⟩ => show win1_2.index t (0 : Fin 2) * 1 + 1 * 0 = 0; omega
  | ⟨1, _⟩ => show win1_2.index t (1 : Fin 2) * 256 + 1 * k.val = k.val; omega
/-- the gain row, -/
theorem r1_read_gain (k : Fin 256) : iblk1 (F := Ideal) V c 3 t (ix2 0 k) = V c main_v26 (ix2 0 k) := by
  obtain ⟨-, -, -, -, -, -, e0, e1, -⟩ := r1_index_maps t
  show V c main_v26 (((cfg1.win 3).blk t).view.emb (ix2 0 k)) = V c main_v26 (ix2 0 k)
  refine congrArg _ (funext fun a => Fin.ext ?_)
  match a with
  | ⟨0, _⟩ => show win1_3.index t (0 : Fin 2) * 1 + 1 * 0 = 0; omega
  | ⟨1, _⟩ => show win1_3.index t (1 : Fin 2) * 256 + 1 * k.val = k.val; omega
/-- the offset row, -/
theorem r1_read_offset (k : Fin 256) : iblk1 (F := Ideal) V c 4 t (ix2 0 k) = V c main_v27 (ix2 0 k) := by
  obtain ⟨-, -, -, -, -, -, -, -, e0, e1, -⟩ := r1_index_maps t
  show V c main_v27 (((cfg1.win 4).blk t).view.emb (ix2 0 k)) = V c main_v27 (ix2 0 k)
  refine congrArg _ (funext fun a => Fin.ext ?_)
  match a with
  | ⟨0, _⟩ => show win1_4.index t (0 : Fin 2) * 1 + 1 * 0 = 0; omega
  | ⟨1, _⟩ => show win1_4.index t (1 : Fin 2) * 256 + 1 * k.val = k.val; omega
/-- the weight matrix, -/
theorem r1_read_weight (k j : Fin 256) : iblk1 (F := Ideal) V c 6 t (ix2 k j) = V c main_arg8 (ix2 k j) := by
  obtain ⟨-, -, -, -, -, -, -, -, -, -, -, -, e0, e1, -⟩ := r1_index_maps t
  show V c main_arg8 (((cfg1.win 6).blk t).view.emb (ix2 k j)) = V c main_arg8 (ix2 k j)
  refine congrArg _ (funext fun a => Fin.ext ?_)
  match a with
  | ⟨0, _⟩ => show win1_6.index t (0 : Fin 2) * 256 + 1 * k.val = k.val; omega
  | ⟨1, _⟩ => show win1_6.index t (1 : Fin 2) * 256 + 1 * j.val = j.val; omega
/-- and the bias row. -/
theorem r1_read_bias (k : Fin 256) : iblk1 (F := Ideal) V c 7 t (ix2 0 k) = V c main_v28 (ix2 0 k) := by
  obtain ⟨-, -, -, -, -, -, -, -, -, -, -, -, -, -, e0, e1, -⟩ := r1_index_maps t
  show V c main_v28 (((cfg1.win 7).blk t).view.emb (ix2 0 k)) = V c main_v28 (ix2 0 k)
  refine congrArg _ (funext fun a => Fin.ext ?_)
  match a with
  | ⟨0, _⟩ => show win1_7.index t (0 : Fin 2) * 1 + 1 * 0 = 0; omega
  | ⟨1, _⟩ => show win1_7.index t (1 : Fin 2) * 256 + 1 * k.val = k.val; omega

/-- What point t writes back is block t of stage 2 of the arrays the windows read. -/
theorem r1_flushed_stage2 :
    (dat1 (F := Ideal) V c).flushed 8 t = ((cfg1.win 8).blk t).view.read (Elt Ideal)
      (Cert.Spec.arr2 (Cert.Spec.stage2 (V c main_v19) (V c main_v24) (V c main_v25) (V c main_v26) (V c main_v27)
        (V c main_arg0) (V c main_arg8) (V c main_v28))) := by
  show (cfg1.win 8).cut (grid1.coords t) ((dat1 V c).after 8 t) = _
  rw [after1_8]
  unfold out1_8
  rw [View.canon_unit_zero r1_zero_offsets]
  simp only [View.ld_unit_zero (S := S1x256) r1_zero_offsets, View.ld_unit_zero (S := S2000x256) r1_zero_offsets,
    View.ld_unit_zero (S := S256x256) r1_zero_offsets]
  funext y
  obtain ⟨r, j, rfl⟩ : ∃ (r : Fin 2000) (j : Fin 256), y = ix2 r j := ⟨y 0, y 1, eq_ix2 y⟩
  obtain ⟨-, -, -, -, -, -, -, -, -, -, -, -, -, -, -, -, e0, e1⟩ := r1_index_maps t
  have ht : t.val < 25 := lt_of_lt_of_eq t.isLt N_1
  have hemb : (((cfg1.win 8).blk t).view.emb (ix2 r j) : Cert.Spec.SNxH.Idx) = ix2 (⟨t.val * 2000 + r.val, by omega⟩ : Fin 50000) j := by
    funext a; apply Fin.ext
    match a with
    | ⟨0, _⟩ => show win1_8.index t (0 : Fin 2) * 2000 + 1 * r.val = t.val * 2000 + r.val; omega
    | ⟨1, _⟩ => show win1_8.index t (1 : Fin 2) * 256 + 1 * j.val = j.val; omega
  show k1_pay1 (F := Ideal) (iblk1 V c 2 t) (iblk1 V c 0 t) (iblk1 V c 1 t) (iblk1 V c 3 t) (iblk1 V c 4 t) (iblk1 V c 6 t) (iblk1 V c 7 t) (iblk1 V c 5 t) (ix2 r j)
    = Cert.Spec.arr2 (Cert.Spec.stage2 (V c main_v19) (V c main_v24) (V c main_v25) (V c main_v26) (V c main_v27)
        (V c main_arg0) (V c main_arg8) (V c main_v28)) (((cfg1.win 8).blk t).view.emb (ix2 r j))
  rw [r1_pay_apply, hemb, Cert.Spec.arr2_ix2]
  simp only [fun k => r1_read_x V c t r k ⟨t.val * 2000 + r.val, by omega⟩ rfl, r1_read_feat V c t r j ⟨t.val * 2000 + r.val, by omega⟩ rfl,
    r1_read_mean, r1_read_var, r1_read_gain, r1_read_offset, r1_read_weight, r1_read_bias]
  rfl

end Reads

/-- An index of the output array is in point t's block iff each coordinate is in the block's range on its axis. -/
theorem r1_mem_block (t : Fin cfg1.N) (i : S50000x256.Idx) :
    i ∈ ((cfg1.win 8).blk t).view.set ↔ ∀ a : Fin 2, win1_8.index t a * S2000x256.size a ≤ (i a).val ∧ (i a).val < win1_8.index t a * S2000x256.size a + S2000x256.size a := by
  show i ∈ ((View.whole main_v29).slice (win1_8.rect t)).set ↔ _
  rw [View.set_slice_whole, Rect.mem_set_unit]
  exact Iff.rfl

/-- Every row is in some point's block: row v in the block of point v / 2000. -/
theorem r1_rows_covered (i : S50000x256.Idx) :
    ∃ t : Fin cfg1.N, (cfg1.win 8).flush t = true ∧ i ∈ ((cfg1.win 8).blk t).view.set := by
  have hi0 : (i 0).val < 50000 := (i 0).isLt
  have hi1 : (i 1).val < 256 := (i 1).isLt
  have hlt : (i 0).val / 2000 < cfg1.N := lt_of_lt_of_eq (by omega : (i 0).val / 2000 < 25) N_1.symm
  obtain ⟨-, -, -, -, -, -, -, -, -, -, -, -, -, -, -, -, e0, e1⟩ := r1_index_maps ⟨(i 0).val / 2000, hlt⟩
  refine ⟨⟨(i 0).val / 2000, hlt⟩, flush1_8 _, ?_⟩
  rw [r1_mem_block]
  have e0' : win1_8.index ⟨(i 0).val / 2000, hlt⟩ (0 : Fin 2) = (i 0).val / 2000 := e0
  intro a
  match a with
  | ⟨0, _⟩ => show win1_8.index ⟨(i 0).val / 2000, hlt⟩ (0 : Fin 2) * 2000 ≤ (i 0).val ∧ (i 0).val < win1_8.index ⟨(i 0).val / 2000, hlt⟩ (0 : Fin 2) * 2000 + 2000; omega
  | ⟨1, _⟩ => show win1_8.index ⟨(i 0).val / 2000, hlt⟩ (1 : Fin 2) * 256 ≤ (i 1).val ∧ (i 1).val < win1_8.index ⟨(i 0).val / 2000, hlt⟩ (1 : Fin 2) * 256 + 256; omega

/-- The second region's output array after its 25 grid points, whatever the contents `V` it is entered from: stage 2
    of the arrays its eight input windows read. -/
theorem region1 (V : (c : Dev nD) → (b : Ref sig .tc) → Buf (Elt Ideal) ((c : Thread nD τ).loc b)) (c : Dev nD) :
    (dat1 (F := Ideal) V c).arrAt 8 cfg1.N
      = Cert.Spec.arr2 (Cert.Spec.stage2 (V c main_v19) (V c main_v24) (V c main_v25) (V c main_v26) (V c main_v27)
          (V c main_arg0) (V c main_arg8) (V c main_v28)) := by
  exact (dat1 (F := Ideal) V c).arrAt_eq_of_cover 8 _ (fun t _ => r1_flushed_stage2 V c t) r1_rows_covered

end Cert.KernelIdeal.Val

end
-- ==== Proof.Region2.lean ====
/- The third kernel's output array after its 25 grid points is the column normalisation of the arrays its input windows
   read, whatever the contents it is entered from.  At grid point t the body normalises rows 2000·t … 2000·t + 1999 of
   its input by the mean, variance, gain and offset rows; the 25 blocks cover the 50000 rows. -/
import proofs.«421841_j88399016886795_2_alg».proof.Proof.Gen.KernelIdeal.Frame
import proofs.«421841_j88399016886795_2_alg».proof.Proof.Spec
import Idealize.ShloMosaic.Lib.Pipeline.Value
import Idealize.ShloMosaic.Lib.ValueIdx
set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## The body's arithmetic at an index -/

/-- A row broadcast down the 2000 rows of a block reads the row's element of the same column. -/
theorem r2_bcast_row (v : S1x256.Idx → EReal) (r : Fin 2000) (j : Fin 256) :
    broadcastTo S2000x256 v broadcasts_S1x256_S2000x256 (ix2 r j) = v (ix2 0 j) :=
  broadcastTo_apply v _ (ix2 r j) (ix2 0 j) (fun a => by match a with | ⟨0, _⟩ => rfl | ⟨1, _⟩ => rfl)

/-- The body's arithmetic at row `r`, column `j` of a block: the block's element minus the mean row's, times the
    inverse square root of the variance row's plus `eps`, times the gain row's, plus the offset row's. -/
theorem r2_pay_apply (σ : Vec Ideal S1x256 .f32) (x : Vec Ideal S2000x256 .f32) (μ g β : Vec Ideal S1x256 .f32)
    (r : Fin 2000) (j : Fin 256) :
    k2_pay1 σ x μ g β (ix2 r j)
      = ((x (ix2 r j) - μ (ix2 0 j)) * Ideal.rsqrt (σ (ix2 0 j) + Cert.Spec.eps)) * g (ix2 0 j) + β (ix2 0 j) := by
  unfold k2_pay1
  simp only [shapeCast_self]
  rw [addf_apply, mulf_apply, mulf_apply, subf_apply, r2_bcast_row, r2_bcast_row, r2_bcast_row, r2_bcast_row]
  rfl

/-! ## From the blocks to the array -/

/-- The zero offsets of a whole-buffer access, as the constant function. -/
theorem r2_zero_offsets : (![0, 0] : Fin 2 → Nat) = fun _ => 0 := funext fun a => by fin_cases a <;> rfl

/-- The printed index maps, decided over the 25 grid points: the two row-blocked windows (the input array and the
    output) sit at block row `t`, block column 0; the four whole-array windows at block (0, 0). -/
theorem r2_index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section Reads
variable (V : (c : Dev nD) → (b : Ref sig .tc) → Buf (Elt Ideal) ((c : Thread nD τ).loc b)) (c : Dev nD) (t : Fin cfg2.N)

/-- Row r of block t of the input array is row 2000·t + r of the array. -/
theorem r2_read_x (r : Fin 2000) (k : Fin 256) (v : Fin 50000) (hv : v.val = t.val * 2000 + r.val) :
    iblk2 (F := Ideal) V c 0 t (ix2 r k) = V c main_v29 (ix2 v k) := by
  obtain ⟨e0, e1, -⟩ := r2_index_maps t
  show V c main_v29 (((cfg2.win 0).blk t).view.emb (ix2 r k)) = V c main_v29 (ix2 v k)
  refine congrArg _ (funext fun a => Fin.ext ?_)
  match a with
  | ⟨0, _⟩ => show win2_0.index t (0 : Fin 2) * 2000 + 1 * r.val = v.val; omega
  | ⟨1, _⟩ => show win2_0.index t (1 : Fin 2) * 256 + 1 * k.val = k.val; omega

/-- The whole-array windows read their arrays: the mean row, -/
theorem r2_read_mean (k : Fin 256) : iblk2 (F := Ideal) V c 1 t (ix2 0 k) = V c main_v34 (ix2 0 k) := by
  obtain ⟨-, -, e0, e1, -⟩ := r2_index_maps t
  show V c main_v34 (((cfg2.win 1).blk t).view.emb (ix2 0 k)) = V c main_v34 (ix2 0 k)
  refine congrArg _ (funext fun a => Fin.ext ?_)
  match a with
  | ⟨0, _⟩ => show win2_1.index t (0 : Fin 2) * 1 + 1 * 0 = 0; omega
  | ⟨1, _⟩ => show win2_1.index t (1 : Fin 2) * 256 + 1 * k.val = k.val; omega
/-- the variance row, -/
theorem r2_read_var (k : Fin 256) : iblk2 (F := Ideal) V c 2 t (ix2 0 k) = V c main_v35 (ix2 0 k) := by
  obtain ⟨-, -, -, -, e0, e1, -⟩ := r2_index_maps t
  show V c main_v35 (((cfg2.win 2).blk t).view.emb (ix2 0 k)) = V c main_v35 (ix2 0 k)
  refine congrArg _ (funext fun a => Fin.ext ?_)
  match a with
  | ⟨0, _⟩ => show win2_2.index t (0 : Fin 2) * 1 + 1 * 0 = 0; omega
  | ⟨1, _⟩ => show win2_2.index t (1 : Fin 2) * 256 + 1 * k.val = k.val; omega
/-- the gain row, -/
theorem r2_read_gain (k : Fin 256) : iblk2 (F := Ideal) V c 3 t (ix2 0 k) = V c main_v36 (ix2 0 k) := by
  obtain ⟨-, -, -, -, -, -, e0, e1, -⟩ := r2_index_maps t
  show V c main_v36 (((cfg2.win 3).blk t).view.emb (ix2 0 k)) = V c main_v36 (ix2 0 k)
  refine congrArg _ (funext fun a => Fin.ext ?_)
  match a with
  | ⟨0, _⟩ => show win2_3.index t (0 : Fin 2) * 1 + 1 * 0 = 0; omega
  | ⟨1, _⟩ => show win2_3.index t (1 : Fin 2) * 256 + 1 * k.val = k.val; omega
/-- and the offset row. -/
theorem r2_read_offset (k : Fin 256) : iblk2 (F := Ideal) V c 4 t (ix2 0 k) = V c main_v37 (ix2 0 k) := by
  obtain ⟨-, -, -, -, -, -, -, -, e0, e1, -⟩ := r2_index_maps t
  show V c main_v37 (((cfg2.win 4).blk t).view.emb (ix2 0 k)) = V c main_v37 (ix2 0 k)
  refine congrArg _ (funext fun a => Fin.ext ?_)
  match a with
  | ⟨0, _⟩ => show win2_4.index t (0 : Fin 2) * 1 + 1 * 0 = 0; omega
  | ⟨1, _⟩ => show win2_4.index t (1 : Fin 2) * 256 + 1 * k.val = k.val; omega

/-- What point t writes back is block t of the column normalisation of the arrays the windows read. -/
theorem r2_flushed_norm :
    (dat2 (F := Ideal) V c).flushed 5 t = ((cfg2.win 5).blk t).view.read (Elt Ideal)
      (Cert.Spec.arr2 (Cert.Spec.norm (V c main_v29) (V c main_v34) (V c main_v35) (V c main_v36) (V c main_v37))) := by
  show (cfg2.win 5).cut (grid2.coords t) ((dat2 V c).after 5 t) = _
  rw [after2_5]
  unfold out2_5
  rw [View.canon_unit_zero r2_zero_offsets]
  simp only [View.ld_unit_zero (S := S1x256) r2_zero_offsets, View.ld_unit_zero (S := S2000x256) r2_zero_offsets]
  funext y
  obtain ⟨r, j, rfl⟩ : ∃ (r : Fin 2000) (j : Fin 256), y = ix2 r j := ⟨y 0, y 1, eq_ix2 y⟩
  obtain ⟨-, -, -, -, -, -, -, -, -, -, e0, e1⟩ := r2_index_maps t
  have ht : t.val < 25 := lt_of_lt_of_eq t.isLt N_2
  have hemb : (((cfg2.win 5).blk t).view.emb (ix2 r j) : Cert.Spec.SNxH.Idx) = ix2 (⟨t.val * 2000 + r.val, by omega⟩ : Fin 50000) j := by
    funext a; apply Fin.ext
    match a with
    | ⟨0, _⟩ => show win2_5.index t (0 : Fin 2) * 2000 + 1 * r.val = t.val * 2000 + r.val; omega
    | ⟨1, _⟩ => show win2_5.index t (1 : Fin 2) * 256 + 1 * j.val = j.val; omega
  show k2_pay1 (F := Ideal) (iblk2 V c 2 t) (iblk2 V c 0 t) (iblk2 V c 1 t) (iblk2 V c 3 t) (iblk2 V c 4 t) (ix2 r j)
    = Cert.Spec.arr2 (Cert.Spec.norm (V c main_v29) (V c main_v34) (V c main_v35) (V c main_v36) (V c main_v37))
        (((cfg2.win 5).blk t).view.emb (ix2 r j))
  rw [r2_pay_apply, hemb, Cert.Spec.arr2_ix2]
  rw [r2_read_x V c t r j ⟨t.val * 2000 + r.val, by omega⟩ rfl, r2_read_mean, r2_read_var, r2_read_gain, r2_read_offset]
  rfl

end Reads

/-- An index of the output array is in point t's block iff each coordinate is in the block's range on its axis. -/
theorem r2_mem_block (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v38).slice (win2_5.rect t)).set ↔ _
  rw [View.set_slice_whole, Rect.mem_set_unit]
  exact Iff.rfl

/-- Every row is in some point's block: row v in the block of point v / 2000. -/
theorem r2_rows_covered (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  obtain ⟨t, ht⟩ : ∃ t : Fin cfg2.N, t.val = (i 0).val / 2000 :=
    ⟨⟨(i 0).val / 2000, lt_of_lt_of_eq (by omega : (i 0).val / 2000 < 25) N_2.symm⟩, rfl⟩
  obtain ⟨-, -, -, -, -, -, -, -, -, -, e0, e1⟩ := r2_index_maps t
  refine ⟨t, flush2_5 t, ?_⟩
  rw [r2_mem_block]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 256 ≤ (i 1).val ∧ (i 1).val < win2_5.index t (1 : Fin 2) * 256 + 256; omega

/-- The third region's output array after its 25 grid points, whatever the contents `V` it is entered from: the
    column normalisation of the arrays its five input windows read. -/
theorem region2 (V : (c : Dev nD) → (b : Ref sig .tc) → Buf (Elt Ideal) ((c : Thread nD τ).loc b)) (c : Dev nD) :
    (dat2 (F := Ideal) V c).arrAt 5 cfg2.N
      = Cert.Spec.arr2 (Cert.Spec.norm (V c main_v29) (V c main_v34) (V c main_v35) (V c main_v36) (V c main_v37)) := by
  exact (dat2 (F := Ideal) V c).arrAt_eq_of_cover 5 _ (fun t _ => r2_flushed_norm V c t) r2_rows_covered

end Cert.KernelIdeal.Val

end
-- ==== Proof.KTerm.lean ====
/- The host terms the kernel program computes before its first region, over whole arrays: the row lookup along the
   edges with its range mask (a row whose index is out of range is filled with the not-a-number pattern), the three
   sums onto the edges' target nodes (of the looked-up rows, of the raw edge rows, of a one per edge: the in-degree),
   and the bias array: the first bias row plus the in-degree times the bond bias row. -/
import proofs.«421841_j88399016886795_2_alg».proof.KernelIdeal

noncomputable section

namespace Cert.KernelIdeal.Term

open Cert.KernelIdeal Idealize.ShloMosaic
open Facts₀ Facts

variable {F : FTy → Type} [FloatOps F] [Facts]

/-- An edge's source index as the lookup reads it: a negative index counts from the end. -/
def takeIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Per edge: is that index inside [0, 49999]? -/
def takeMask (src : IVec S800000 32) : IVec S800000 1 :=
  Host.reduce IntOp.andi
    (andi (cmpi .sge (takeIdx src) (broadcastInDim S800000x1 ![] bcast_S_S800000x1 (constantI S_ 32 0#32)))
      (cmpi .sle (takeIdx src)
        (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The looked-up rows: the source row where the index is in range, the fill pattern elsewhere. -/
def takeT (feat : FVec F S50000x256 .f32) (src : IVec S800000 32) : FVec F S800000x256 .f32 :=
  select (broadcastInDim S800000x256 ![0] bcast_S800000_S800000x256_0 (takeMask src))
    (Host.gather gather_S50000x256_S800000x1_S800000x256_1_0_n_n_0_1_1256 feat (takeIdx src))
    (broadcastInDim S800000x256 ![] bcast_S_S800000x256 (constant (F := F) S_ .f32 0x7FC00000#32))

/-- The neighbour states: the looked-up rows summed onto the edges' target nodes. -/
def h1K (feat : FVec F S50000x256 .f32) (src dst : IVec S800000 32) : FVec F S50000x256 .f32 :=
  Host.scatterAdd scatter_S50000x256_S800000x1_S800000x256_1_0_0_1
    (broadcastInDim S50000x256 ![] bcast_S_S50000x256 (constant (F := F) S_ .f32 0x00000000#32))
    (broadcastInDim S800000x1 ![0] bcast_S800000_S800000x1_0 dst) (takeT feat src)

/-- The raw edge rows summed onto the edges' target nodes. -/
def aggK (ew : FVec F S800000x128 .f32) (dst : IVec S800000 32) : FVec F S50000x128 .f32 :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 dst) ew

/-- The in-degree: a one per edge summed onto the edge's target node. -/
def degK (dst : IVec S800000 32) : FVec F S50000 .f32 :=
  Host.scatterAdd scatter_S50000_S800000x1_S800000_n_0_0_1
    (broadcastInDim S50000 ![] bcast_S_S50000 (constant (F := F) S_ .f32 0x00000000#32))
    (broadcastInDim S800000x1 ![0] bcast_S800000_S800000x1_0 dst)
    (broadcastInDim S800000 ![] bcast_S_S800000 (constant (F := F) S_ .f32 0x3F800000#32))

/-- The bias array: the first bias row on every node, plus the node's in-degree times the bond bias row. -/
def ebK (b1 bb : FVec F S256 .f32) (dst : IVec S800000 32) : FVec F S50000x256 .f32 :=
  addf (broadcastInDim S50000x256 ![0, 1] bcast_S1x256_S50000x256_0_1 (broadcastInDim S1x256 ![1] bcast_S256_S1x256_1 b1))
    (mulf (broadcastInDim S50000x256 ![0, 1] bcast_S50000x1_S50000x256_0_1 (broadcastInDim S50000x1 ![0] bcast_S50000_S50000x1_0 (degK (F := F) dst)))
      (broadcastInDim S50000x256 ![0, 1] bcast_S1x256_S50000x256_0_1 (broadcastInDim S1x256 ![1] bcast_S256_S1x256_1 bb)))

end Cert.KernelIdeal.Term

end
-- ==== Proof.Fold1.lean ====
/- What the first kernel's five input windows hold when it is entered: the launch memory after the two host stretches
   before it.  The neighbour states, the summed edge rows and the bias array are the host terms of the argument arrays
   (the fold of the stretches' operations read at those buffers); the two weight matrices are as launched, no operation
   of either stretch writing an argument. -/
import proofs.«421841_j88399016886795_2_alg».proof.Proof.Gen.KernelIdeal.Frame
import Idealize.ShloMosaic.Lib.ValueIdx
import Idealize.ShloMosaic.Lib.StableHlo.Run
import proofs.«421841_j88399016886795_2_alg».proof.Proof.KTerm
set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat Cfg Window)
open Idealize.SL.Sem
open scoped BigOperators

variable (m : (ℓ : Loc nD τ sig) → Buf (Elt Ideal) ℓ) (ρ : Dev nD → PrngReg)

/-! What the first region's five input windows hold when it is entered (the contents `W2`, the launch memory after
    the two host stretches before it): the three sums onto the target nodes and the bias array as terms of the
    argument arrays, and the two weight matrices as launched. -/

/-! ## The two host stretches read at one buffer, from any contents

The first stretch (the row lookup) is read in three pieces, one after the other: the index each edge reads, the
range mask over that index, and the masked rows; each piece is a short chain whose typed-reference casts are the
identity. The second stretch (the three sums and the bias array) is read in one piece. The sums, the reduction and
the row lookup stay folded throughout: no equation here looks inside them. -/

attribute [local irreducible] Host.scatterAdd Host.reduce Host.gather

/-- Piece 1 of the first stretch: the index each edge reads, a negative one counted from the end. -/
theorem f1_A_v5 (V : Valuation τ sig (Elt Ideal)) :
    StableHlo.after ((hostOps0 (F := Ideal)).take 8) V (Proc.devRef .tc main_call0_v5)
      = Term.takeIdx (V (Proc.devRef .tc main_arg2)) := by
  simp only [hostOps0, List.take_succ_cons, List.take_zero]
  after_results_simp
  simp only [StableHlo.TRef.ofBuf, StableHlo.TRef.toBuf]
  unfold Term.takeIdx
  rfl

/-- Piece 1 leaves the node rows as they were. -/
theorem f1_A_arg0 (V : Valuation τ sig (Elt Ideal)) :
    StableHlo.after ((hostOps0 (F := Ideal)).take 8) V (Proc.devRef .tc main_arg0) = V (Proc.devRef .tc main_arg0) := by
  simp only [hostOps0, List.drop_succ_cons, List.drop_zero, List.take_succ_cons, List.take_zero]
  after_results_simp

/-- Piece 2 of the first stretch: per edge, is the index it reads inside [0, 49999]? -/
theorem f1_B_v12 (V : Valuation τ sig (Elt Ideal)) :
    StableHlo.after (((hostOps0 (F := Ideal)).drop 8).take 10) V (Proc.devRef .tc main_call0_v12)
      = Host.reduce IntOp.andi
          (andi (cmpi .sge (V (Proc.devRef .tc main_call0_v5)) (broadcastInDim S800000x1 ![] bcast_S_S800000x1 (constantI S_ 32 0#32)))
            (cmpi .sle (V (Proc.devRef .tc main_call0_v5))
              (broadcastInDim S800000x1 ![0, 1] bcast_S1x1_S800000x1_0_1 (broadcastInDim S1x1 ![1] bcast_S1_S1x1_1 (constantI S1 32 49999#32)))))
          (constantI S_ 1 1#1) reducesTo_S800000x1_S800000_d1 h_S_ := by
  simp only [hostOps0, List.drop_succ_cons, List.drop_zero, List.take_succ_cons, List.take_zero]
  after_results_simp
  simp only [StableHlo.TRef.ofBuf, StableHlo.TRef.toBuf]
  rfl

/-- Piece 2 leaves the index and the node rows as they were. -/
theorem f1_B_v5 (V : Valuation τ sig (Elt Ideal)) :
    StableHlo.after (((hostOps0 (F := Ideal)).drop 8).take 10) V (Proc.devRef .tc main_call0_v5) = V (Proc.devRef .tc main_call0_v5) := by
  simp only [hostOps0, List.drop_succ_cons, List.drop_zero, List.take_succ_cons, List.take_zero]
  after_results_simp

theorem f1_B_arg0 (V : Valuation τ sig (Elt Ideal)) :
    StableHlo.after (((hostOps0 (F := Ideal)).drop 8).take 10) V (Proc.devRef .tc main_arg0) = V (Proc.devRef .tc main_arg0) := by
  simp only [hostOps0, List.drop_succ_cons, List.drop_zero, List.take_succ_cons, List.take_zero]
  after_results_simp

/-- Piece 3 of the first stretch: the source row where the mask holds, the fill pattern elsewhere. -/
theorem f1_C_v0 (V : Valuation τ sig (Elt Ideal)) :
    StableHlo.after (((hostOps0 (F := Ideal)).drop 8).drop 10) V (Proc.devRef .tc main_v0)
      = select (broadcastInDim S800000x256 ![0] bcast_S800000_S800000x256_0 (V (Proc.devRef .tc main_call0_v12)))
          (Host.gather gather_S50000x256_S800000x1_S800000x256_1_0_n_n_0_1_1256 (V (Proc.devRef .tc main_arg0)) (V (Proc.devRef .tc main_call0_v5)))
          (broadcastInDim S800000x256 ![] bcast_S_S800000x256 (constant (F := Ideal) S_ .f32 0x7FC00000#32)) := by
  simp only [hostOps0, List.drop_succ_cons, List.drop_zero]
  after_results_simp
  simp only [StableHlo.TRef.ofBuf, StableHlo.TRef.toBuf]
  rfl

/-- The first stretch at its result: the three pieces in a row are the looked-up rows, as a term of the node rows
    and the source indices. -/
theorem f1_after0_v0 (V : Valuation τ sig (Elt Ideal)) :
    StableHlo.after (hostOps0 (F := Ideal)) V (Proc.devRef .tc main_v0)
      = Term.takeT (F := Ideal) (V (Proc.devRef .tc main_arg0)) (V (Proc.devRef .tc main_arg2)) := by
  have hs : (hostOps0 (F := Ideal)) = ((hostOps0 (F := Ideal)).take 8) ++ ((((hostOps0 (F := Ideal)).drop 8).take 10) ++ (((hostOps0 (F := Ideal)).drop 8).drop 10)) := by
    rw [List.take_append_drop, List.take_append_drop]
  rw [hs, StableHlo.after_append, StableHlo.after_append, f1_C_v0, f1_B_v12, f1_B_arg0, f1_B_v5, f1_A_v5, f1_A_arg0]
  unfold Term.takeT Term.takeMask
  rfl

/-- The first stretch writes none of the other arguments. -/
theorem f1_after0_arg1 (V : Valuation τ sig (Elt Ideal)) :
    StableHlo.after (hostOps0 (F := Ideal)) V (Proc.devRef .tc main_arg1) = V (Proc.devRef .tc main_arg1) := by
  simp only [hostOps0, List.drop_succ_cons, List.drop_zero, List.take_succ_cons, List.take_zero]
  after_results_simp

theorem f1_after0_arg3 (V : Valuation τ sig (Elt Ideal)) :
    StableHlo.after (hostOps0 (F := Ideal)) V (Proc.devRef .tc main_arg3) = V (Proc.devRef .tc main_arg3) := by
  simp only [hostOps0, List.drop_succ_cons, List.drop_zero, List.take_succ_cons, List.take_zero]
  after_results_simp

theorem f1_after0_arg4 (V : Valuation τ sig (Elt Ideal)) :
    StableHlo.after (hostOps0 (F := Ideal)) V (Proc.devRef .tc main_arg4) = V (Proc.devRef .tc main_arg4) := by
  simp only [hostOps0, List.drop_succ_cons, List.drop_zero, List.take_succ_cons, List.take_zero]
  after_results_simp

theorem f1_after0_arg5 (V : Valuation τ sig (Elt Ideal)) :
    StableHlo.after (hostOps0 (F := Ideal)) V (Proc.devRef .tc main_arg5) = V (Proc.devRef .tc main_arg5) := by
  simp only [hostOps0, List.drop_succ_cons, List.drop_zero, List.take_succ_cons, List.take_zero]
  after_results_simp

theorem f1_after0_arg6 (V : Valuation τ sig (Elt Ideal)) :
    StableHlo.after (hostOps0 (F := Ideal)) V (Proc.devRef .tc main_arg6) = V (Proc.devRef .tc main_arg6) := by
  simp only [hostOps0, List.drop_succ_cons, List.drop_zero, List.take_succ_cons, List.take_zero]
  after_results_simp

theorem f1_after0_arg7 (V : Valuation τ sig (Elt Ideal)) :
    StableHlo.after (hostOps0 (F := Ideal)) V (Proc.devRef .tc main_arg7) = V (Proc.devRef .tc main_arg7) := by
  simp only [hostOps0, List.drop_succ_cons, List.drop_zero, List.take_succ_cons, List.take_zero]
  after_results_simp

/-- The second stretch at the first sum: the looked-up rows summed onto the edges' target nodes. -/
theorem f1_after1_v3 (V : Valuation τ sig (Elt Ideal)) :
    StableHlo.after (hostOps0_1 (F := Ideal)) V (Proc.devRef .tc main_v3)
      = Host.scatterAdd scatter_S50000x256_S800000x1_S800000x256_1_0_0_1
          (broadcastInDim S50000x256 ![] bcast_S_S50000x256 (constant (F := Ideal) S_ .f32 0x00000000#32))
          (broadcastInDim S800000x1 ![0] bcast_S800000_S800000x1_0 (V (Proc.devRef .tc main_arg3)))
          (V (Proc.devRef .tc main_v0)) := by
  simp only [hostOps0_1]
  after_results_simp

/-- The second stretch at the second sum: the raw edge rows summed onto the edges' target nodes. -/
theorem f1_after1_v6 (V : Valuation τ sig (Elt Ideal)) :
    StableHlo.after (hostOps0_1 (F := Ideal)) V (Proc.devRef .tc main_v6)
      = Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 (V (Proc.devRef .tc main_arg3)))
          (V (Proc.devRef .tc main_arg1)) := by
  simp only [hostOps0_1]
  after_results_simp

/-- The second stretch at the bias array: the first bias row plus the in-degree times the bond bias row. -/
theorem f1_after1_v18 (V : Valuation τ sig (Elt Ideal)) :
    StableHlo.after (hostOps0_1 (F := Ideal)) V (Proc.devRef .tc main_v18)
      = addf (broadcastInDim S50000x256 ![0, 1] bcast_S1x256_S50000x256_0_1 (broadcastInDim S1x256 ![1] bcast_S256_S1x256_1 (V (Proc.devRef .tc main_arg7))))
          (mulf (broadcastInDim S50000x256 ![0, 1] bcast_S50000x1_S50000x256_0_1 (broadcastInDim S50000x1 ![0] bcast_S50000_S50000x1_0
              (Host.scatterAdd scatter_S50000_S800000x1_S800000_n_0_0_1
                (broadcastInDim S50000 ![] bcast_S_S50000 (constant (F := Ideal) S_ .f32 0x00000000#32))
                (broadcastInDim S800000x1 ![0] bcast_S800000_S800000x1_0 (V (Proc.devRef .tc main_arg3)))
                (broadcastInDim S800000 ![] bcast_S_S800000 (constant (F := Ideal) S_ .f32 0x3F800000#32)))))
            (broadcastInDim S50000x256 ![0, 1] bcast_S1x256_S50000x256_0_1 (broadcastInDim S1x256 ![1] bcast_S256_S1x256_1 (V (Proc.devRef .tc main_arg5))))) := by
  simp only [hostOps0_1]
  after_results_simp

/-- The second stretch writes neither weight matrix. -/
theorem f1_after1_arg4 (V : Valuation τ sig (Elt Ideal)) :
    StableHlo.after (hostOps0_1 (F := Ideal)) V (Proc.devRef .tc main_arg4) = V (Proc.devRef .tc main_arg4) := by
  simp only [hostOps0_1, List.drop_succ_cons, List.drop_zero, List.take_succ_cons, List.take_zero]
  after_results_simp

theorem f1_after1_arg6 (V : Valuation τ sig (Elt Ideal)) :
    StableHlo.after (hostOps0_1 (F := Ideal)) V (Proc.devRef .tc main_arg6) = V (Proc.devRef .tc main_arg6) := by
  simp only [hostOps0_1, List.drop_succ_cons, List.drop_zero, List.take_succ_cons, List.take_zero]
  after_results_simp

/-- The launch contents at a buffer are the launch memory there. -/
theorem f1_W0 (c : Dev nD) (b : Ref sig .tc) : W0 m ρ c (Proc.devRef .tc b) = m ((c : Thread nD τ).loc b) := rfl

theorem W2_v3 (c : Dev nD) : W2 m ρ c (Proc.devRef .tc main_v3)
    = Term.h1K (F := Ideal) (m ((c : Thread nD τ).loc main_arg0)) (m ((c : Thread nD τ).loc main_arg2)) (m ((c : Thread nD τ).loc main_arg3)) := by
  show StableHlo.after (hostOps0_1 (F := Ideal)) (StableHlo.after (hostOps0 (F := Ideal)) (W0 m ρ c)) (Proc.devRef .tc main_v3) = _
  rw [f1_after1_v3, f1_after0_v0, f1_after0_arg3, f1_W0, f1_W0, f1_W0]
  unfold Term.h1K
  rfl

theorem W2_v6 (c : Dev nD) : W2 m ρ c (Proc.devRef .tc main_v6)
    = Term.aggK (F := Ideal) (m ((c : Thread nD τ).loc main_arg1)) (m ((c : Thread nD τ).loc main_arg3)) := by
  show StableHlo.after (hostOps0_1 (F := Ideal)) (StableHlo.after (hostOps0 (F := Ideal)) (W0 m ρ c)) (Proc.devRef .tc main_v6) = _
  rw [f1_after1_v6, f1_after0_arg3, f1_after0_arg1, f1_W0, f1_W0]
  unfold Term.aggK
  rfl

theorem W2_v18 (c : Dev nD) : W2 m ρ c (Proc.devRef .tc main_v18)
    = Term.ebK (F := Ideal) (m ((c : Thread nD τ).loc main_arg7)) (m ((c : Thread nD τ).loc main_arg5)) (m ((c : Thread nD τ).loc main_arg3)) := by
  show StableHlo.after (hostOps0_1 (F := Ideal)) (StableHlo.after (hostOps0 (F := Ideal)) (W0 m ρ c)) (Proc.devRef .tc main_v18) = _
  rw [f1_after1_v18, f1_after0_arg7, f1_after0_arg5, f1_after0_arg3, f1_W0, f1_W0, f1_W0]
  unfold Term.ebK Term.degK
  rfl

theorem W2_arg6 (c : Dev nD) : W2 m ρ c (Proc.devRef .tc main_arg6) = (m ((c : Thread nD τ).loc main_arg6)) := by
  show StableHlo.after (hostOps0_1 (F := Ideal)) (StableHlo.after (hostOps0 (F := Ideal)) (W0 m ρ c)) (Proc.devRef .tc main_arg6) = _
  rw [f1_after1_arg6, f1_after0_arg6, f1_W0]

theorem W2_arg4 (c : Dev nD) : W2 m ρ c (Proc.devRef .tc main_arg4) = (m ((c : Thread nD τ).loc main_arg4)) := by
  show StableHlo.after (hostOps0_1 (F := Ideal)) (StableHlo.after (hostOps0 (F := Ideal)) (W0 m ρ c)) (Proc.devRef .tc main_arg4) = _
  rw [f1_after1_arg4, f1_after0_arg4, f1_W0]

end Cert.KernelIdeal.Val

end
-- ==== Proof.RefTerm.lean ====
/- The reference's computation as terms over whole arrays, stage by stage: the column mean and variance, the
   column normalisation, the rectified affine layer of stage 1 (neighbour states gathered along the edges and summed
   onto their target nodes, times a weight matrix, plus a bias, plus the projected edge rows summed onto their
   target nodes), the layer of stage 2 over the normalised stage 1, and the final normalisation. -/
import proofs.«421841_j88399016886795_2_alg».proof.ReferenceIdeal

noncomputable section

namespace Cert.ReferenceIdeal.Term

open Cert.ReferenceIdeal Idealize.ShloMosaic
open Facts₀ Facts

variable {F : FTy → Type} [FloatOps F] [Facts]

/-- A row of 256 numbers laid along every node: first as a 1 × 256 array, then repeated down the 50000 rows. -/
def rows (r : FVec F S256 .f32) : FVec F S50000x256 .f32 :=
  broadcastInDim S50000x256 ![0, 1] bcast_S1x256_S50000x256_0_1 (broadcastInDim S1x256 ![1] bcast_S256_S1x256_1 r)

/-- The mean of each column over the 50000 nodes. -/
def meanT (x : FVec F S50000x256 .f32) : FVec F S256 .f32 :=
  Host.divf (Host.reduceAdd x (constant (F := F) S_ .f32 0x00000000#32) reducesTo_S50000x256_S256_d0 h_S_)
    (broadcastInDim S256 ![] bcast_S_S256 (constant (F := F) S_ .f32 0x47435000#32))

/-- The (biased) variance of each column over the 50000 nodes: the mean of the squared deviations from the column
    mean, the divisor 50000 − 0 computed as the program computes it, and the guard on that divisor kept as written. -/
def varT (x : FVec F S50000x256 .f32) : FVec F S256 .f32 :=
  select
    (broadcastInDim S256 ![] bcast_S_S256
      (cmpf .ogt (subf (constant (F := F) S_ .f32 0x47435000#32) (sitofp .f32 (constantI S_ 32 0#32))) (constant (F := F) S_ .f32 0x00000000#32)))
    (Host.divf
      (Host.reduceAdd
        (mulf
          (subf x (broadcastInDim S50000x256 ![0, 1] bcast_S1x256_S50000x256_0_1
            (Host.divf (broadcastInDim S1x256 ![1] bcast_S256_S1x256_1
                (Host.reduceAdd x (constant (F := F) S_ .f32 0x00000000#32) reducesTo_S50000x256_S256_d0 h_S_))
              (broadcastInDim S1x256 ![] bcast_S_S1x256 (constant (F := F) S_ .f32 0x47435000#32)))))
          (subf x (broadcastInDim S50000x256 ![0, 1] bcast_S1x256_S50000x256_0_1
            (Host.divf (broadcastInDim S1x256 ![1] bcast_S256_S1x256_1
                (Host.reduceAdd x (constant (F := F) S_ .f32 0x00000000#32) reducesTo_S50000x256_S256_d0 h_S_))
              (broadcastInDim S1x256 ![] bcast_S_S1x256 (constant (F := F) S_ .f32 0x47435000#32))))))
        (constant (F := F) S_ .f32 0x00000000#32) reducesTo_S50000x256_S256_d0 h_S_)
      (broadcastInDim S256 ![] bcast_S_S256 (subf (constant (F := F) S_ .f32 0x47435000#32) (sitofp .f32 (constantI S_ 32 0#32)))))
    (broadcastInDim S256 ![] bcast_S_S256 (id (constant (F := F) S_ .f32 0x7FC00000#32)))

/-- The column normalisation with a given mean and variance row, a gain row and an offset row. -/
def normT (x : FVec F S50000x256 .f32) (μ σ g β : FVec F S256 .f32) : FVec F S50000x256 .f32 :=
  addf (mulf (mulf (subf x (rows μ))
      (rows (Host.rsqrt (addf σ (broadcastInDim S256 ![] bcast_S_S256 (constant (F := F) S_ .f32 0x3727C5AC#32))))))
    (rows g)) (rows β)

/-- Batch normalisation: the column normalisation at the array's own column mean and variance. -/
def bnT (x : FVec F S50000x256 .f32) (g β : FVec F S256 .f32) : FVec F S50000x256 .f32 :=
  normT x (meanT x) (varT x) g β

/-- The rectifier: the maximum with zero. -/
def reluT (x : FVec F S50000x256 .f32) : FVec F S50000x256 .f32 :=
  maximumf x (broadcastInDim S50000x256 ![] bcast_S_S50000x256 (constant (F := F) S_ .f32 0x00000000#32))

/-- An edge's source index as the row lookup reads it: a negative index counts from the end. -/
def srcIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The neighbour states: each edge's source row, summed onto the edge's target node. -/
def h1T (feat : FVec F S50000x256 .f32) (src dst : IVec S800000 32) : FVec F S50000x256 .f32 :=
  Host.scatterAdd scatter_S50000x256_S800000x1_S800000x256_1_0_0_1
    (broadcastInDim S50000x256 ![] bcast_S_S50000x256 (constant (F := F) S_ .f32 0x00000000#32))
    (broadcastInDim S800000x1 ![0] bcast_S800000_S800000x1_0 dst)
    (Host.gather gather_S50000x256_S800000x1_S800000x256_1_0_n_n_0_1_1256 feat (srcIdx src))

/-- The edge states: each edge's row times the bond matrix plus the bond bias, summed onto the edge's target node. -/
def h2T (ew : FVec F S800000x128 .f32) (dst : IVec S800000 32) (bW : FVec F S128x256 .f32) (bb : FVec F S256 .f32) :
    FVec F S50000x256 .f32 :=
  Host.scatterAdd scatter_S50000x256_S800000x1_S800000x256_1_0_0_1
    (broadcastInDim S50000x256 ![] bcast_S_S50000x256 (constant (F := F) S_ .f32 0x00000000#32))
    (broadcastInDim S800000x1 ![0] bcast_S800000_S800000x1_0 dst)
    (addf (Host.dotGeneral dot_S800000x128_S128x256_S800000x256_1_0_0_1_n_n none ew bW)
      (broadcastInDim S800000x256 ![0, 1] bcast_S1x256_S800000x256_0_1 (broadcastInDim S1x256 ![1] bcast_S256_S1x256_1 bb)))

/-- Stage 1 before normalisation. -/
def pre1T (feat : FVec F S50000x256 .f32) (ew : FVec F S800000x128 .f32) (src dst : IVec S800000 32)
    (bW : FVec F S128x256 .f32) (bb : FVec F S256 .f32) (W1 : FVec F S256x256 .f32) (b1 : FVec F S256 .f32) :
    FVec F S50000x256 .f32 :=
  reluT (addf (addf (Host.dotGeneral dot_S50000x256_S256x256_S50000x256_1_0_0_1_n_n none (h1T feat src dst) W1) (rows b1))
    (h2T ew dst bW bb))

/-- Stage 2 before normalisation, over stage 1's array `x`. -/
def pre2T (x feat : FVec F S50000x256 .f32) (W2 : FVec F S256x256 .f32) (b2 g1 β1 : FVec F S256 .f32) :
    FVec F S50000x256 .f32 :=
  reluT (addf (addf (Host.dotGeneral dot_S50000x256_S256x256_S50000x256_1_0_0_1_n_n none (bnT x g1 β1) W2) (rows b2)) feat)

/-- The whole layer. -/
def outT (feat : FVec F S50000x256 .f32) (ew : FVec F S800000x128 .f32) (src dst : IVec S800000 32)
    (bW : FVec F S128x256 .f32) (bb : FVec F S256 .f32) (W1 : FVec F S256x256 .f32) (b1 : FVec F S256 .f32)
    (W2 : FVec F S256x256 .f32) (b2 g1 β1 g2 β2 : FVec F S256 .f32) : FVec F S50000x256 .f32 :=
  bnT (pre2T (pre1T feat ew src dst bW bb W1 b1) feat W2 b2 g1 β1) g2 β2

end Cert.ReferenceIdeal.Term

end
-- ==== Proof.Fold2.lean ====
/- What the second and the third kernels' input windows hold when they are entered.  Each is entered three host
   stretches after the kernel before it: a column mean, the column variance, and reshapes of rows of 256 numbers into
   1 × 256 arrays.  So the windows hold the previous kernel's output array as it was left, that array's column mean and
   variance as rows (the reference's own mean and variance terms of it), and the gain, offset, residual, weight and bias
   arguments as launched, no operation in between writing them. -/
import proofs.«421841_j88399016886795_2_alg».proof.Proof.Gen.KernelIdeal.Frame
import Idealize.ShloMosaic.Lib.ValueIdx
import Idealize.ShloMosaic.Lib.StableHlo.Run
import proofs.«421841_j88399016886795_2_alg».proof.Proof.RefTerm
import proofs.«421841_j88399016886795_2_alg».proof.Proof.Gen.ReferenceIdeal
set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat Cfg Window)
open Idealize.SL.Sem
open scoped BigOperators

variable (m : (ℓ : Loc nD τ sig) → Buf (Elt Ideal) ℓ) (ρ : Dev nD → PrngReg)

/-- A row of 256 numbers as the 1 × 256 array a region's window reads. -/
abbrev row (r : FVec Ideal S256 .f32) : FVec Ideal S1x256 .f32 := shapeCast S1x256 r shapeCasts_S256_S1x256

/-- A buffer that no operation of a host stretch writes holds after the stretch what it held before it: every
    operation of the literal list writes one reference, and that reference is another one. -/
local macro "unwritten" r:ident l:ident : term =>
  `(StableHlo.after_of_forall_not_mem (b := Proc.devRef .tc $r) _ _ (List.forall_iff_forall_mem.mp (by
      simp only [$l:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! The arguments these windows read are, at each boundary up to the second and third regions' entries, what was
    launched: no host operation writes an argument, and neither the first nor the second region holds one of these
    as a window array. -/

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := unwritten main_arg0 hostOps0_1
    _ = W0 m ρ c (Proc.devRef .tc main_arg0) := unwritten main_arg0 hostOps0
    _ = m ((c : Thread nD τ).loc main_arg0) := rfl
theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := unwritten main_arg8 hostOps0_1
    _ = W0 m ρ c (Proc.devRef .tc main_arg8) := unwritten main_arg8 hostOps0
    _ = m ((c : Thread nD τ).loc main_arg8) := rfl
theorem W3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := unwritten main_arg9 hostOps0_1
    _ = W0 m ρ c (Proc.devRef .tc main_arg9) := unwritten main_arg9 hostOps0
    _ = m ((c : Thread nD τ).loc main_arg9) := rfl
theorem W3_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := unwritten main_arg10 hostOps0_1
    _ = W0 m ρ c (Proc.devRef .tc main_arg10) := unwritten main_arg10 hostOps0
    _ = m ((c : Thread nD τ).loc main_arg10) := rfl
theorem W3_arg11 (c : Dev nD) : W3 m ρ c (Proc.devRef .tc main_arg11) = m ((c : Thread nD τ).loc main_arg11) :=
  calc W3 m ρ c (Proc.devRef .tc main_arg11)
    _ = W2 m ρ c (Proc.devRef .tc main_arg11) := W3_of_ne m ρ c main_arg11 (by decide)
    _ = W1 m ρ c (Proc.devRef .tc main_arg11) := unwritten main_arg11 hostOps0_1
    _ = W0 m ρ c (Proc.devRef .tc main_arg11) := unwritten main_arg11 hostOps0
    _ = m ((c : Thread nD τ).loc main_arg11) := rfl
theorem W3_arg12 (c : Dev nD) : W3 m ρ c (Proc.devRef .tc main_arg12) = m ((c : Thread nD τ).loc main_arg12) :=
  calc W3 m ρ c (Proc.devRef .tc main_arg12)
    _ = W2 m ρ c (Proc.devRef .tc main_arg12) := W3_of_ne m ρ c main_arg12 (by decide)
    _ = W1 m ρ c (Proc.devRef .tc main_arg12) := unwritten main_arg12 hostOps0_1
    _ = W0 m ρ c (Proc.devRef .tc main_arg12) := unwritten main_arg12 hostOps0
    _ = m ((c : Thread nD τ).loc main_arg12) := rfl
theorem W3_arg13 (c : Dev nD) : W3 m ρ c (Proc.devRef .tc main_arg13) = m ((c : Thread nD τ).loc main_arg13) :=
  calc W3 m ρ c (Proc.devRef .tc main_arg13)
    _ = W2 m ρ c (Proc.devRef .tc main_arg13) := W3_of_ne m ρ c main_arg13 (by decide)
    _ = W1 m ρ c (Proc.devRef .tc main_arg13) := unwritten main_arg13 hostOps0_1
    _ = W0 m ρ c (Proc.devRef .tc main_arg13) := unwritten main_arg13 hostOps0
    _ = m ((c : Thread nD τ).loc main_arg13) := rfl

theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := unwritten main_arg0 hostOps1_1
    _ = W3 m ρ c (Proc.devRef .tc main_arg0) := unwritten main_arg0 hostOps1
    _ = m ((c : Thread nD τ).loc main_arg0) := W3_arg0 m ρ c
theorem W5_arg8 (c : Dev nD) : W5 m ρ c (Proc.devRef .tc main_arg8) = m ((c : Thread nD τ).loc main_arg8) :=
  calc W5 m ρ c (Proc.devRef .tc main_arg8)
    _ = W4 m ρ c (Proc.devRef .tc main_arg8) := unwritten main_arg8 hostOps1_1
    _ = W3 m ρ c (Proc.devRef .tc main_arg8) := unwritten main_arg8 hostOps1
    _ = m ((c : Thread nD τ).loc main_arg8) := W3_arg8 m ρ c
theorem W5_arg9 (c : Dev nD) : W5 m ρ c (Proc.devRef .tc main_arg9) = m ((c : Thread nD τ).loc main_arg9) :=
  calc W5 m ρ c (Proc.devRef .tc main_arg9)
    _ = W4 m ρ c (Proc.devRef .tc main_arg9) := unwritten main_arg9 hostOps1_1
    _ = W3 m ρ c (Proc.devRef .tc main_arg9) := unwritten main_arg9 hostOps1
    _ = m ((c : Thread nD τ).loc main_arg9) := W3_arg9 m ρ c
theorem W5_arg10 (c : Dev nD) : W5 m ρ c (Proc.devRef .tc main_arg10) = m ((c : Thread nD τ).loc main_arg10) :=
  calc W5 m ρ c (Proc.devRef .tc main_arg10)
    _ = W4 m ρ c (Proc.devRef .tc main_arg10) := unwritten main_arg10 hostOps1_1
    _ = W3 m ρ c (Proc.devRef .tc main_arg10) := unwritten main_arg10 hostOps1
    _ = m ((c : Thread nD τ).loc main_arg10) := W3_arg10 m ρ c
theorem W5_arg11 (c : Dev nD) : W5 m ρ c (Proc.devRef .tc main_arg11) = m ((c : Thread nD τ).loc main_arg11) :=
  calc W5 m ρ c (Proc.devRef .tc main_arg11)
    _ = W4 m ρ c (Proc.devRef .tc main_arg11) := unwritten main_arg11 hostOps1_1
    _ = W3 m ρ c (Proc.devRef .tc main_arg11) := unwritten main_arg11 hostOps1
    _ = m ((c : Thread nD τ).loc main_arg11) := W3_arg11 m ρ c
theorem W5_arg12 (c : Dev nD) : W5 m ρ c (Proc.devRef .tc main_arg12) = m ((c : Thread nD τ).loc main_arg12) :=
  calc W5 m ρ c (Proc.devRef .tc main_arg12)
    _ = W4 m ρ c (Proc.devRef .tc main_arg12) := unwritten main_arg12 hostOps1_1
    _ = W3 m ρ c (Proc.devRef .tc main_arg12) := unwritten main_arg12 hostOps1
    _ = m ((c : Thread nD τ).loc main_arg12) := W3_arg12 m ρ c
theorem W5_arg13 (c : Dev nD) : W5 m ρ c (Proc.devRef .tc main_arg13) = m ((c : Thread nD τ).loc main_arg13) :=
  calc W5 m ρ c (Proc.devRef .tc main_arg13)
    _ = W4 m ρ c (Proc.devRef .tc main_arg13) := unwritten main_arg13 hostOps1_1
    _ = W3 m ρ c (Proc.devRef .tc main_arg13) := unwritten main_arg13 hostOps1
    _ = m ((c : Thread nD τ).loc main_arg13) := W3_arg13 m ρ c

theorem W9_arg12 (c : Dev nD) : W9 m ρ c (Proc.devRef .tc main_arg12) = m ((c : Thread nD τ).loc main_arg12) :=
  calc W9 m ρ c (Proc.devRef .tc main_arg12)
    _ = W8 m ρ c (Proc.devRef .tc main_arg12) := unwritten main_arg12 hostOps2_1
    _ = W7 m ρ c (Proc.devRef .tc main_arg12) := unwritten main_arg12 hostOps2
    _ = W6 m ρ c (Proc.devRef .tc main_arg12) := W7_of_ne m ρ c main_arg12 (by decide)
    _ = W5 m ρ c (Proc.devRef .tc main_arg12) := unwritten main_arg12 hostOps1_2
    _ = m ((c : Thread nD τ).loc main_arg12) := W5_arg12 m ρ c
theorem W9_arg13 (c : Dev nD) : W9 m ρ c (Proc.devRef .tc main_arg13) = m ((c : Thread nD τ).loc main_arg13) :=
  calc W9 m ρ c (Proc.devRef .tc main_arg13)
    _ = W8 m ρ c (Proc.devRef .tc main_arg13) := unwritten main_arg13 hostOps2_1
    _ = W7 m ρ c (Proc.devRef .tc main_arg13) := unwritten main_arg13 hostOps2
    _ = W6 m ρ c (Proc.devRef .tc main_arg13) := W7_of_ne m ρ c main_arg13 (by decide)
    _ = W5 m ρ c (Proc.devRef .tc main_arg13) := unwritten main_arg13 hostOps1_2
    _ = m ((c : Thread nD τ).loc main_arg13) := W5_arg13 m ρ c

attribute [local irreducible] Host.reduceAdd

/-! What the second region's eight input windows hold when it is entered (the contents `W6`: the first region's exit
    contents `W3` after three host stretches): stage 1's array as the first region left it, its column mean and
    variance as rows, and gain, offset, residual, weight matrix and bias as launched. -/

/-- Stage 1's array is written by none of the three host stretches. -/
theorem W6_v19 (c : Dev nD) : W6 m ρ c (Proc.devRef .tc main_v19) = W3 m ρ c (Proc.devRef .tc main_v19) :=
  calc W6 m ρ c (Proc.devRef .tc main_v19)
    _ = W5 m ρ c (Proc.devRef .tc main_v19) := unwritten main_v19 hostOps1_2
    _ = W4 m ρ c (Proc.devRef .tc main_v19) := unwritten main_v19 hostOps1_1
    _ = W3 m ρ c (Proc.devRef .tc main_v19) := unwritten main_v19 hostOps1

/-- The first stretch leaves in `main_v22` the column sum of `main_v19` over the zero word, divided by the word of
    50000 laid along the 256 columns: the reference's mean term of the same array, operation for operation (the two
    programs' names for the shapes and for the side conditions of the sum and the broadcast denote the same
    literals and propositions). The sum itself is never opened. -/
theorem W4_main_v22 (c : Dev nD) : W4 m ρ c (Proc.devRef .tc main_v22)
    = Cert.ReferenceIdeal.Term.meanT (F := Ideal) (W3 m ρ c (Proc.devRef .tc main_v19)) := by
  show StableHlo.after hostOps1 (W3 m ρ c) (Proc.devRef .tc main_v22) = _
  generalize W3 m ρ c = X
  simp only [hostOps1]
  after_results_simp
  unfold Cert.ReferenceIdeal.Term.meanT
  rfl

/-- The second stretch (the variance function) leaves in `main_v23` the guarded mean of the squared deviations of
    `main_v19` from its column mean, the divisor 50000 − 0 computed from the integer constant the first stretch wrote:
    the reference's variance term of the same array, operation for operation. Each typed reference reads and writes
    its buffer through the identity. The sums are never opened. -/
theorem W5_main_v23 (c : Dev nD) : W5 m ρ c (Proc.devRef .tc main_v23)
    = Cert.ReferenceIdeal.Term.varT (F := Ideal) (W3 m ρ c (Proc.devRef .tc main_v19)) := by
  show StableHlo.after hostOps1_1 (StableHlo.after hostOps1 (W3 m ρ c)) (Proc.devRef .tc main_v23) = _
  generalize W3 m ρ c = X
  simp only [hostOps1_1, hostOps1]
  after_results_simp
  unfold Cert.ReferenceIdeal.Term.varT
  rfl

/-- The third stretch reshapes a row of 256 numbers into the 1 × 256 array of the same numbers. -/
theorem hostOps1_2_main_v24 (X : Valuation τ sig (Elt Ideal)) :
    StableHlo.after hostOps1_2 X (Proc.devRef .tc main_v24) = row (X (Proc.devRef .tc main_v22)) := by
  simp only [hostOps1_2]
  after_results_simp
  rfl
theorem hostOps1_2_main_v25 (X : Valuation τ sig (Elt Ideal)) :
    StableHlo.after hostOps1_2 X (Proc.devRef .tc main_v25) = row (X (Proc.devRef .tc main_v23)) := by
  simp only [hostOps1_2]
  after_results_simp
  rfl
theorem hostOps1_2_main_v26 (X : Valuation τ sig (Elt Ideal)) :
    StableHlo.after hostOps1_2 X (Proc.devRef .tc main_v26) = row (X (Proc.devRef .tc main_arg10)) := by
  simp only [hostOps1_2]
  after_results_simp
  rfl
theorem hostOps1_2_main_v27 (X : Valuation τ sig (Elt Ideal)) :
    StableHlo.after hostOps1_2 X (Proc.devRef .tc main_v27) = row (X (Proc.devRef .tc main_arg11)) := by
  simp only [hostOps1_2]
  after_results_simp
  rfl
theorem hostOps1_2_main_v28 (X : Valuation τ sig (Elt Ideal)) :
    StableHlo.after hostOps1_2 X (Proc.devRef .tc main_v28) = row (X (Proc.devRef .tc main_arg9)) := by
  simp only [hostOps1_2]
  after_results_simp
  rfl

theorem W6_v24 (c : Dev nD) : W6 m ρ c (Proc.devRef .tc main_v24)
    = row (Cert.ReferenceIdeal.Term.meanT (F := Ideal) (W3 m ρ c (Proc.devRef .tc main_v19))) :=
  calc W6 m ρ c (Proc.devRef .tc main_v24)
    _ = row (W5 m ρ c (Proc.devRef .tc main_v22)) := hostOps1_2_main_v24 (W5 m ρ c)
    _ = row (W4 m ρ c (Proc.devRef .tc main_v22)) := congrArg row (unwritten main_v22 hostOps1_1)
    _ = row (Cert.ReferenceIdeal.Term.meanT (F := Ideal) (W3 m ρ c (Proc.devRef .tc main_v19))) :=
        congrArg row (W4_main_v22 m ρ c)
theorem W6_v25 (c : Dev nD) : W6 m ρ c (Proc.devRef .tc main_v25)
    = row (Cert.ReferenceIdeal.Term.varT (F := Ideal) (W3 m ρ c (Proc.devRef .tc main_v19))) :=
  calc W6 m ρ c (Proc.devRef .tc main_v25)
    _ = row (W5 m ρ c (Proc.devRef .tc main_v23)) := hostOps1_2_main_v25 (W5 m ρ c)
    _ = row (Cert.ReferenceIdeal.Term.varT (F := Ideal) (W3 m ρ c (Proc.devRef .tc main_v19))) :=
        congrArg row (W5_main_v23 m ρ c)
theorem W6_v26 (c : Dev nD) : W6 m ρ c (Proc.devRef .tc main_v26) = row (m ((c : Thread nD τ).loc main_arg10)) :=
  calc W6 m ρ c (Proc.devRef .tc main_v26)
    _ = row (W5 m ρ c (Proc.devRef .tc main_arg10)) := hostOps1_2_main_v26 (W5 m ρ c)
    _ = row (m ((c : Thread nD τ).loc main_arg10)) := congrArg row (W5_arg10 m ρ c)
theorem W6_v27 (c : Dev nD) : W6 m ρ c (Proc.devRef .tc main_v27) = row (m ((c : Thread nD τ).loc main_arg11)) :=
  calc W6 m ρ c (Proc.devRef .tc main_v27)
    _ = row (W5 m ρ c (Proc.devRef .tc main_arg11)) := hostOps1_2_main_v27 (W5 m ρ c)
    _ = row (m ((c : Thread nD τ).loc main_arg11)) := congrArg row (W5_arg11 m ρ c)
theorem W6_v28 (c : Dev nD) : W6 m ρ c (Proc.devRef .tc main_v28) = row (m ((c : Thread nD τ).loc main_arg9)) :=
  calc W6 m ρ c (Proc.devRef .tc main_v28)
    _ = row (W5 m ρ c (Proc.devRef .tc main_arg9)) := hostOps1_2_main_v28 (W5 m ρ c)
    _ = row (m ((c : Thread nD τ).loc main_arg9)) := congrArg row (W5_arg9 m ρ c)

theorem W6_arg0 (c : Dev nD) : W6 m ρ c (Proc.devRef .tc main_arg0) = (m ((c : Thread nD τ).loc main_arg0)) :=
  calc W6 m ρ c (Proc.devRef .tc main_arg0)
    _ = W5 m ρ c (Proc.devRef .tc main_arg0) := unwritten main_arg0 hostOps1_2
    _ = m ((c : Thread nD τ).loc main_arg0) := W5_arg0 m ρ c
theorem W6_arg8 (c : Dev nD) : W6 m ρ c (Proc.devRef .tc main_arg8) = (m ((c : Thread nD τ).loc main_arg8)) :=
  calc W6 m ρ c (Proc.devRef .tc main_arg8)
    _ = W5 m ρ c (Proc.devRef .tc main_arg8) := unwritten main_arg8 hostOps1_2
    _ = m ((c : Thread nD τ).loc main_arg8) := W5_arg8 m ρ c

/-! The same for the third region's five input windows (the contents `W10`: the second region's exit contents `W7`
    after three host stretches). -/

/-- Stage 2's array is written by none of the three host stretches. -/
theorem W10_v29 (c : Dev nD) : W10 m ρ c (Proc.devRef .tc main_v29) = W7 m ρ c (Proc.devRef .tc main_v29) :=
  calc W10 m ρ c (Proc.devRef .tc main_v29)
    _ = W9 m ρ c (Proc.devRef .tc main_v29) := unwritten main_v29 hostOps2_2
    _ = W8 m ρ c (Proc.devRef .tc main_v29) := unwritten main_v29 hostOps2_1
    _ = W7 m ρ c (Proc.devRef .tc main_v29) := unwritten main_v29 hostOps2

/-- The first stretch leaves in `main_v32` the column sum of `main_v29` over the zero word, divided by the word of
    50000 laid along the 256 columns: the reference's mean term of the same array, operation for operation (the two
    programs' names for the shapes and for the side conditions of the sum and the broadcast denote the same
    literals and propositions). The sum itself is never opened. -/
theorem W8_main_v32 (c : Dev nD) : W8 m ρ c (Proc.devRef .tc main_v32)
    = Cert.ReferenceIdeal.Term.meanT (F := Ideal) (W7 m ρ c (Proc.devRef .tc main_v29)) := by
  show StableHlo.after hostOps2 (W7 m ρ c) (Proc.devRef .tc main_v32) = _
  generalize W7 m ρ c = X
  simp only [hostOps2]
  after_results_simp
  unfold Cert.ReferenceIdeal.Term.meanT
  rfl

/-- The second stretch (the variance function) leaves in `main_v33` the guarded mean of the squared deviations of
    `main_v29` from its column mean, the divisor 50000 − 0 computed from the integer constant the first stretch wrote:
    the reference's variance term of the same array, operation for operation. Each typed reference reads and writes
    its buffer through the identity. The sums are never opened. -/
theorem W9_main_v33 (c : Dev nD) : W9 m ρ c (Proc.devRef .tc main_v33)
    = Cert.ReferenceIdeal.Term.varT (F := Ideal) (W7 m ρ c (Proc.devRef .tc main_v29)) := by
  show StableHlo.after hostOps2_1 (StableHlo.after hostOps2 (W7 m ρ c)) (Proc.devRef .tc main_v33) = _
  generalize W7 m ρ c = X
  simp only [hostOps2_1, hostOps2]
  after_results_simp
  unfold Cert.ReferenceIdeal.Term.varT
  rfl

/-- The third stretch reshapes a row of 256 numbers into the 1 × 256 array of the same numbers. -/
theorem hostOps2_2_main_v34 (X : Valuation τ sig (Elt Ideal)) :
    StableHlo.after hostOps2_2 X (Proc.devRef .tc main_v34) = row (X (Proc.devRef .tc main_v32)) := by
  simp only [hostOps2_2]
  after_results_simp
  rfl
theorem hostOps2_2_main_v35 (X : Valuation τ sig (Elt Ideal)) :
    StableHlo.after hostOps2_2 X (Proc.devRef .tc main_v35) = row (X (Proc.devRef .tc main_v33)) := by
  simp only [hostOps2_2]
  after_results_simp
  rfl
theorem hostOps2_2_main_v36 (X : Valuation τ sig (Elt Ideal)) :
    StableHlo.after hostOps2_2 X (Proc.devRef .tc main_v36) = row (X (Proc.devRef .tc main_arg12)) := by
  simp only [hostOps2_2]
  after_results_simp
  rfl
theorem hostOps2_2_main_v37 (X : Valuation τ sig (Elt Ideal)) :
    StableHlo.after hostOps2_2 X (Proc.devRef .tc main_v37) = row (X (Proc.devRef .tc main_arg13)) := by
  simp only [hostOps2_2]
  after_results_simp
  rfl

theorem W10_v34 (c : Dev nD) : W10 m ρ c (Proc.devRef .tc main_v34)
    = row (Cert.ReferenceIdeal.Term.meanT (F := Ideal) (W7 m ρ c (Proc.devRef .tc main_v29))) :=
  calc W10 m ρ c (Proc.devRef .tc main_v34)
    _ = row (W9 m ρ c (Proc.devRef .tc main_v32)) := hostOps2_2_main_v34 (W9 m ρ c)
    _ = row (W8 m ρ c (Proc.devRef .tc main_v32)) := congrArg row (unwritten main_v32 hostOps2_1)
    _ = row (Cert.ReferenceIdeal.Term.meanT (F := Ideal) (W7 m ρ c (Proc.devRef .tc main_v29))) :=
        congrArg row (W8_main_v32 m ρ c)
theorem W10_v35 (c : Dev nD) : W10 m ρ c (Proc.devRef .tc main_v35)
    = row (Cert.ReferenceIdeal.Term.varT (F := Ideal) (W7 m ρ c (Proc.devRef .tc main_v29))) :=
  calc W10 m ρ c (Proc.devRef .tc main_v35)
    _ = row (W9 m ρ c (Proc.devRef .tc main_v33)) := hostOps2_2_main_v35 (W9 m ρ c)
    _ = row (Cert.ReferenceIdeal.Term.varT (F := Ideal) (W7 m ρ c (Proc.devRef .tc main_v29))) :=
        congrArg row (W9_main_v33 m ρ c)
theorem W10_v36 (c : Dev nD) : W10 m ρ c (Proc.devRef .tc main_v36) = row (m ((c : Thread nD τ).loc main_arg12)) :=
  calc W10 m ρ c (Proc.devRef .tc main_v36)
    _ = row (W9 m ρ c (Proc.devRef .tc main_arg12)) := hostOps2_2_main_v36 (W9 m ρ c)
    _ = row (m ((c : Thread nD τ).loc main_arg12)) := congrArg row (W9_arg12 m ρ c)
theorem W10_v37 (c : Dev nD) : W10 m ρ c (Proc.devRef .tc main_v37) = row (m ((c : Thread nD τ).loc main_arg13)) :=
  calc W10 m ρ c (Proc.devRef .tc main_v37)
    _ = row (W9 m ρ c (Proc.devRef .tc main_arg13)) := hostOps2_2_main_v37 (W9 m ρ c)
    _ = row (m ((c : Thread nD τ).loc main_arg13)) := congrArg row (W9_arg13 m ρ c)

end Cert.KernelIdeal.Val

end
-- ==== Proof.LibScatterGather.lean ====
/- The host's accumulating scatter and its row gather, read at one index, for the shapes that a segment sum
   over a list of edges and a row lookup by a list of edges take: a vector or a matrix of rows indexed by an
   [E × 1] column of signed index words.

   An update whose index word, read signed, lies in [0, N) is added into that row; any other update is dropped.
   A gathered row is the row at the index word read signed and clamped into [0, N − 1]. -/
import Idealize.ShloMosaic.PureOps.Ideal
import Idealize.ShloMosaic.Lib.ValueIdx
import Idealize.ShloMosaic.Lib.StableHlo.Predicate

noncomputable section

namespace Cert.ScatterGather

open Idealize.ShloMosaic Idealize.ShloMosaic.ValueIdx
open scoped BigOperators

/-- The row an index word names for a scatter into `N` rows: the word read signed, when it lies in [0, N);
    no row otherwise (the update is dropped). -/
def tgtW (N : Nat) {w : Nat} (x : BitVec w) : Option (Fin N) :=
  if h : 0 ≤ x.toInt ∧ x.toInt < (N : Int) then some ⟨x.toInt.toNat, by omega⟩ else none

/-- The row an index word names for a gather from `N` rows: the word read signed and clamped into [0, N − 1]. -/
def rowW (N : Nat) (hN : 0 < N) {w : Nat} (x : BitVec w) : Fin N := ⟨min x.toInt.toNat (N - 1), by omega⟩

/-- A word that names row `i` for the scatter names the same row for the gather. -/
theorem rowW_of_tgtW {N : Nat} (hN : 0 < N) {w : Nat} (x : BitVec w) (i : Fin N) (h : tgtW N x = some i) :
    rowW N hN x = i := by
  unfold tgtW at h
  split at h
  · next hx =>
    have hi : (⟨x.toInt.toNat, by omega⟩ : Fin N) = i := Option.some.inj h
    subst hi
    apply Fin.ext
    show min x.toInt.toNat (N - 1) = x.toInt.toNat
    omega
  · exact absurd h (by simp)

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The scatter into a vector -/

section Vec

variable {N E w : Nat} (d : ScatterDims ⟨1, ![N]⟩ ⟨2, ![E, 1]⟩ ⟨1, ![E]⟩)

/-- The start of update `e`'s window on the operand's one axis: the e-th index word, read signed. -/
theorem start_vec (hs : d.scatterDimsToOperandDims = [0]) (hv : d.indexVectorDim = 1)
    (idx : IVec ⟨2, ![E, 1]⟩ w) (e : Fin E) :
    d.start (ix1 e) idx 0 = (idx (ix2 e 0)).toInt := by
  have hm : (0 : Fin 1) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    have e' : ∀ X : Fin 1, ((ix1 e : (⟨1, ![E]⟩ : Shape).Idx) X).val = e.val := fun X => by
      have hX : X = 0 := Subsingleton.elim _ _
      subst hX; rfl
    exact e' _
  | ⟨1, _⟩ =>
    unfold ScatterDims.siIdx
    rw [dif_pos (by rw [hv])]
    apply Fin.ext
    show List.idxOf (0 : Fin 1) d.scatterDimsToOperandDims = 0
    rw [hs]; simp

/-- The operand's one axis is inserted: the window coordinate there is 0. -/
theorem window_vec (hi : d.insertedWindowDims = [0]) (j : (⟨1, ![E]⟩ : Shape).Idx) : d.window j 0 = 0 := by
  have hk : (0 : Fin 1) ∉ d.sKept := by simp [ScatterDims.sKept, Shape.kept, hi]
  unfold ScatterDims.window
  rw [dif_neg hk]

/-- Where update `e` lands: the row its index word names, when it names one. -/
theorem resultIdx?_vec (hi : d.insertedWindowDims = [0])
    (hs : d.scatterDimsToOperandDims = [0]) (hv : d.indexVectorDim = 1)
    (idx : IVec ⟨2, ![E, 1]⟩ w) (e : Fin E) :
    d.resultIdx? (ix1 e) idx = (tgtW N (idx (ix2 e 0))).map ix1 := by
  have hst := start_vec d hs hv idx e
  have hwi := window_vec d hi (ix1 e)
  unfold ScatterDims.resultIdx? tgtW
  by_cases hx : 0 ≤ (idx (ix2 e 0)).toInt ∧ (idx (ix2 e 0)).toInt < (N : Int)
  · have hall : ∀ a : Fin 1, 0 ≤ d.start (ix1 e) idx a + d.window (ix1 e) a ∧
        d.start (ix1 e) idx a + d.window (ix1 e) a < (⟨1, ![N]⟩ : Shape).size a := fun a => by
      obtain rfl : a = 0 := Subsingleton.elim _ _
      rw [hst, hwi]
      show 0 ≤ (idx (ix2 e 0)).toInt + ((0 : Nat) : Int) ∧ (idx (ix2 e 0)).toInt + ((0 : Nat) : Int) < (N : Int)
      omega
    rw [dif_pos hall, dif_pos hx]
    show some _ = some _
    congr 1
    funext a
    obtain rfl : a = 0 := Subsingleton.elim _ _
    apply Fin.ext
    show (d.start (ix1 e) idx 0 + d.window (ix1 e) 0).toNat = (idx (ix2 e 0)).toInt.toNat
    rw [hst, hwi]
    simp
  · have hnall : ¬ ∀ a : Fin 1, 0 ≤ d.start (ix1 e) idx a + d.window (ix1 e) a ∧
        d.start (ix1 e) idx a + d.window (ix1 e) a < (⟨1, ![N]⟩ : Shape).size a := fun hall => by
      have h0 := hall 0
      rw [hst, hwi] at h0
      apply hx
      have h0' : 0 ≤ (idx (ix2 e 0)).toInt + ((0 : Nat) : Int) ∧ (idx (ix2 e 0)).toInt + ((0 : Nat) : Int) < (N : Int) := h0
      omega
    rw [dif_neg hnall, dif_neg hx]
    rfl

end Vec

/-- The scatter-add into a vector, at row `i`: the operand there plus the updates whose index word names row `i`. -/
theorem scatterAdd_vec_apply {N E w : Nat}
    (d : ScatterDims ⟨1, ![N]⟩ ⟨2, ![E, 1]⟩ ⟨1, ![E]⟩)
    (hu : d.updateWindowDims = []) (hi : d.insertedWindowDims = [0])
    (hs : d.scatterDimsToOperandDims = [0]) (hv : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e ∈ Finset.univ.filter (fun e : Fin E => tgtW N (idx (ix2 e 0)) = some i), upd (ix1 e) := by
  show x (ix1 i) + ∑ j ∈ Finset.univ.filter (fun j => d.resultIdx? j idx = some (ix1 i)), upd j = _
  congr 1
  rw [Finset.sum_filter, Finset.sum_filter, sum_idx1]
  refine Finset.sum_congr rfl fun e _ => ?_
  have hiff : d.resultIdx? (ix1 e) idx = some (ix1 i) ↔ tgtW N (idx (ix2 e 0)) = some i := by
    rw [resultIdx?_vec d hi hs hv idx e]
    cases tgtW N (idx (ix2 e 0)) with
    | none => simp
    | some r =>
      simp only [Option.map_some, Option.some.injEq]
      constructor
      · intro h'
        exact congrFun h' 0
      · intro h'
        rw [h']
  exact if_congr hiff rfl rfl

/-! ## The scatter of rows into a matrix -/

/-- The first coordinate of a rank-2 index, read on an axis known to be axis 0. -/
theorem ix2_val_axis0 {n0 n1 : Nat} (a : Fin n0) (b : Fin n1) (X : Fin 2) (hX : X = 0) :
    ((ix2 a b : (⟨2, ![n0, n1]⟩ : Shape).Idx) X).val = a.val := by
  subst hX; rfl

/-- The second coordinate of a rank-2 index, read on an axis known to be axis 1. -/
theorem ix2_val_axis1 {n0 n1 : Nat} (a : Fin n0) (b : Fin n1) (X : Fin 2) (hX : X = 1) :
    ((ix2 a b : (⟨2, ![n0, n1]⟩ : Shape).Idx) X).val = b.val := by
  subst hX; rfl

section Rows

variable {N H E w : Nat} (d : ScatterDims ⟨2, ![N, H]⟩ ⟨2, ![E, 1]⟩ ⟨2, ![E, H]⟩)

/-- The updates' scatter axis is axis 0 (axis 1 is the window axis). -/
theorem uScatter_rows (hu : d.updateWindowDims = [1]) : d.uScatter = [0] := by
  show (List.finRange 2).filter (fun a => a ∉ d.updateWindowDims) = [0]
  rw [hu]
  exact (by decide : (List.finRange 2).filter (fun a : Fin 2 => a ∉ [(1 : Fin 2)]) = [(0 : Fin 2)])

/-- The operand's kept axis is axis 1 (axis 0 is inserted). -/
theorem sKept_rows (hi : d.insertedWindowDims = [0]) : d.sKept = [1] := by
  show (List.finRange 2).filter (fun a => a ∉ d.insertedWindowDims) = [1]
  rw [hi]
  exact (by decide : (List.finRange 2).filter (fun a : Fin 2 => a ∉ [(0 : Fin 2)]) = [(1 : Fin 2)])

/-- The start of update (e, c)'s window on the operand's row axis: the e-th index word, read signed. -/
theorem start_rows0 (hu : d.updateWindowDims = [1])
    (hs : d.scatterDimsToOperandDims = [0]) (hv : d.indexVectorDim = 1)
    (idx : IVec ⟨2, ![E, 1]⟩ w) (e : Fin E) (c : Fin H) :
    d.start (ix2 e c) idx 0 = (idx (ix2 e 0)).toInt := by
  have hm : (0 : Fin 2) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    refine ix2_val_axis0 e c _ ?_
    have hall : ∀ X ∈ d.uScatter, X = 0 := by
      rw [uScatter_rows d hu]; intro X hX; exact List.mem_singleton.mp hX
    exact hall _ (List.getElem_mem _)
  | ⟨1, _⟩ =>
    unfold ScatterDims.siIdx
    rw [dif_pos (by rw [hv])]
    apply Fin.ext
    show List.idxOf (0 : Fin 2) d.scatterDimsToOperandDims = 0
    rw [hs]; simp

/-- The start index names no column: the window starts at column 0. -/
theorem start_rows1 (hs : d.scatterDimsToOperandDims = [0])
    (idx : IVec ⟨2, ![E, 1]⟩ w) (j : (⟨2, ![E, H]⟩ : Shape).Idx) : d.start j idx 1 = 0 := by
  have hm : (1 : Fin 2) ∉ d.scatterDimsToOperandDims := by
    rw [hs]; exact (by decide : (1 : Fin 2) ∉ [(0 : Fin 2)])
  unfold ScatterDims.start
  rw [dif_neg hm]

/-- The operand's row axis is inserted: the window coordinate there is 0. -/
theorem window_rows0 (hi : d.insertedWindowDims = [0]) (j : (⟨2, ![E, H]⟩ : Shape).Idx) : d.window j 0 = 0 := by
  have hk : (0 : Fin 2) ∉ d.sKept := by
    rw [sKept_rows d hi]; exact (by decide : (0 : Fin 2) ∉ [(1 : Fin 2)])
  unfold ScatterDims.window
  rw [dif_neg hk]

/-- The operand's column axis is the window axis: the window coordinate there is the update's column. -/
theorem window_rows1 (hu : d.updateWindowDims = [1]) (hi : d.insertedWindowDims = [0]) (e : Fin E) (c : Fin H) :
    d.window (ix2 e c) 1 = c.val := by
  have hk : (1 : Fin 2) ∈ d.sKept := by rw [sKept_rows d hi]; exact List.mem_singleton.mpr rfl
  unfold ScatterDims.window
  rw [dif_pos hk]
  refine ix2_val_axis1 e c _ ?_
  have hall : ∀ X ∈ d.updateWindowDims, X = 1 := by
    rw [hu]; intro X hX; exact List.mem_singleton.mp hX
  exact hall _ (List.getElem_mem _)

/-- Where update (e, c) lands: column `c` of the row its index word names, when it names one. -/
theorem resultIdx?_rows (hu : d.updateWindowDims = [1]) (hi : d.insertedWindowDims = [0])
    (hs : d.scatterDimsToOperandDims = [0]) (hv : d.indexVectorDim = 1)
    (idx : IVec ⟨2, ![E, 1]⟩ w) (e : Fin E) (c : Fin H) :
    d.resultIdx? (ix2 e c) idx = (tgtW N (idx (ix2 e 0))).map (fun r => ix2 r c) := by
  have hst0 := start_rows0 d hu hs hv idx e c
  have hst1 := start_rows1 d hs idx (ix2 e c)
  have hwi0 := window_rows0 d hi (ix2 e c)
  have hwi1 := window_rows1 d hu hi e c
  have hc := c.isLt
  unfold ScatterDims.resultIdx? tgtW
  by_cases hx : 0 ≤ (idx (ix2 e 0)).toInt ∧ (idx (ix2 e 0)).toInt < (N : Int)
  · have hall : ∀ a : Fin 2, 0 ≤ d.start (ix2 e c) idx a + d.window (ix2 e c) a ∧
        d.start (ix2 e c) idx a + d.window (ix2 e c) a < (⟨2, ![N, H]⟩ : Shape).size a := by
      refine Fin.forall_fin_two.2 ⟨?_, ?_⟩
      · rw [hst0, hwi0]
        show 0 ≤ (idx (ix2 e 0)).toInt + ((0 : Nat) : Int) ∧ (idx (ix2 e 0)).toInt + ((0 : Nat) : Int) < (N : Int)
        omega
      · rw [hst1, hwi1]
        show 0 ≤ (0 : Int) + (c.val : Int) ∧ (0 : Int) + (c.val : Int) < (H : Int)
        omega
    rw [dif_pos hall, dif_pos hx]
    show some _ = some _
    congr 1
    have hpt : ∀ a : Fin 2,
        (⟨(d.start (ix2 e c) idx a + d.window (ix2 e c) a).toNat, by have := hall a; omega⟩ :
          Fin ((⟨2, ![N, H]⟩ : Shape).size a))
        = (ix2 (⟨(idx (ix2 e 0)).toInt.toNat, by omega⟩ : Fin N) c : (⟨2, ![N, H]⟩ : Shape).Idx) a := by
      refine Fin.forall_fin_two.2 ⟨?_, ?_⟩
      · apply Fin.ext
        show (d.start (ix2 e c) idx 0 + d.window (ix2 e c) 0).toNat = (idx (ix2 e 0)).toInt.toNat
        rw [hst0, hwi0]
        simp
      · apply Fin.ext
        show (d.start (ix2 e c) idx 1 + d.window (ix2 e c) 1).toNat = c.val
        rw [hst1, hwi1]
        simp
    funext a
    exact hpt a
  · have hnall : ¬ ∀ a : Fin 2, 0 ≤ d.start (ix2 e c) idx a + d.window (ix2 e c) a ∧
        d.start (ix2 e c) idx a + d.window (ix2 e c) a < (⟨2, ![N, H]⟩ : Shape).size a := fun hall => by
      have h0 := hall 0
      rw [hst0, hwi0] at h0
      apply hx
      have h0' : 0 ≤ (idx (ix2 e 0)).toInt + ((0 : Nat) : Int) ∧ (idx (ix2 e 0)).toInt + ((0 : Nat) : Int) < (N : Int) := h0
      omega
    rw [dif_neg hnall, dif_neg hx]
    rfl

end Rows

/-- The scatter-add of rows into a matrix, at (i, j): the operand there plus column `j` of the update rows whose
    index word names row `i`. -/
theorem scatterAdd_rows_apply {N H E w : Nat}
    (d : ScatterDims ⟨2, ![N, H]⟩ ⟨2, ![E, 1]⟩ ⟨2, ![E, H]⟩)
    (hu : d.updateWindowDims = [1]) (hi : d.insertedWindowDims = [0])
    (hs : d.scatterDimsToOperandDims = [0]) (hv : d.indexVectorDim = 1)
    (x : (⟨2, ![N, H]⟩ : Shape).Idx → EReal) (idx : IVec ⟨2, ![E, 1]⟩ w) (upd : (⟨2, ![E, H]⟩ : Shape).Idx → EReal)
    (i : Fin N) (j : Fin H) :
    Ideal.hostScatterAdd d x idx upd (ix2 i j)
      = x (ix2 i j) + ∑ e ∈ Finset.univ.filter (fun e : Fin E => tgtW N (idx (ix2 e 0)) = some i), upd (ix2 e j) := by
  show x (ix2 i j) + ∑ u ∈ Finset.univ.filter (fun u => d.resultIdx? u idx = some (ix2 i j)), upd u = _
  congr 1
  rw [Finset.sum_filter, Finset.sum_filter, sum_idx2]
  refine Finset.sum_congr rfl fun e _ => ?_
  have hiff : ∀ c : Fin H, d.resultIdx? (ix2 e c) idx = some (ix2 i j) ↔ (tgtW N (idx (ix2 e 0)) = some i ∧ c = j) := by
    intro c
    rw [resultIdx?_rows d hu hi hs hv idx e c]
    cases tgtW N (idx (ix2 e 0)) with
    | none => simp
    | some r =>
      simp only [Option.map_some, Option.some.injEq]
      constructor
      · intro h'
        exact ⟨congrFun h' 0, congrFun h' 1⟩
      · rintro ⟨h1, h2⟩
        rw [h1, h2]
  by_cases hq : tgtW N (idx (ix2 e 0)) = some i
  · rw [if_pos hq]
    rw [Finset.sum_eq_single j]
    · rw [if_pos ((hiff j).2 ⟨hq, rfl⟩)]
    · intro c _ hcj
      rw [if_neg (fun h => hcj ((hiff c).1 h).2)]
    · intro hj
      exact absurd (Finset.mem_univ j) hj
  · rw [if_neg hq]
    refine Finset.sum_eq_zero fun c _ => ?_
    rw [if_neg (fun h => hq ((hiff c).1 h).1)]

/-! ## The row gather -/

section GatherRows

variable {N H E w : Nat} (d : GatherDims ⟨2, ![N, H]⟩ ⟨2, ![E, 1]⟩ ⟨2, ![E, H]⟩)

/-- The operand's kept axis is the column axis (the row axis is collapsed). -/
theorem gather_sKept_rows (hcoll : d.collapsedSliceDims = [0]) (hob : d.operandBatchingDims = []) : d.sKept = [1] := by
  show (List.finRange 2).filter (fun a => a ∉ d.collapsedSliceDims ++ d.operandBatchingDims) = [1]
  rw [hcoll, hob]
  exact (by decide : (List.finRange 2).filter (fun a : Fin 2 => a ∉ [(0 : Fin 2)] ++ []) = [(1 : Fin 2)])

/-- The result's batch axis is axis 0 (axis 1 is the offset axis). -/
theorem gather_batchDims_rows (hoff : d.offsetDims = [1]) : d.batchDims = [0] := by
  show (List.finRange 2).filter (fun a => a ∉ d.offsetDims) = [0]
  rw [hoff]
  exact (by decide : (List.finRange 2).filter (fun a : Fin 2 => a ∉ [(1 : Fin 2)]) = [(0 : Fin 2)])

/-- Result index (e, j) reads its start index at row `e` of the column of index words. -/
theorem gather_siIdx_rows (hoff : d.offsetDims = [1]) (hsim : d.startIndexMap = [0]) (hivd : d.indexVectorDim = 1)
    (e : Fin E) (j : Fin H) (c : Fin d.startIndexMap.length) :
    d.siIdx (ix2 e j) c = ix2 e 0 := by
  funext b
  match b with
  | ⟨0, _⟩ =>
    unfold GatherDims.siIdx
    rw [dif_neg (by rw [hivd]; simp)]
    unfold GatherDims.siCoord
    apply Fin.ext
    simp only [Fin.val_cast]
    refine ix2_val_axis0 e j _ ?_
    have hall : ∀ X ∈ d.batchDims, X = 0 := by
      rw [gather_batchDims_rows d hoff]; intro X hX; exact List.mem_singleton.mp hX
    exact hall _ (List.getElem_mem _)
  | ⟨1, _⟩ =>
    unfold GatherDims.siIdx
    rw [dif_pos (by rw [hivd])]
    apply Fin.ext
    show c.val = 0
    have hlen : d.startIndexMap.length = 1 := by rw [hsim]; rfl
    have hc := c.isLt
    omega

/-- The start of the slice on the row axis: the e-th index word read signed and clamped into [0, N − 1]. -/
theorem gather_start_rows0 (hoff : d.offsetDims = [1]) (hcoll : d.collapsedSliceDims = [0])
    (hsim : d.startIndexMap = [0]) (hivd : d.indexVectorDim = 1)
    (idx : IVec ⟨2, ![E, 1]⟩ w) (e : Fin E) (j : Fin H) :
    d.start (ix2 e j) idx 0 = min (idx (ix2 e 0)).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, gather_siIdx_rows d hoff hsim hivd e j]
  show min (idx (ix2 e 0)).toInt.toNat (N - d.sliceSizes 0) = _
  rw [hsl]

/-- The start index names no column: the slice starts at column 0. -/
theorem gather_start_rows1 (hsim : d.startIndexMap = [0])
    (idx : IVec ⟨2, ![E, 1]⟩ w) (y : (⟨2, ![E, H]⟩ : Shape).Idx) : d.start y idx 1 = 0 := by
  have hm : (1 : Fin 2) ∉ d.startIndexMap := by
    rw [hsim]; exact (by decide : (1 : Fin 2) ∉ [(0 : Fin 2)])
  unfold GatherDims.start
  rw [dif_neg hm]

/-- The offset coordinate on the column axis is the result's column. -/
theorem gather_offCoord_rows1 (hoff : d.offsetDims = [1]) (hcoll : d.collapsedSliceDims = [0])
    (hob : d.operandBatchingDims = []) (e : Fin E) (j : Fin H) :
    d.offCoord (ix2 e j) 1 = j.val := by
  have hk : (1 : Fin 2) ∈ d.sKept := by rw [gather_sKept_rows d hcoll hob]; exact List.mem_singleton.mpr rfl
  unfold GatherDims.offCoord
  rw [dif_pos hk]
  refine ix2_val_axis1 e j _ ?_
  have hall : ∀ X ∈ d.offsetDims, X = 1 := by
    rw [hoff]; intro X hX; exact List.mem_singleton.mp hX
  exact hall _ (List.getElem_mem _)

end GatherRows

/-- The gather of rows of a matrix, at (e, j): column `j` of the row the e-th index word names. -/
theorem gather_rows_apply {α : Type} {N H E w : Nat} (hN : 0 < N)
    (d : GatherDims ⟨2, ![N, H]⟩ ⟨2, ![E, 1]⟩ ⟨2, ![E, H]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, H])
    (x : (⟨2, ![N, H]⟩ : Shape).Idx → α) (idx : IVec ⟨2, ![E, 1]⟩ w) (e : Fin E) (j : Fin H) :
    Host.gather d x idx (ix2 e j) = x (ix2 (rowW N hN (idx (ix2 e 0))) j) := by
  unfold Host.gather
  congr 1
  have hb : ∀ a : Fin 2, a ∉ d.operandBatchingDims := fun a => by rw [hob]; exact List.not_mem_nil
  have hk0 : (0 : Fin 2) ∉ d.sKept := by
    rw [gather_sKept_rows d hcoll hob]; exact (by decide : (0 : Fin 2) ∉ [(1 : Fin 2)])
  have hpt : ∀ a : Fin 2, d.operandIdx (ix2 e j) idx a
      = (ix2 (rowW N hN (idx (ix2 e 0))) j : (⟨2, ![N, H]⟩ : Shape).Idx) a := by
    refine Fin.forall_fin_two.2 ⟨?_, ?_⟩
    · apply Fin.ext
      show d.start (ix2 e j) idx 0 + d.batchCoord (ix2 e j) 0 + d.offCoord (ix2 e j) 0
        = min (idx (ix2 e 0)).toInt.toNat (N - 1)
      rw [GatherDims.batchCoord_eq_zero _ _ _ (hb 0), GatherDims.offCoord_eq_zero _ _ _ hk0,
        gather_start_rows0 d hoff hcoll hsim hivd idx e j]
      simp only [Nat.add_zero]
    · apply Fin.ext
      show d.start (ix2 e j) idx 1 + d.batchCoord (ix2 e j) 1 + d.offCoord (ix2 e j) 1 = j.val
      rw [GatherDims.batchCoord_eq_zero _ _ _ (hb 1), gather_offCoord_rows1 d hoff hcoll hob e j,
        gather_start_rows1 d hsim idx (ix2 e j)]
      omega
  funext a
  exact hpt a

/-- The gather of entries of a vector, at `e`: the entry the e-th index word names (the library's take, restated
    with `rowW`). -/
theorem gather_vec_apply {α : Type} {N E w : Nat} (hN : 0 < N)
    (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) :
    Host.gather d x idx (ix1 e) = x (ix1 (rowW N hN (idx (ix2 e 0)))) := by
  have h := StableHlo.Predicate.gather_take d hcoll hob hsim hivd x idx e hN
  have h1 : (Shape.Idx.ofFin e : (⟨1, ![E]⟩ : Shape).Idx) = ix1 e := by
    funext a
    match a with
    | ⟨0, _⟩ => rfl
  have h2 : (StableHlo.Predicate.ixP e : (⟨2, ![E, 1]⟩ : Shape).Idx) = ix2 e 0 := by
    funext a
    match a with
    | ⟨0, _⟩ => rfl
    | ⟨1, _⟩ => rfl
  rw [h1] at h
  rw [h]
  congr 1
  funext a
  match a with
  | ⟨0, _⟩ =>
    apply Fin.ext
    show min (idx (StableHlo.Predicate.ixP e)).toInt.toNat (N - 1) = min (idx (ix2 e 0)).toInt.toNat (N - 1)
    rw [h2]

end Cert.ScatterGather

end
-- ==== Proof.TakeEq.lean ====
/- With every source index in range the row lookup's range mask is true on every edge, so the looked-up rows are the
   gathered rows: nothing is filled. -/
import proofs.«421841_j88399016886795_2_alg».proof.Proof.KTerm
import Idealize.ShloMosaic.PureOps.Ideal
import Idealize.ShloMosaic.Lib.ValueIdx
import Idealize.ShloMosaic.Lib.StableHlo.Predicate

noncomputable section

namespace Cert.KernelIdeal.Term

open Cert.KernelIdeal Idealize.ShloMosaic Idealize.ShloMosaic.ValueIdx
open Facts₀ Facts

variable [Cert.KernelIdeal.Facts]

/-- ONE WORD. A 32-bit word whose signed value lies in [-50000, 50000), counted from the end when negative (50000 added;
    the sum is below 2³¹ in size, so the addition does not wrap), has its signed value in [0, 49999]. -/
private theorem word_wrap_range (x : BitVec 32) (h1 : -50000 ≤ x.toInt) (h2 : x.toInt < 50000) :
    0 ≤ (if x.toInt < 0 then x + 50000#32 else x).toInt ∧ (if x.toInt < 0 then x + 50000#32 else x).toInt ≤ 49999 := by
  have h5 : (50000#32 : BitVec 32).toInt = 50000 := by decide
  split
  · rw [BitVec.toInt_add, h5, Int.bmod_def]
    omega
  · omega

/-- The same word through the printed operations: the select on "signed below 0" between the word plus 50000 and the
    word passes both range tests, "signed at least 0" and "signed at most 49999", so their conjunction is the bit 1. -/
private theorem word_mask_one (x : BitVec 32) (h1 : -50000 ≤ x.toInt) (h2 : x.toInt < 50000) :
    IntOp.andi
      (IntOp.cmpi .sge (Scalar.select (IntOp.cmpi .slt x 0#32) (IntOp.addi x 50000#32) x) 0#32)
      (IntOp.cmpi .sle (Scalar.select (IntOp.cmpi .slt x 0#32) (IntOp.addi x 50000#32) x) 49999#32) = 1#1 := by
  have h0 : (0#32 : BitVec 32).toInt = 0 := by decide
  have h9 : (49999#32 : BitVec 32).toInt = 49999 := by decide
  -- the select is the `if` on the word's sign
  have hy : Scalar.select (IntOp.cmpi .slt x 0#32) (IntOp.addi x 50000#32) x
      = if x.toInt < 0 then x + 50000#32 else x := by
    unfold Scalar.select IntOp.cmpi IntOp.addi
    by_cases h : x.toInt < 0
    · have hs : x.slt 0#32 = true := by simp only [BitVec.slt, h0, decide_eq_true_eq]; exact h
      rw [hs, if_pos h]; rfl
    · have hs : x.slt 0#32 = false := by simp only [BitVec.slt, h0, decide_eq_false_iff_not]; exact h
      rw [hs, if_neg h]; rfl
  rw [hy]
  obtain ⟨hlo, hhi⟩ := word_wrap_range x h1 h2
  have hge : IntOp.cmpi .sge (if x.toInt < 0 then x + 50000#32 else x) 0#32 = 1#1 := by
    unfold IntOp.cmpi
    refine (StableHlo.Predicate.ofBool_eq_one_iff _).2 ?_
    simp only [BitVec.sle, h0, decide_eq_true_eq]; exact hlo
  have hle : IntOp.cmpi .sle (if x.toInt < 0 then x + 50000#32 else x) 49999#32 = 1#1 := by
    unfold IntOp.cmpi
    refine (StableHlo.Predicate.ofBool_eq_one_iff _).2 ?_
    simp only [BitVec.sle, h9, decide_eq_true_eq]; exact hhi
  rw [hge, hle]; rfl

/-- A left fold by `and` from the bit 1 over bits that are all 1 is 1. -/
private theorem foldl_andi_all_one {ι : Type} (f : ι → BitVec 1) (l : List ι) (hf : ∀ n ∈ l, f n = 1#1) :
    l.foldl (fun r n => IntOp.andi r (f n)) 1#1 = 1#1 := by
  induction l with
  | nil => rfl
  | cons a l ih =>
    have h11 : IntOp.andi (1#1 : BitVec 1) 1#1 = 1#1 := by decide
    rw [List.foldl_cons, hf a List.mem_cons_self, h11]
    exact ih (fun n hn => hf n (List.mem_cons_of_mem _ hn))

/-- A broadcast read at an index is the operand at some index. -/
private theorem bcast_read {α : Type} {s t : Shape} (dims : Fin s.rank → Fin t.rank) (h : s.BroadcastsInDim t dims) (x : s.Idx → α)
    (j : t.Idx) : ∃ k : s.Idx, broadcastInDim t dims h x j = x k := ⟨_, rfl⟩

/-- The range mask is the bit 1 on every edge: the reduction by `and` along the axis of extent 1 runs from 1 over
    conjunctions of the two range tests on an edge's adjusted index, each of which is 1 by the one-word fact. -/
theorem takeMask_eq_one (src : IVec S800000 32)
    (hsrc : ∀ e : Fin 800000, -50000 ≤ (src (ix1 e)).toInt ∧ (src (ix1 e)).toInt < 50000) (j : S800000.Idx) :
    takeMask src j = 1#1 := by
  unfold takeMask
  rw [Host.reduce_eq_foldl]
  refine foldl_andi_all_one _ _ (fun i _ => ?_)
  -- the adjusted index at i is the select at some edge k
  obtain ⟨k, hk⟩ := bcast_read ![0] bcast_S800000_S800000x1_0
    (select (cmpi .slt src (broadcastInDim S800000 ![] bcast_S_S800000 (constantI S_ 32 0#32)))
      (addi src (broadcastInDim S800000 ![] bcast_S_S800000 (constantI S_ 32 50000#32))) src) i
  have hw := word_mask_one (src k) (by rw [eq_ix1 k]; exact (hsrc (k 0)).1) (by rw [eq_ix1 k]; exact (hsrc (k 0)).2)
  show IntOp.andi (IntOp.cmpi .sge (takeIdx src i) 0#32) (IntOp.cmpi .sle (takeIdx src i) 49999#32) = 1#1
  have hi : takeIdx src i
      = Scalar.select (IntOp.cmpi .slt (src k) 0#32) (IntOp.addi (src k) 50000#32) (src k) := hk
  rw [hi]; exact hw

/-- Every source index, read signed, in [-50000, 50000): after a negative index is counted from the end the index lies
    in [0, 49999], the mask is one on every edge, and the select takes the gathered row everywhere. -/
theorem takeT_eq (feat : FVec Ideal S50000x256 .f32) (src : IVec S800000 32)
    (hsrc : ∀ e : Fin 800000, -50000 ≤ (src (ix1 e)).toInt ∧ (src (ix1 e)).toInt < 50000) :
    takeT (F := Ideal) feat src
      = Host.gather gather_S50000x256_S800000x1_S800000x256_1_0_n_n_0_1_1256 feat (takeIdx src) := by
  funext i
  unfold takeT
  rw [select_apply]
  obtain ⟨k, hk⟩ := bcast_read ![0] bcast_S800000_S800000x256_0 (takeMask src) i
  rw [hk, takeMask_eq_one src hsrc k, select_one]

end Cert.KernelIdeal.Term

end
-- ==== Proof.SumAffine.lean ====
/- The one algebraic law of the layer: a sum, over the edges that arrive at a node, of an affine image of each edge's
   row is the affine image of the summed rows, the constant counted once per arriving edge. -/
import Mathlib.Data.EReal.Operations
import Mathlib.Algebra.BigOperators.Ring.Finset
import Mathlib.Algebra.BigOperators.Group.Finset.Basic
import Mathlib.Algebra.BigOperators.Group.Finset.Sigma

noncomputable section

namespace Cert.Spec

open scoped BigOperators

/-- The coercion of the reals into the extended reals commutes with a finite sum (it is additive and sends 0 to 0). -/
theorem coe_real_finset_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- THE LAW OF STAGE 1.  Over any finite set `S` of edges, with every entry of the edge rows `a`, of the matrix
    `B` and of the constant row `b` a real number: summing over the edges the affine image `a e · B + b` of each
    edge's row gives the affine image of the summed rows, with `b` taken once per edge.  (On the extended reals a
    product does not distribute over a sum at the infinities; the entries being real is what the law needs.) -/
theorem sum_affine {E K : Type} [Fintype K] [DecidableEq E] (S : Finset E) (a : E → K → EReal) (B : K → EReal) (b : EReal)
    (ha : ∀ e k, ∃ r : ℝ, a e k = (r : EReal)) (hB : ∀ k, ∃ r : ℝ, B k = (r : EReal)) (hb : ∃ r : ℝ, b = (r : EReal)) :
    ∑ e ∈ S, ((∑ k, a e k * B k) + b) = (∑ k, (∑ e ∈ S, a e k) * B k) + (∑ _e ∈ S, (1 : EReal)) * b := by
  classical
  -- name the real numbers behind every entry
  choose a' ha' using ha
  choose B' hB' using hB
  obtain ⟨b', rfl⟩ := hb
  have ha2 : a = fun e k => ((a' e k : ℝ) : EReal) := by funext e k; exact ha' e k
  have hB2 : B = fun k => ((B' k : ℝ) : EReal) := by funext k; exact hB' k
  subst ha2 hB2
  -- both sides are the coercion of a real expression
  simp only [← EReal.coe_one, ← EReal.coe_mul, ← coe_real_finset_sum, ← EReal.coe_add]
  -- the identity over the reals: split the sum, exchange the two sums, pull the factor out, count the constant
  congr 1
  rw [Finset.sum_add_distrib, Finset.sum_comm]
  congr 1
  · exact Finset.sum_congr rfl fun k _ => (Finset.sum_mul S (fun e => a' e k) (B' k)).symm
  · rw [Finset.sum_const, Finset.sum_const, nsmul_eq_mul, nsmul_eq_mul, mul_one]

end Cert.Spec

end
-- ==== Proof.Math1.lean ====
/- Stage 1, the two programs' forms joined at every node and feature.  The kernel program's form is a rectified sum of
   (neighbour states × first weight matrix) + (summed edge rows × bond matrix) + (first bias + in-degree × bond bias); the
   reference's is the rectified sum of (neighbour states × first weight matrix + first bias) + (the sum, over the edges
   arriving at the node, of each edge row × bond matrix + bond bias).  They agree by the law that a sum of affine images
   is the affine image of the sum with the constant counted once per term, and by commutativity and associativity of
   the sum; the neighbour states agree because the lookup's range mask is true on every edge. -/
import proofs.«421841_j88399016886795_2_alg».proof.Proof.Spec
import proofs.«421841_j88399016886795_2_alg».proof.Proof.KTerm
import proofs.«421841_j88399016886795_2_alg».proof.Proof.RefTerm
import proofs.«421841_j88399016886795_2_alg».proof.Proof.LibScatterGather
import proofs.«421841_j88399016886795_2_alg».proof.Proof.TakeEq
import proofs.«421841_j88399016886795_2_alg».proof.Proof.SumAffine
import Idealize.ShloMosaic.PureOps.Ideal.Laws
import Idealize.ShloMosaic.Lib.IdealHost
import Idealize.ShloMosaic.Lib.StackMember

noncomputable section

namespace Cert.Math1

open Idealize.ShloMosaic Idealize.ShloMosaic.ValueIdx
open scoped BigOperators

variable [Cert.KernelIdeal.Facts] [Cert.ReferenceIdeal.Facts]

/-! ## Layout operations read at an index -/

/-- A rank-1 index written by the library's other constructor is the same index. -/
theorem ofFin_eq_ix1 {n : Nat} (q : Fin n) : (Shape.Idx.ofFin q : (⟨1, ![n]⟩ : Shape).Idx) = ix1 q := by
  funext a
  match a with
  | ⟨0, _⟩ => rfl

/-- A rank-2 index written by the library's other constructor is the same index. -/
theorem ij_eq_ix2 {n m : Nat} (p : Fin n) (q : Fin m) :
    (StableHlo.Predicate.ij p q : (⟨2, ![n, m]⟩ : Shape).Idx) = ix2 p q := by
  funext a
  match a with
  | ⟨0, _⟩ => rfl
  | ⟨1, _⟩ => rfl

/-- A row of m numbers repeated down n rows reads, at (p, q), the row's entry q. -/
theorem row_down_apply {α : Type} {n m : Nat} (h₁ : (⟨1, ![m]⟩ : Shape).BroadcastsInDim ⟨2, ![1, m]⟩ ![1])
    (h₂ : (⟨2, ![1, m]⟩ : Shape).BroadcastsInDim ⟨2, ![n, m]⟩ ![0, 1]) (r : (⟨1, ![m]⟩ : Shape).Idx → α)
    (p : Fin n) (q : Fin m) :
    broadcastInDim ⟨2, ![n, m]⟩ ![0, 1] h₂ (broadcastInDim ⟨2, ![1, m]⟩ ![1] h₁ r) (ix2 p q) = r (ix1 q) := by
  rw [← ij_eq_ix2, StableHlo.Predicate.bcast_cols h₁ h₂ r p q, ofFin_eq_ix1]

/-- A column of n numbers repeated along m columns reads, at (p, q), the column's entry p. -/
theorem col_along_apply {α : Type} {n m : Nat} (h₁ : (⟨1, ![n]⟩ : Shape).BroadcastsInDim ⟨2, ![n, 1]⟩ ![0])
    (h₂ : (⟨2, ![n, 1]⟩ : Shape).BroadcastsInDim ⟨2, ![n, m]⟩ ![0, 1]) (c : (⟨1, ![n]⟩ : Shape).Idx → α)
    (p : Fin n) (q : Fin m) :
    broadcastInDim ⟨2, ![n, m]⟩ ![0, 1] h₂ (broadcastInDim ⟨2, ![n, 1]⟩ ![0] h₁ c) (ix2 p q) = c (ix1 p) := by
  rw [← ij_eq_ix2, StableHlo.Predicate.bcast_rows h₁ h₂ c p q, ofFin_eq_ix1]

/-- The zero pattern spread over any shape reads the extended real zero everywhere. -/
theorem zeros_apply {T : Shape} (h : (⟨0, ![]⟩ : Shape).BroadcastsInDim T ![]) (i : T.Idx) :
    broadcastInDim T ![] h (constant (F := Ideal) ⟨0, ![]⟩ .f32 0x00000000#32) i = (0 : EReal) := by
  rw [broadcastInDim_scalar_apply, constant_apply, Ideal.ofBits_zero_f32]

/-- The pattern of one spread over any shape reads the extended real one everywhere. -/
theorem ones_apply {T : Shape} (h : (⟨0, ![]⟩ : Shape).BroadcastsInDim T ![]) (i : T.Idx) :
    broadcastInDim T ![] h (constant (F := Ideal) ⟨0, ![]⟩ .f32 0x3F800000#32) i = (1 : EReal) := by
  rw [broadcastInDim_scalar_apply, constant_apply, Ideal.ofBits_one_f32]

/-! ## The host terms read at a node and a feature -/

/-- The edges' target words as a column of index words. -/
def tcol (dst : IVec Cert.KernelIdeal.S800000 32) : IVec Cert.KernelIdeal.S800000x1 32 :=
  broadcastInDim Cert.KernelIdeal.S800000x1 ![0] Cert.KernelIdeal.Facts₀.bcast_S800000_S800000x1_0 dst

/-- The edges that arrive at node v: those whose target word names row v. -/
def arriving (dst : IVec Cert.KernelIdeal.S800000 32) (v : Fin 50000) : Finset (Fin 800000) :=
  Finset.univ.filter (fun e : Fin 800000 => Cert.ScatterGather.tgtW 50000 (tcol dst (ix2 e 0)) = some v)

/-- The summed edge rows at (v, k): zero plus the entries k of the rows of the edges that arrive at v. -/
theorem aggK_apply (ew : FVec Ideal Cert.KernelIdeal.S800000x128 .f32) (dst : IVec Cert.KernelIdeal.S800000 32)
    (v : Fin 50000) (k : Fin 128) :
    Cert.KernelIdeal.Term.aggK (F := Ideal) ew dst (ix2 v k) = 0 + ∑ e ∈ arriving dst v, ew (ix2 e k) := by
  unfold Cert.KernelIdeal.Term.aggK arriving tcol
  rw [Host.scatterAdd, Ideal.hostScatterAdd_def]
  rw [Cert.ScatterGather.scatterAdd_rows_apply _ rfl rfl rfl rfl, zeros_apply]

/-- The in-degree at v: zero plus a one for each edge that arrives at v. -/
theorem degK_apply (dst : IVec Cert.KernelIdeal.S800000 32) (v : Fin 50000) :
    Cert.KernelIdeal.Term.degK (F := Ideal) dst (ix1 v) = 0 + ∑ _e ∈ arriving dst v, (1 : EReal) := by
  unfold Cert.KernelIdeal.Term.degK arriving tcol
  rw [Host.scatterAdd, Ideal.hostScatterAdd_def]
  rw [Cert.ScatterGather.scatterAdd_vec_apply _ rfl rfl rfl rfl, zeros_apply]
  refine congrArg _ (Finset.sum_congr rfl fun e _ => ?_)
  exact ones_apply _ _

/-- The bias array at (v, j): the first bias at j plus the in-degree of v times the bond bias at j. -/
theorem ebK_apply (b1 bb : FVec Ideal Cert.KernelIdeal.S256 .f32) (dst : IVec Cert.KernelIdeal.S800000 32)
    (v : Fin 50000) (j : Fin 256) :
    Cert.KernelIdeal.Term.ebK (F := Ideal) b1 bb dst (ix2 v j)
      = b1 (ix1 j) + (0 + ∑ _e ∈ arriving dst v, (1 : EReal)) * bb (ix1 j) := by
  unfold Cert.KernelIdeal.Term.ebK
  rw [addf_apply, mulf_apply, row_down_apply, row_down_apply, col_along_apply, degK_apply]

/-- The reference's product of the edge rows by the bond matrix at (e, j): the sum over k of the products. -/
theorem dotEdge_apply (A : FVec Ideal Cert.KernelIdeal.S800000x128 .f32) (B : FVec Ideal Cert.KernelIdeal.S128x256 .f32)
    (e : Fin 800000) (j : Fin 256) :
    Host.dotGeneral Cert.ReferenceIdeal.dot_S800000x128_S128x256_S800000x256_1_0_0_1_n_n none A B (ix2 e j)
      = ∑ k : Fin 128, A (ix2 e k) * B (ix2 k j) :=
  StackMember.dotGeneral_plain_apply none A B e j

/-- The reference's product of the node rows by the first weight matrix at (v, j): the sum over k of the products. -/
theorem dotNode_apply (A : FVec Ideal Cert.KernelIdeal.S50000x256 .f32) (B : FVec Ideal Cert.KernelIdeal.S256x256 .f32)
    (v : Fin 50000) (j : Fin 256) :
    Host.dotGeneral Cert.ReferenceIdeal.dot_S50000x256_S256x256_S50000x256_1_0_0_1_n_n none A B (ix2 v j)
      = ∑ k : Fin 256, A (ix2 v k) * B (ix2 k j) :=
  StackMember.dotGeneral_plain_apply none A B v j

/-- The reference's edge states at (v, j): zero plus, over the edges that arrive at v, the edge's row times column j
    of the bond matrix plus the bond bias at j. -/
theorem h2T_apply (ew : FVec Ideal Cert.KernelIdeal.S800000x128 .f32) (dst : IVec Cert.KernelIdeal.S800000 32)
    (bW : FVec Ideal Cert.KernelIdeal.S128x256 .f32) (bb : FVec Ideal Cert.KernelIdeal.S256 .f32)
    (v : Fin 50000) (j : Fin 256) :
    Cert.ReferenceIdeal.Term.h2T (F := Ideal) ew dst bW bb (ix2 v j)
      = 0 + ∑ e ∈ arriving dst v, ((∑ k : Fin 128, ew (ix2 e k) * bW (ix2 k j)) + bb (ix1 j)) := by
  unfold Cert.ReferenceIdeal.Term.h2T arriving tcol
  rw [Host.scatterAdd, Ideal.hostScatterAdd_def]
  rw [Cert.ScatterGather.scatterAdd_rows_apply _ rfl rfl rfl rfl, zeros_apply]
  refine congrArg _ (Finset.sum_congr rfl fun e _ => ?_)
  rw [addf_apply, row_down_apply, dotEdge_apply]

/-- The reference's stage 1 at (v, j): the neighbour states' row v times column j of the first weight matrix, plus
    the first bias at j, plus the edge states at (v, j), rectified. -/
theorem pre1T_apply (feat : FVec Ideal Cert.KernelIdeal.S50000x256 .f32) (ew : FVec Ideal Cert.KernelIdeal.S800000x128 .f32)
    (src dst : IVec Cert.KernelIdeal.S800000 32)
    (bW : FVec Ideal Cert.KernelIdeal.S128x256 .f32) (bb : FVec Ideal Cert.KernelIdeal.S256 .f32)
    (W1 : FVec Ideal Cert.KernelIdeal.S256x256 .f32) (b1 : FVec Ideal Cert.KernelIdeal.S256 .f32)
    (v : Fin 50000) (j : Fin 256) :
    Cert.ReferenceIdeal.Term.pre1T (F := Ideal) feat ew src dst bW bb W1 b1 (ix2 v j)
      = max (((∑ k : Fin 256, Cert.ReferenceIdeal.Term.h1T (F := Ideal) feat src dst (ix2 v k) * W1 (ix2 k j)) + b1 (ix1 j))
          + Cert.ReferenceIdeal.Term.h2T (F := Ideal) ew dst bW bb (ix2 v j)) 0 := by
  unfold Cert.ReferenceIdeal.Term.pre1T Cert.ReferenceIdeal.Term.reluT Cert.ReferenceIdeal.Term.rows
  rw [maximumf_apply, zeros_apply, addf_apply, addf_apply, row_down_apply, dotNode_apply]

/-! ## The neighbour states of the two programs -/

/-- The two programs' records of the sum onto target rows are one record. -/
theorem scatter_eq : Cert.KernelIdeal.scatter_S50000x256_S800000x1_S800000x256_1_0_0_1
    = Cert.ReferenceIdeal.scatter_S50000x256_S800000x1_S800000x256_1_0_0_1 := rfl

/-- The two programs' records of the row lookup are one record. -/
theorem gather_eq : Cert.KernelIdeal.gather_S50000x256_S800000x1_S800000x256_1_0_n_n_0_1_1256
    = Cert.ReferenceIdeal.gather_S50000x256_S800000x1_S800000x256_1_0_n_n_0_1_1256 := rfl

/-- The two programs read an edge's source index the same way. -/
theorem takeIdx_eq (src : IVec Cert.KernelIdeal.S800000 32) :
    Cert.KernelIdeal.Term.takeIdx src = Cert.ReferenceIdeal.Term.srcIdx src := rfl

/-- The neighbour states of the two programs are one array: with the range mask true on every edge the looked-up
    rows are the gathered rows, and the two programs' lookups and sums onto target rows are the same operations. -/
theorem h1K_eq_h1T (feat : FVec Ideal Cert.KernelIdeal.S50000x256 .f32) (src dst : IVec Cert.KernelIdeal.S800000 32)
    (hsrc : ∀ e : Fin 800000, -50000 ≤ (src (ix1 e)).toInt ∧ (src (ix1 e)).toInt < 50000) :
    Cert.KernelIdeal.Term.h1K (F := Ideal) feat src dst = Cert.ReferenceIdeal.Term.h1T (F := Ideal) feat src dst := by
  unfold Cert.KernelIdeal.Term.h1K Cert.ReferenceIdeal.Term.h1T
  rw [Cert.KernelIdeal.Term.takeT_eq feat src hsrc, takeIdx_eq, gather_eq, scatter_eq]

/-! ## Stage 1 -/

/-- STAGE 1, the two programs' forms joined.  With every entry of the edge rows, the bond matrix and the bond bias a
    real number, and every source index inside [-50000, 50000) (so that the lookup's range mask is true on every
    edge): stage 1 of the kernel program's three sums and bias array is the reference's stage 1, at every node and
    feature.  The looked-up rows agree because the mask is true everywhere; the summed projected edge rows are the
    projected summed edge rows plus the in-degree times the bond bias (`Cert.Spec.sum_affine`); the rest is the
    commutativity and associativity of the sum. -/
theorem stage1_eq
    (feat : FVec Ideal Cert.KernelIdeal.S50000x256 .f32) (ew : FVec Ideal Cert.KernelIdeal.S800000x128 .f32)
    (src dst : IVec Cert.KernelIdeal.S800000 32)
    (bW : FVec Ideal Cert.KernelIdeal.S128x256 .f32) (bb : FVec Ideal Cert.KernelIdeal.S256 .f32)
    (W1 : FVec Ideal Cert.KernelIdeal.S256x256 .f32) (b1 : FVec Ideal Cert.KernelIdeal.S256 .f32)
    (hew : ∀ i, ∃ r : ℝ, ew i = (r : EReal)) (hbW : ∀ i, ∃ r : ℝ, bW i = (r : EReal)) (hbb : ∀ i, ∃ r : ℝ, bb i = (r : EReal))
    (hsrc : ∀ e : Fin 800000, -50000 ≤ (src (ix1 e)).toInt ∧ (src (ix1 e)).toInt < 50000) :
    Cert.Spec.arr2 (Cert.Spec.stage1 (Cert.KernelIdeal.Term.h1K (F := Ideal) feat src dst)
        (Cert.KernelIdeal.Term.aggK (F := Ideal) ew dst) W1 bW (Cert.KernelIdeal.Term.ebK (F := Ideal) b1 bb dst))
      = Cert.ReferenceIdeal.Term.pre1T (F := Ideal) feat ew src dst bW bb W1 b1 := by
  rw [h1K_eq_h1T feat src dst hsrc]
  funext i
  obtain ⟨v, j, rfl⟩ : ∃ (v : Fin 50000) (j : Fin 256), i = ix2 v j := ⟨i 0, i 1, eq_ix2 i⟩
  rw [Cert.Spec.arr2_ix2, pre1T_apply, h2T_apply]
  unfold Cert.Spec.stage1
  rw [ebK_apply]
  -- the law of stage 1 over the edges that arrive at v
  have hlaw : ∑ e ∈ arriving dst v, ((∑ k : Fin 128, ew (ix2 e k) * bW (ix2 k j)) + bb (ix1 j))
      = (∑ k : Fin 128, (∑ e ∈ arriving dst v, ew (ix2 e k)) * bW (ix2 k j))
        + (∑ _e ∈ arriving dst v, (1 : EReal)) * bb (ix1 j) :=
    Cert.Spec.sum_affine (arriving dst v) (fun e k => ew (ix2 e k)) (fun k => bW (ix2 k j)) (bb (ix1 j))
      (fun e k => hew _) (fun k => hbW _) (hbb _)
  rw [hlaw]
  -- the summed edge rows inside the second product
  have hagg : (∑ k : Fin 128, Cert.KernelIdeal.Term.aggK (F := Ideal) ew dst (ix2 v k) * bW (ix2 k j))
      = ∑ k : Fin 128, (∑ e ∈ arriving dst v, ew (ix2 e k)) * bW (ix2 k j) :=
    Finset.sum_congr rfl fun k _ => by rw [aggK_apply, zero_add]
  -- both sides are now the same four terms, summed in two orders
  rw [hagg, zero_add, zero_add, add_add_add_comm]

end Cert.Math1

end
-- ==== Proof.Math23.lean ====
/- Stages 2 and 3 read at a node and a feature: the closed forms the second and third kernels compute are the
   reference's terms.  No law is needed: both sides are the same formula, the reference's through broadcasts of rows
   down the 50000 nodes and a host matrix product, the closed forms through rows given as 1 × 256 arrays. -/
import proofs.«421841_j88399016886795_2_alg».proof.Proof.Spec
import proofs.«421841_j88399016886795_2_alg».proof.Proof.RefTerm
import proofs.«421841_j88399016886795_2_alg».proof.KernelIdeal
import Idealize.ShloMosaic.PureOps.Ideal.Laws
import Idealize.ShloMosaic.Lib.ValueLayout
import Idealize.ShloMosaic.Lib.IdealHost
import Idealize.ShloMosaic.Lib.StackMember

noncomputable section

namespace Cert.Math23

open Idealize.ShloMosaic Idealize.ShloMosaic.ValueIdx
open scoped BigOperators

variable [Cert.KernelIdeal.Facts] [Cert.ReferenceIdeal.Facts]

/-- A row of 256 numbers as the 1 × 256 array a region's window reads. -/
abbrev row (r : FVec Ideal Cert.KernelIdeal.S256 .f32) : FVec Ideal Cert.KernelIdeal.S1x256 .f32 :=
  shapeCast Cert.KernelIdeal.S1x256 r Cert.KernelIdeal.Facts₀.shapeCasts_S256_S1x256

/-- The 1 × 256 array of a row holds, in its one row at column `j`, the row's entry `j`. -/
theorem row_apply (r : FVec Ideal Cert.KernelIdeal.S256 .f32) (j : Fin 256) :
    row r (ix2 (0 : Fin 1) j) = r (ix1 j) :=
  shapeCast_a_1a_apply r _ 0 j

/-- A row laid along every node holds, at node `v` and column `j`, the row's entry `j`: the one row of the
    1 × 256 array is repeated down the nodes, and that row at column `j` is the entry `j`. -/
theorem rows_apply (r : FVec Ideal Cert.KernelIdeal.S256 .f32) (v : Fin 50000) (j : Fin 256) :
    Cert.ReferenceIdeal.Term.rows (F := Ideal) r (ix2 v j) = r (ix1 j) := by
  unfold Cert.ReferenceIdeal.Term.rows
  rw [broadcastInDim_oneRow_apply]
  exact broadcastInDim_apply ![1] _ r (ix2 (0 : Fin 1) j) (ix1 j) (fun a => by
    match a with
    | ⟨0, _⟩ => rfl)

/-- The scalar whose pattern is that of 1e-5, laid along a row, is `eps` at every column. -/
theorem epsRow_apply (i : Cert.KernelIdeal.S256.Idx) :
    broadcastInDim Cert.ReferenceIdeal.S256 ![] Cert.ReferenceIdeal.Facts₀.bcast_S_S256
      (constant (F := Ideal) Cert.ReferenceIdeal.S_ .f32 0x3727C5AC#32) i = Cert.Spec.eps := by
  rw [broadcastInDim_scalar_apply]
  rfl

/-- The column normalisation with given rows, read at node `v`, column `j`: every operation in it is pointwise,
    each laid-out row reads its entry `j`, and the inverse square root is the extended reals' own. -/
theorem normT_apply (x : FVec Ideal Cert.KernelIdeal.S50000x256 .f32) (μ σ g β : FVec Ideal Cert.KernelIdeal.S256 .f32)
    (v : Fin 50000) (j : Fin 256) :
    Cert.ReferenceIdeal.Term.normT (F := Ideal) x μ σ g β (ix2 v j)
      = ((x (ix2 v j) - μ (ix1 j)) * Ideal.rsqrt (σ (ix1 j) + Cert.Spec.eps)) * g (ix1 j) + β (ix1 j) := by
  unfold Cert.ReferenceIdeal.Term.normT
  rw [addf_apply, mulf_apply, mulf_apply, subf_apply, rows_apply, rows_apply, rows_apply, rows_apply]
  show _ * Ideal.rsqrt (σ (ix1 j) + _) * _ + _ = _
  rw [epsRow_apply]

/-- The closed form of the column normalisation over rows given as 1 × 256 arrays is the column normalisation
    over the rows themselves: at node `v`, column `j` both are
    `(x v j − μ j) · rsqrt (σ j + eps) · g j + β j`. -/
theorem norm_eq (x : FVec Ideal Cert.KernelIdeal.S50000x256 .f32) (μ σ g β : FVec Ideal Cert.KernelIdeal.S256 .f32) :
    Cert.Spec.arr2 (Cert.Spec.norm x (row μ) (row σ) (row g) (row β)) = Cert.ReferenceIdeal.Term.normT (F := Ideal) x μ σ g β := by
  funext i
  obtain ⟨v, j, rfl⟩ : ∃ (v : Fin 50000) (j : Fin 256), i = ix2 v j := ⟨i 0, i 1, eq_ix2 i⟩
  rw [Cert.Spec.arr2_ix2, normT_apply]
  unfold Cert.Spec.norm
  rw [row_apply, row_apply, row_apply, row_apply]

/-- The product of a 50000 × 256 array with a 256 × 256 matrix, read at node `v`, column `j`: the sum over the
    contracted coordinate `k` of the products of the entries `(v, k)` and `(k, j)`. -/
theorem dot_apply (A : FVec Ideal Cert.KernelIdeal.S50000x256 .f32) (B : FVec Ideal Cert.KernelIdeal.S256x256 .f32)
    (v : Fin 50000) (j : Fin 256) :
    Host.dotGeneral (F := Ideal) Cert.ReferenceIdeal.dot_S50000x256_S256x256_S50000x256_1_0_0_1_n_n none A B (ix2 v j)
      = ∑ k : Fin 256, A (ix2 v k) * B (ix2 k j) :=
  StackMember.dotGeneral_plain_apply (m := 50000) (n := 256) (k := 256) none A B v j

/-- The rectifier read at node `v`, column `j`: the maximum with zero (the zero pattern denotes zero). -/
theorem reluT_apply (y : FVec Ideal Cert.KernelIdeal.S50000x256 .f32) (v : Fin 50000) (j : Fin 256) :
    Cert.ReferenceIdeal.Term.reluT (F := Ideal) y (ix2 v j) = max (y (ix2 v j)) 0 := by
  unfold Cert.ReferenceIdeal.Term.reluT
  rw [maximumf_apply, broadcastInDim_scalar_apply, constant_apply, Ideal.ofBits_zero_f32]

/-- STAGE 2: the closed form a region computes from the array `x`, its column mean and variance as rows, and gain,
    offset and bias rows, is the reference's stage 2 over `x`, at every node and feature. -/
theorem stage2_eq (x feat : FVec Ideal Cert.KernelIdeal.S50000x256 .f32) (W2 : FVec Ideal Cert.KernelIdeal.S256x256 .f32)
    (b2 g β : FVec Ideal Cert.KernelIdeal.S256 .f32) :
    Cert.Spec.arr2 (Cert.Spec.stage2 x (row (Cert.ReferenceIdeal.Term.meanT (F := Ideal) x)) (row (Cert.ReferenceIdeal.Term.varT (F := Ideal) x))
        (row g) (row β) feat W2 (row b2))
      = Cert.ReferenceIdeal.Term.pre2T (F := Ideal) x feat W2 b2 g β := by
  -- Both sides mention the column mean and variance of `x` as the same two rows; they stay unopened.
  unfold Cert.ReferenceIdeal.Term.pre2T Cert.ReferenceIdeal.Term.bnT
  generalize Cert.ReferenceIdeal.Term.meanT (F := Ideal) x = μ
  generalize Cert.ReferenceIdeal.Term.varT (F := Ideal) x = σ
  funext i
  obtain ⟨v, j, rfl⟩ : ∃ (v : Fin 50000) (j : Fin 256), i = ix2 v j := ⟨i 0, i 1, eq_ix2 i⟩
  -- At node `v`, column `j`: max ((∑ k, normalised (v, k) · W2 (k, j)) + b2 j + feat (v, j)) 0 on both sides.
  rw [Cert.Spec.arr2_ix2, reluT_apply, addf_apply, addf_apply, dot_apply, rows_apply]
  unfold Cert.Spec.stage2
  rw [row_apply]
  -- Under the sum the two normalisations agree entry by entry.
  have h : ∀ k : Fin 256, Cert.Spec.norm x (row μ) (row σ) (row g) (row β) v k
      = Cert.ReferenceIdeal.Term.normT (F := Ideal) x μ σ g β (ix2 v k) := fun k => by
    rw [← norm_eq, Cert.Spec.arr2_ix2]
  rw [Finset.sum_congr rfl fun k _ => by rw [h k]]

/-- STAGE 3: the column normalisation a region computes from the array `x`, its column mean and variance as rows, and
    gain and offset rows, is the reference's batch normalisation of `x`. -/
theorem stage3_eq (x : FVec Ideal Cert.KernelIdeal.S50000x256 .f32) (g β : FVec Ideal Cert.KernelIdeal.S256 .f32) :
    Cert.Spec.arr2 (Cert.Spec.norm x (row (Cert.ReferenceIdeal.Term.meanT (F := Ideal) x)) (row (Cert.ReferenceIdeal.Term.varT (F := Ideal) x))
        (row g) (row β))
      = Cert.ReferenceIdeal.Term.bnT (F := Ideal) x g β := by
  -- Batch normalisation is the column normalisation at the array's own column mean and variance.
  unfold Cert.ReferenceIdeal.Term.bnT
  exact norm_eq x _ _ g β

end Cert.Math23

end
-- ==== Proof.PreFacts.lean ====
/- What the precondition gives the value proof: the edge rows, the bond matrix and the bond bias hold real numbers
   (each entry's absolute value is below +∞), and every source index lies in [-50000, 50000). -/
import proofs.«421841_j88399016886795_2_alg».proof.Defs
import proofs.«421841_j88399016886795_2_alg».proof.Proof.Gen.Pre_finite_inputs
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.TcCoe Idealize.ShloMosaic.ValueIdx Idealize.SL.Sem

/-- The rank-0 shape has one index. -/
instance subsingleton_scalar_idx : Subsingleton (⟨0, ![]⟩ : Shape).Idx := ⟨fun a b => funext fun d => d.elim0⟩

/-- The pattern 0x7F800000 of the 32-bit format denotes +∞. -/
theorem inf_pattern : Ideal.ofBits .f32 0x7F800000#32 = (⊤ : EReal) := by simp [Ideal.ofBits, Ideal.ieee]

/-- An extended real whose absolute value `max x (-x)` is below +∞ is a real number: at `⊥` and at `⊤` the
    absolute value is `⊤`. -/
theorem real_of_abs_lt_top (x : EReal) (h : Ideal.cmp .olt (max x (-x)) (Ideal.ofBits .f32 0x7F800000#32) = 1#1) :
    ∃ r : ℝ, x = (r : EReal) := by
  rw [inf_pattern] at h
  unfold Ideal.cmp at h
  rw [StableHlo.Predicate.ofBool_eq_one_iff] at h
  have h' : max x (-x) < ⊤ := by simpa using h
  induction x using EReal.rec with
  | bot => simp at h'
  | coe r => exact ⟨r, rfl⟩
  | top => simp at h'

/-- "All entries have absolute value below +∞", read back: if the reduction by `and` of the entrywise test "absolute value below the +∞
    pattern" is 1, every entry of `x` is a real number. -/
theorem real_of_all_finite {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (h0 : 0 < (⟨0, ![]⟩ : Shape).numel) (j : (⟨0, ![]⟩ : Shape).Idx)
    (h : Host.reduce IntOp.andi (cmpf .olt (Host.absf x) (broadcastInDim s ![] hb (constant (F := Ideal) (⟨0, ![]⟩ : Shape) .f32 0x7F800000#32)))
      (constantI (⟨0, ![]⟩ : Shape) 1 1#1) hr h0 j = 1#1) (i : s.Idx) : ∃ r : ℝ, x i = (r : EReal) := by
  have e := Host.reduce_andi_all _ _ hr h0 j h i
  apply real_of_abs_lt_top
  have eb := StableHlo.Predicate.bcast_scalar hb h0 (constant (F := Ideal) (⟨0, ![]⟩ : Shape) .f32 0x7F800000#32) i
  unfold cmpf at e
  rw [eb] at e
  exact e

/-- "All words lie in [-50000, 50000)", read back: if the reduction by `and` of the two signed word tests against
    the constants -50000 (the pattern 4294917296) and 50000 is 1, every word, read signed, lies in [-50000, 50000). -/
theorem range_of_all {n : Nat} (x : IVec (⟨1, ![n]⟩ : Shape) 32)
    (hb : (⟨0, ![]⟩ : Shape).BroadcastsInDim (⟨1, ![n]⟩ : Shape) (![] : Fin 0 → Fin (⟨1, ![n]⟩ : Shape).rank))
    {axes : List (Fin (⟨1, ![n]⟩ : Shape).rank)} (hr : (⟨1, ![n]⟩ : Shape).ReducesTo axes (⟨0, ![]⟩ : Shape))
    (h0 : 0 < (⟨0, ![]⟩ : Shape).numel) (j : (⟨0, ![]⟩ : Shape).Idx)
    (h : Host.reduce IntOp.andi
        (andi (cmpi .sge x (broadcastInDim (⟨1, ![n]⟩ : Shape) ![] hb (constantI (⟨0, ![]⟩ : Shape) 32 4294917296#32)))
              (cmpi .slt x (broadcastInDim (⟨1, ![n]⟩ : Shape) ![] hb (constantI (⟨0, ![]⟩ : Shape) 32 50000#32))))
        (constantI (⟨0, ![]⟩ : Shape) 1 1#1) hr h0 j = 1#1) (e : Fin n) :
    -50000 ≤ (x (ix1 e)).toInt ∧ (x (ix1 e)).toInt < 50000 := by
  have a := Host.reduce_andi_all _ _ hr h0 j h (ix1 e)
  obtain ⟨a1, a2⟩ := IntOp.andi_eq_one.1 a
  have b1 := IntOp.cmpi_sge.1 a1
  have b2 := IntOp.cmpi_slt.1 a2
  rw [StableHlo.Predicate.bcast_scalar hb h0] at b1 b2
  have c1 : (4294917296#32 : BitVec 32).toInt = -50000 := by decide
  have c2 : (50000#32 : BitVec 32).toInt = 50000 := by decide
  exact ⟨c1 ▸ b1, c2 ▸ b2⟩

/-- From the precondition of the idealized kernel program's memory, on each device: every entry of the edge rows
    (argument 1), of the bond matrix (argument 4) and of the bond bias (argument 5) is a real number, and every source
    index (argument 2), read signed, is at least -50000 and below 50000. -/
theorem of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c : Thread Cert.KernelIdeal.nD Cert.KernelIdeal.τ).loc Cert.KernelIdeal.main_arg1)) i = (r : EReal))
    ∧ (∀ i, ∃ r : ℝ, (m ((c : Thread Cert.KernelIdeal.nD Cert.KernelIdeal.τ).loc Cert.KernelIdeal.main_arg4)) i = (r : EReal))
    ∧ (∀ i, ∃ r : ℝ, (m ((c : Thread Cert.KernelIdeal.nD Cert.KernelIdeal.τ).loc Cert.KernelIdeal.main_arg5)) i = (r : EReal))
    ∧ (∀ e : Fin 800000, -50000 ≤ ((m ((c : Thread Cert.KernelIdeal.nD Cert.KernelIdeal.τ).loc Cert.KernelIdeal.main_arg2)) (ix1 e)).toInt ∧ ((m ((c : Thread Cert.KernelIdeal.nD Cert.KernelIdeal.τ).loc Cert.KernelIdeal.main_arg2)) (ix1 e)).toInt < 50000) := by
  -- the predicate's one word (its result has rank 0) is 1
  have h0 := congrFun (h c) ValueIdx.ix0
  dsimp only [Cert.Pre_finite_inputs.fn, Cert.Pre_finite_inputs.fn_part1, Cert.Pre_finite_inputs.fn_part2,
    Cert.Pre_finite_inputs.fn_part3] at h0
  -- it is a left-nested conjunction of thirteen tests, one per argument array, in the order
  -- 0, 1, 4, 5, 6, 7, 8, 9, 10, 11, 12, 13 (the float arrays) and last 2 (the source words): peel it from the right
  obtain ⟨h0, h2⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, h5⟩ := IntOp.andi_eq_one.1 h0
  obtain ⟨h0, h4⟩ := IntOp.andi_eq_one.1 h0
  obtain ⟨-, h1⟩ := IntOp.andi_eq_one.1 h0
  exact ⟨fun i => real_of_all_finite _ _ _ _ _ h1 i, fun i => real_of_all_finite _ _ _ _ _ h4 i,
    fun i => real_of_all_finite _ _ _ _ _ h5 i, fun e => range_of_all _ _ _ _ _ h2 e⟩

end Cert.PreFacts

end
-- ==== Proof.KVal.lean ====
/- The kernel program's result as the layer's term of its arguments: the three regions' closed forms, read at what
   their windows hold on entry, are the reference's three stage terms. -/
import proofs.«421841_j88399016886795_2_alg».proof.Proof.Region0
import proofs.«421841_j88399016886795_2_alg».proof.Proof.Region1
import proofs.«421841_j88399016886795_2_alg».proof.Proof.Region2
import proofs.«421841_j88399016886795_2_alg».proof.Proof.Fold1
import proofs.«421841_j88399016886795_2_alg».proof.Proof.Fold2
import proofs.«421841_j88399016886795_2_alg».proof.Proof.Math1
import proofs.«421841_j88399016886795_2_alg».proof.Proof.Math23
import proofs.«421841_j88399016886795_2_alg».proof.Proof.PreFacts

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- STAGE 1.  Under the precondition, the first region leaves in its output array the reference's stage 1 of the
    argument arrays: the region's closed form, at the three sums and the bias array its windows hold, is that term
    (the edge rows, the bond matrix and the bond bias are real, and the source indices are in range). -/
theorem stage1_val (hpre : Cert.Pre_KernelIdeal m) (c : Dev nD) :
    W3 m ρ c (Proc.devRef .tc main_v19)
      = Cert.ReferenceIdeal.Term.pre1T (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) := by
  obtain ⟨hew, hbW, hbb, hsrc⟩ := Cert.PreFacts.of_pre m hpre c
  refine ((W3_arr m ρ c 5).trans (region0 (V2 m ρ) c)).trans ?_
  rw [show V2 m ρ c main_v3 = _ from W2_v3 m ρ c, show V2 m ρ c main_v6 = _ from W2_v6 m ρ c,
    show V2 m ρ c main_v18 = _ from W2_v18 m ρ c, show V2 m ρ c main_arg6 = _ from W2_arg6 m ρ c,
    show V2 m ρ c main_arg4 = _ from W2_arg4 m ρ c]
  exact Cert.Math1.stage1_eq _ _ _ _ _ _ _ _ hew hbW hbb hsrc

/-- STAGE 2.  The second region leaves in its output array the reference's stage 2 over whatever the first region
    left: its windows hold that array, its column mean and variance as rows, and the gain, offset, residual, weight
    and bias arguments. -/
theorem stage2_val (c : Dev nD) :
    W7 m ρ c (Proc.devRef .tc main_v29)
      = Cert.ReferenceIdeal.Term.pre2T (F := Ideal) (W3 m ρ c (Proc.devRef .tc main_v19)) (m ((c : Thread nD τ).loc main_arg0)) (m ((c : Thread nD τ).loc main_arg8))
          (m ((c : Thread nD τ).loc main_arg9)) (m ((c : Thread nD τ).loc main_arg10)) (m ((c : Thread nD τ).loc main_arg11)) := by
  refine ((W7_arr m ρ c 8).trans (region1 (V6 m ρ) c)).trans ?_
  rw [show V6 m ρ c main_v19 = _ from W6_v19 m ρ c, show V6 m ρ c main_v24 = _ from W6_v24 m ρ c,
    show V6 m ρ c main_v25 = _ from W6_v25 m ρ c, show V6 m ρ c main_v26 = _ from W6_v26 m ρ c,
    show V6 m ρ c main_v27 = _ from W6_v27 m ρ c, show V6 m ρ c main_v28 = _ from W6_v28 m ρ c,
    show V6 m ρ c main_arg0 = _ from W6_arg0 m ρ c, show V6 m ρ c main_arg8 = _ from W6_arg8 m ρ c]
  exact Cert.Math23.stage2_eq _ _ _ _ _ _

/-- STAGE 3.  The third region leaves in its output array the batch normalisation of whatever the second region left. -/
theorem stage3_val (c : Dev nD) :
    W11 m ρ c (Proc.devRef .tc main_v38)
      = Cert.ReferenceIdeal.Term.bnT (F := Ideal) (W7 m ρ c (Proc.devRef .tc main_v29)) (m ((c : Thread nD τ).loc main_arg12)) (m ((c : Thread nD τ).loc main_arg13)) := by
  refine ((W11_arr m ρ c 5).trans (region2 (V10 m ρ) c)).trans ?_
  rw [show V10 m ρ c main_v29 = _ from W10_v29 m ρ c, show V10 m ρ c main_v34 = _ from W10_v34 m ρ c,
    show V10 m ρ c main_v35 = _ from W10_v35 m ρ c, show V10 m ρ c main_v36 = _ from W10_v36 m ρ c,
    show V10 m ρ c main_v37 = _ from W10_v37 m ρ c]
  exact Cert.Math23.stage3_eq _ _ _

/-- THE RESULT.  Under the precondition the result buffer's last contents are the whole layer's term of the argument
    arrays as launched. -/
theorem value (hpre : Cert.Pre_KernelIdeal m) (c : Dev nD) :
    W11 m ρ c (Proc.devRef .tc main_v38)
      = Cert.ReferenceIdeal.Term.outT (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12)) (m ((c : Thread nD τ).loc main_arg13)) := by
  rw [stage3_val m ρ c, stage2_val m ρ c, stage1_val m ρ hpre c]
  rfl

end Cert.KernelIdeal.Val

end
-- ==== Proof.RefRun.lean ====
/- The reference program's run: its @main is one straight line of host operations (the functions it calls laid out at
   their calls), every weakly fair execution of it terminates, and the result buffer ends at the layer's term of the
   argument arrays as launched, the arguments unchanged. -/
import proofs.«421841_j88399016886795_2_alg».proof.Proof.Gen.ReferenceIdeal
import proofs.«421841_j88399016886795_2_alg».proof.Proof.RefTerm
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/- python3 scratch/R_ops_table.py proof/ReferenceIdeal.lean
   (run in the unit's directory; it prints the list below and the tuple of `ops_sub` from the printed program).
   @main's 125 host operations in order: its own, and at each call the called function's operations over that call's
   record of buffers (the rectifier's three at its two calls; the variance's nineteen and, inside it, the selection's
   three, at its two calls). Each entry is the printed line's builder at the printed line's function. -/
abbrev ops : List (HloOp τ sig (Elt F)) :=
  [ binary main_arg1 main_arg4 main_v0 ((fun l r => Host.dotGeneral dot_S800000x128_S128x256_S800000x256_1_0_0_1_n_n none l r) : (⟨S800000x128, .f32⟩ : BufTy).Contents (Elt F) → (⟨S128x256, .f32⟩ : BufTy).Contents (Elt F) → (⟨S800000x256, .f32⟩ : BufTy).Contents (Elt F)),
    unary main_arg5 main_v1 (broadcastInDim S1x256 ![1] bcast_S256_S1x256_1 : (⟨S256, .f32⟩ : BufTy).Contents (Elt F) → (⟨S1x256, .f32⟩ : BufTy).Contents (Elt F)),
    unary main_v1 main_v2 (broadcastInDim S800000x256 ![0, 1] bcast_S1x256_S800000x256_0_1 : (⟨S1x256, .f32⟩ : BufTy).Contents (Elt F) → (⟨S800000x256, .f32⟩ : BufTy).Contents (Elt F)),
    binary main_v0 main_v2 main_v3 (addf : (⟨S800000x256, .f32⟩ : BufTy).Contents (Elt F) → (⟨S800000x256, .f32⟩ : BufTy).Contents (Elt F) → (⟨S800000x256, .f32⟩ : BufTy).Contents (Elt F)),
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_arg2 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_arg2 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_arg2 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst (constant S_ .f32 0x00000000#32),
    unary main_cst main_v11 (broadcastInDim S50000x256 ![] bcast_S_S50000x256 : (⟨S_, .f32⟩ : BufTy).Contents (Elt F) → (⟨S50000x256, .f32⟩ : BufTy).Contents (Elt F)),
    unary main_arg3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_1 (constant S_ .f32 0x00000000#32),
    unary main_cst_1 main_v14 (broadcastInDim S50000x256 ![] bcast_S_S50000x256 : (⟨S_, .f32⟩ : BufTy).Contents (Elt F) → (⟨S50000x256, .f32⟩ : BufTy).Contents (Elt F)),
    unary main_arg3 main_v15 (broadcastInDim S800000x1 ![0] bcast_S800000_S800000x1_0 : (⟨S800000, .i32⟩ : BufTy).Contents (Elt F) → (⟨S800000x1, .i32⟩ : BufTy).Contents (Elt F)),
    ternary main_v14 main_v15 main_v3 main_v16 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_v13 main_arg6 main_v17 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg7 main_v18 (broadcastInDim S1x256 ![1] bcast_S256_S1x256_1 : (⟨S256, .f32⟩ : BufTy).Contents (Elt F) → (⟨S1x256, .f32⟩ : BufTy).Contents (Elt F)),
    unary main_v18 main_v19 (broadcastInDim S50000x256 ![0, 1] bcast_S1x256_S50000x256_0_1 : (⟨S1x256, .f32⟩ : BufTy).Contents (Elt F) → (⟨S50000x256, .f32⟩ : BufTy).Contents (Elt F)),
    binary main_v17 main_v19 main_v20 (addf : (⟨S50000x256, .f32⟩ : BufTy).Contents (Elt F) → (⟨S50000x256, .f32⟩ : BufTy).Contents (Elt F) → (⟨S50000x256, .f32⟩ : BufTy).Contents (Elt F)),
    binary main_v20 main_v16 main_v21 (addf : (⟨S50000x256, .f32⟩ : BufTy).Contents (Elt F) → (⟨S50000x256, .f32⟩ : BufTy).Contents (Elt F) → (⟨S50000x256, .f32⟩ : BufTy).Contents (Elt F)),
    TRef.nullary main_call0.cst (constant S_ .f32 0x00000000#32),
    TRef.unary main_call0.cst main_call0.v0 (broadcastInDim S50000x256 ![] bcast_S_S50000x256),
    TRef.binary (.of main_v21) main_call0.v0 main_call0.v1 maximumf,
    nullary main_cst_2 (constant S_ .f32 0x00000000#32),
    binary main_v22 main_cst_2 main_v23 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_3 (constant S_ .f32 0x47435000#32),
    unary main_cst_3 main_v24 (broadcastInDim S256 ![] bcast_S_S256 : (⟨S_, .f32⟩ : BufTy).Contents (Elt F) → (⟨S256, .f32⟩ : BufTy).Contents (Elt F)),
    binary main_v23 main_v24 main_v25 (Host.divf : (⟨S256, .f32⟩ : BufTy).Contents (Elt F) → (⟨S256, .f32⟩ : BufTy).Contents (Elt F) → (⟨S256, .f32⟩ : BufTy).Contents (Elt F)),
    nullary main_c_4 (constantI S_ 32 0#32),
    TRef.nullary main_call1.cst (constant S_ .f32 0x00000000#32),
    TRef.binary (.of main_v22) main_call1.cst main_call1.v0 (fun x v => Host.reduceAdd x v reducesTo_S50000x256_S256_d0 h_S_),
    TRef.unary main_call1.v0 main_call1.v1 (broadcastInDim S1x256 ![1] bcast_S256_S1x256_1),
    TRef.nullary main_call1.cst_0 (constant S_ .f32 0x47435000#32),
    TRef.unary main_call1.cst_0 main_call1.v2 (broadcastInDim S1x256 ![] bcast_S_S1x256),
    TRef.binary main_call1.v1 main_call1.v2 main_call1.v3 Host.divf,
    TRef.unary main_call1.v3 main_call1.v4 (broadcastInDim S50000x256 ![0, 1] bcast_S1x256_S50000x256_0_1),
    TRef.binary (.of main_v22) main_call1.v4 main_call1.v5 subf,
    TRef.binary main_call1.v5 main_call1.v5 main_call1.v6 mulf,
    TRef.unary (.of main_c_4) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x256_S256_d0 h_S_),
    TRef.unary main_call1.v8 main_call1.v10 (broadcastInDim S256 ![] bcast_S_S256),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S256 ![] bcast_S_S256),
    TRef.ternary main_call1.v12 main_call1.v11 main_call1.call0.v1 main_call1.call0.v2 (fun p a b => select (broadcastInDim S256 ![] bcast_S_S256 p) a b),
    unary main_v25 main_v27 (broadcastInDim S1x256 ![1] bcast_S256_S1x256_1 : (⟨S256, .f32⟩ : BufTy).Contents (Elt F) → (⟨S1x256, .f32⟩ : BufTy).Contents (Elt F)),
    unary main_v27 main_v28 (broadcastInDim S50000x256 ![0, 1] bcast_S1x256_S50000x256_0_1 : (⟨S1x256, .f32⟩ : BufTy).Contents (Elt F) → (⟨S50000x256, .f32⟩ : BufTy).Contents (Elt F)),
    binary main_v22 main_v28 main_v29 (subf : (⟨S50000x256, .f32⟩ : BufTy).Contents (Elt F) → (⟨S50000x256, .f32⟩ : BufTy).Contents (Elt F) → (⟨S50000x256, .f32⟩ : BufTy).Contents (Elt F)),
    nullary main_cst_5 (constant S_ .f32 0x3727C5AC#32),
    unary main_cst_5 main_v30 (broadcastInDim S256 ![] bcast_S_S256 : (⟨S_, .f32⟩ : BufTy).Contents (Elt F) → (⟨S256, .f32⟩ : BufTy).Contents (Elt F)),
    binary main_v26 main_v30 main_v31 (addf : (⟨S256, .f32⟩ : BufTy).Contents (Elt F) → (⟨S256, .f32⟩ : BufTy).Contents (Elt F) → (⟨S256, .f32⟩ : BufTy).Contents (Elt F)),
    unary main_v31 main_v32 (Host.rsqrt : (⟨S256, .f32⟩ : BufTy).Contents (Elt F) → (⟨S256, .f32⟩ : BufTy).Contents (Elt F)),
    unary main_v32 main_v33 (broadcastInDim S1x256 ![1] bcast_S256_S1x256_1 : (⟨S256, .f32⟩ : BufTy).Contents (Elt F) → (⟨S1x256, .f32⟩ : BufTy).Contents (Elt F)),
    unary main_v33 main_v34 (broadcastInDim S50000x256 ![0, 1] bcast_S1x256_S50000x256_0_1 : (⟨S1x256, .f32⟩ : BufTy).Contents (Elt F) → (⟨S50000x256, .f32⟩ : BufTy).Contents (Elt F)),
    binary main_v29 main_v34 main_v35 (mulf : (⟨S50000x256, .f32⟩ : BufTy).Contents (Elt F) → (⟨S50000x256, .f32⟩ : BufTy).Contents (Elt F) → (⟨S50000x256, .f32⟩ : BufTy).Contents (Elt F)),
    unary main_arg10 main_v36 (broadcastInDim S1x256 ![1] bcast_S256_S1x256_1 : (⟨S256, .f32⟩ : BufTy).Contents (Elt F) → (⟨S1x256, .f32⟩ : BufTy).Contents (Elt F)),
    unary main_v36 main_v37 (broadcastInDim S50000x256 ![0, 1] bcast_S1x256_S50000x256_0_1 : (⟨S1x256, .f32⟩ : BufTy).Contents (Elt F) → (⟨S50000x256, .f32⟩ : BufTy).Contents (Elt F)),
    binary main_v35 main_v37 main_v38 (mulf : (⟨S50000x256, .f32⟩ : BufTy).Contents (Elt F) → (⟨S50000x256, .f32⟩ : BufTy).Contents (Elt F) → (⟨S50000x256, .f32⟩ : BufTy).Contents (Elt F)),
    unary main_arg11 main_v39 (broadcastInDim S1x256 ![1] bcast_S256_S1x256_1 : (⟨S256, .f32⟩ : BufTy).Contents (Elt F) → (⟨S1x256, .f32⟩ : BufTy).Contents (Elt F)),
    unary main_v39 main_v40 (broadcastInDim S50000x256 ![0, 1] bcast_S1x256_S50000x256_0_1 : (⟨S1x256, .f32⟩ : BufTy).Contents (Elt F) → (⟨S50000x256, .f32⟩ : BufTy).Contents (Elt F)),
    binary main_v38 main_v40 main_v41 (addf : (⟨S50000x256, .f32⟩ : BufTy).Contents (Elt F) → (⟨S50000x256, .f32⟩ : BufTy).Contents (Elt F) → (⟨S50000x256, .f32⟩ : BufTy).Contents (Elt F)),
    binary main_v41 main_arg8 main_v42 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg9 main_v43 (broadcastInDim S1x256 ![1] bcast_S256_S1x256_1 : (⟨S256, .f32⟩ : BufTy).Contents (Elt F) → (⟨S1x256, .f32⟩ : BufTy).Contents (Elt F)),
    unary main_v43 main_v44 (broadcastInDim S50000x256 ![0, 1] bcast_S1x256_S50000x256_0_1 : (⟨S1x256, .f32⟩ : BufTy).Contents (Elt F) → (⟨S50000x256, .f32⟩ : BufTy).Contents (Elt F)),
    binary main_v42 main_v44 main_v45 (addf : (⟨S50000x256, .f32⟩ : BufTy).Contents (Elt F) → (⟨S50000x256, .f32⟩ : BufTy).Contents (Elt F) → (⟨S50000x256, .f32⟩ : BufTy).Contents (Elt F)),
    binary main_v45 main_arg0 main_v46 (addf : (⟨S50000x256, .f32⟩ : BufTy).Contents (Elt F) → (⟨S50000x256, .f32⟩ : BufTy).Contents (Elt F) → (⟨S50000x256, .f32⟩ : BufTy).Contents (Elt F)),
    TRef.nullary main_call2.cst (constant S_ .f32 0x00000000#32),
    TRef.unary main_call2.cst main_call2.v0 (broadcastInDim S50000x256 ![] bcast_S_S50000x256),
    TRef.binary (.of main_v46) main_call2.v0 main_call2.v1 maximumf,
    nullary main_cst_6 (constant S_ .f32 0x00000000#32),
    binary main_v47 main_cst_6 main_v48 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_7 (constant S_ .f32 0x47435000#32),
    unary main_cst_7 main_v49 (broadcastInDim S256 ![] bcast_S_S256 : (⟨S_, .f32⟩ : BufTy).Contents (Elt F) → (⟨S256, .f32⟩ : BufTy).Contents (Elt F)),
    binary main_v48 main_v49 main_v50 (Host.divf : (⟨S256, .f32⟩ : BufTy).Contents (Elt F) → (⟨S256, .f32⟩ : BufTy).Contents (Elt F) → (⟨S256, .f32⟩ : BufTy).Contents (Elt F)),
    nullary main_c_8 (constantI S_ 32 0#32),
    TRef.nullary main_call3.cst (constant S_ .f32 0x00000000#32),
    TRef.binary (.of main_v47) main_call3.cst main_call3.v0 (fun x v => Host.reduceAdd x v reducesTo_S50000x256_S256_d0 h_S_),
    TRef.unary main_call3.v0 main_call3.v1 (broadcastInDim S1x256 ![1] bcast_S256_S1x256_1),
    TRef.nullary main_call3.cst_0 (constant S_ .f32 0x47435000#32),
    TRef.unary main_call3.cst_0 main_call3.v2 (broadcastInDim S1x256 ![] bcast_S_S1x256),
    TRef.binary main_call3.v1 main_call3.v2 main_call3.v3 Host.divf,
    TRef.unary main_call3.v3 main_call3.v4 (broadcastInDim S50000x256 ![0, 1] bcast_S1x256_S50000x256_0_1),
    TRef.binary (.of main_v47) main_call3.v4 main_call3.v5 subf,
    TRef.binary main_call3.v5 main_call3.v5 main_call3.v6 mulf,
    TRef.unary (.of main_c_8) main_call3.v7 (sitofp .f32),
    TRef.nullary main_call3.cst_1 (constant S_ .f32 0x47435000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x256_S256_d0 h_S_),
    TRef.unary main_call3.v8 main_call3.v10 (broadcastInDim S256 ![] bcast_S_S256),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S256 ![] bcast_S_S256),
    TRef.ternary main_call3.v12 main_call3.v11 main_call3.call0.v1 main_call3.call0.v2 (fun p a b => select (broadcastInDim S256 ![] bcast_S_S256 p) a b),
    unary main_v50 main_v52 (broadcastInDim S1x256 ![1] bcast_S256_S1x256_1 : (⟨S256, .f32⟩ : BufTy).Contents (Elt F) → (⟨S1x256, .f32⟩ : BufTy).Contents (Elt F)),
    unary main_v52 main_v53 (broadcastInDim S50000x256 ![0, 1] bcast_S1x256_S50000x256_0_1 : (⟨S1x256, .f32⟩ : BufTy).Contents (Elt F) → (⟨S50000x256, .f32⟩ : BufTy).Contents (Elt F)),
    binary main_v47 main_v53 main_v54 (subf : (⟨S50000x256, .f32⟩ : BufTy).Contents (Elt F) → (⟨S50000x256, .f32⟩ : BufTy).Contents (Elt F) → (⟨S50000x256, .f32⟩ : BufTy).Contents (Elt F)),
    nullary main_cst_9 (constant S_ .f32 0x3727C5AC#32),
    unary main_cst_9 main_v55 (broadcastInDim S256 ![] bcast_S_S256 : (⟨S_, .f32⟩ : BufTy).Contents (Elt F) → (⟨S256, .f32⟩ : BufTy).Contents (Elt F)),
    binary main_v51 main_v55 main_v56 (addf : (⟨S256, .f32⟩ : BufTy).Contents (Elt F) → (⟨S256, .f32⟩ : BufTy).Contents (Elt F) → (⟨S256, .f32⟩ : BufTy).Contents (Elt F)),
    unary main_v56 main_v57 (Host.rsqrt : (⟨S256, .f32⟩ : BufTy).Contents (Elt F) → (⟨S256, .f32⟩ : BufTy).Contents (Elt F)),
    unary main_v57 main_v58 (broadcastInDim S1x256 ![1] bcast_S256_S1x256_1 : (⟨S256, .f32⟩ : BufTy).Contents (Elt F) → (⟨S1x256, .f32⟩ : BufTy).Contents (Elt F)),
    unary main_v58 main_v59 (broadcastInDim S50000x256 ![0, 1] bcast_S1x256_S50000x256_0_1 : (⟨S1x256, .f32⟩ : BufTy).Contents (Elt F) → (⟨S50000x256, .f32⟩ : BufTy).Contents (Elt F)),
    binary main_v54 main_v59 main_v60 (mulf : (⟨S50000x256, .f32⟩ : BufTy).Contents (Elt F) → (⟨S50000x256, .f32⟩ : BufTy).Contents (Elt F) → (⟨S50000x256, .f32⟩ : BufTy).Contents (Elt F)),
    unary main_arg12 main_v61 (broadcastInDim S1x256 ![1] bcast_S256_S1x256_1 : (⟨S256, .f32⟩ : BufTy).Contents (Elt F) → (⟨S1x256, .f32⟩ : BufTy).Contents (Elt F)),
    unary main_v61 main_v62 (broadcastInDim S50000x256 ![0, 1] bcast_S1x256_S50000x256_0_1 : (⟨S1x256, .f32⟩ : BufTy).Contents (Elt F) → (⟨S50000x256, .f32⟩ : BufTy).Contents (Elt F)),
    binary main_v60 main_v62 main_v63 (mulf : (⟨S50000x256, .f32⟩ : BufTy).Contents (Elt F) → (⟨S50000x256, .f32⟩ : BufTy).Contents (Elt F) → (⟨S50000x256, .f32⟩ : BufTy).Contents (Elt F)),
    unary main_arg13 main_v64 (broadcastInDim S1x256 ![1] bcast_S256_S1x256_1 : (⟨S256, .f32⟩ : BufTy).Contents (Elt F) → (⟨S1x256, .f32⟩ : BufTy).Contents (Elt F)),
    unary main_v64 main_v65 (broadcastInDim S50000x256 ![0, 1] bcast_S1x256_S50000x256_0_1 : (⟨S1x256, .f32⟩ : BufTy).Contents (Elt F) → (⟨S50000x256, .f32⟩ : BufTy).Contents (Elt F)),
    binary main_v63 main_v65 main_v66 (addf : (⟨S50000x256, .f32⟩ : BufTy).Contents (Elt F) → (⟨S50000x256, .f32⟩ : BufTy).Contents (Elt F) → (⟨S50000x256, .f32⟩ : BufTy).Contents (Elt F)) ]

-- 125 binds re-associated: the rewrite under the chain recurses once per statement
set_option maxRecDepth 8192 in
set_option maxHeartbeats 4000000 in
/-- @main is that straight line: the two windows and the called functions unfolded at their calls and the records at
    their fields, both sides are one chain of host steps once sequencing is re-associated. -/
theorem main_eq (c : Dev nD) : main (F := F) c = seq ops := by
  simp only [main, main_part0, main_part1, fn_relu.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., unary_bufs_sub .., ternary_bufs_sub .., binary_bufs_sub .., unary_bufs_sub .., unary_bufs_sub ..,
    binary_bufs_sub .., binary_bufs_sub .., nullary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., binary_bufs_sub .., binary_bufs_sub ..,
    nullary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub ..⟩

attribute [local irreducible] Host.reduceAdd Host.scatterAdd Host.gather in
set_option maxRecDepth 8192 in
set_option maxHeartbeats 4000000 in
/-- The fold at the result buffer is the layer's term of the argument buffers: each operation's result at its own
    buffer is its function of its operands' contents and at any other buffer what was there; composed along the line,
    that is the nested term, the typed references' transports being the identity at these literal references. The
    reductions, the scatter-add and the gather are kept folded meanwhile: the equation never looks inside them. -/
theorem out_eq (V : Valuation τ sig (Elt F)) :
    after ops V (main_v66 : DevRef τ sig)
      = Term.outT (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  after_results_simp
  unfold Term.outT Term.bnT Term.pre2T Term.pre1T Term.normT Term.meanT Term.varT Term.reluT Term.rows Term.h1T Term.h2T Term.srcIdx
  rfl

/-! No operation of the line writes an argument's buffer: the fold there walks back to the starting contents. -/
theorem arg0_eq (V : Valuation τ sig (Elt F)) :
    after ops V (main_arg0 : DevRef τ sig) = V (main_arg0 : DevRef τ sig) := by after_results_simp
theorem arg1_eq (V : Valuation τ sig (Elt F)) :
    after ops V (main_arg1 : DevRef τ sig) = V (main_arg1 : DevRef τ sig) := by after_results_simp
theorem arg2_eq (V : Valuation τ sig (Elt F)) :
    after ops V (main_arg2 : DevRef τ sig) = V (main_arg2 : DevRef τ sig) := by after_results_simp
theorem arg3_eq (V : Valuation τ sig (Elt F)) :
    after ops V (main_arg3 : DevRef τ sig) = V (main_arg3 : DevRef τ sig) := by after_results_simp
theorem arg4_eq (V : Valuation τ sig (Elt F)) :
    after ops V (main_arg4 : DevRef τ sig) = V (main_arg4 : DevRef τ sig) := by after_results_simp
theorem arg5_eq (V : Valuation τ sig (Elt F)) :
    after ops V (main_arg5 : DevRef τ sig) = V (main_arg5 : DevRef τ sig) := by after_results_simp
theorem arg6_eq (V : Valuation τ sig (Elt F)) :
    after ops V (main_arg6 : DevRef τ sig) = V (main_arg6 : DevRef τ sig) := by after_results_simp
theorem arg7_eq (V : Valuation τ sig (Elt F)) :
    after ops V (main_arg7 : DevRef τ sig) = V (main_arg7 : DevRef τ sig) := by after_results_simp
theorem arg8_eq (V : Valuation τ sig (Elt F)) :
    after ops V (main_arg8 : DevRef τ sig) = V (main_arg8 : DevRef τ sig) := by after_results_simp
theorem arg9_eq (V : Valuation τ sig (Elt F)) :
    after ops V (main_arg9 : DevRef τ sig) = V (main_arg9 : DevRef τ sig) := by after_results_simp
theorem arg10_eq (V : Valuation τ sig (Elt F)) :
    after ops V (main_arg10 : DevRef τ sig) = V (main_arg10 : DevRef τ sig) := by after_results_simp
theorem arg11_eq (V : Valuation τ sig (Elt F)) :
    after ops V (main_arg11 : DevRef τ sig) = V (main_arg11 : DevRef τ sig) := by after_results_simp
theorem arg12_eq (V : Valuation τ sig (Elt F)) :
    after ops V (main_arg12 : DevRef τ sig) = V (main_arg12 : DevRef τ sig) := by after_results_simp
theorem arg13_eq (V : Valuation τ sig (Elt F)) :
    after ops V (main_arg13 : DevRef τ sig) = V (main_arg13 : DevRef τ sig) := by after_results_simp

/-- On every device, for any float values, from any memory with zero counters: every weakly fair execution of @main
    terminates with the result at the layer's term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66)
        = Term.outT (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v66).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _)⟩)
    (run_seq scopedRefs_eq scopedSems_eq defs main (fun _ => ops) main_eq (fun _ => ops_sub) m ρ)

end Cert.ReferenceIdeal.Run

end
-- ==== Proof.lean ====
/- The certificate of a graph layer — neighbour states and edge rows summed onto their target nodes, a linear map, a
   bias, a rectifier and a batch normalisation, twice — computed by three tiled kernels with host operations between
   them, against the same layer written as host operations alone.

   On the extended reals the two programs differ in one place.  The reference projects every edge's row by the bond
   matrix, adds the bond bias, and sums the projected rows onto the target nodes; the kernel program sums the raw edge
   rows onto the target nodes, projects the sums, and adds the bond bias once per arriving edge (the in-degree times the
   bias).  The two agree because a sum of affine images is the affine image of the sum with the constant counted once
   per term — a law that needs the entries to be real numbers, which the precondition's finiteness gives.  The second
   place they could differ, the row lookup along the edges (the kernel program fills a row whose index is out of range,
   the reference clamps the index), is excluded by the precondition: every source index lies in [-50000, 50000), where
   both read the same row.  Everything else — the matrix products, the column means and variances, the normalisations,
   the rectifiers — is the same formula on both sides, the kernels computing it block of 2000 rows by block.

   The frames of the two kernel programs are the generated ones; the reference's frame is its run with the result
   dropped. -/
import proofs.«421841_j88399016886795_2_alg».proof.Defs
import proofs.«421841_j88399016886795_2_alg».proof.Proof.Gen.Kernel
import proofs.«421841_j88399016886795_2_alg».proof.Proof.Gen.Kernel.Frame
import proofs.«421841_j88399016886795_2_alg».proof.Proof.Gen.KernelIdeal
import proofs.«421841_j88399016886795_2_alg».proof.Proof.Gen.KernelIdeal.Frame
import proofs.«421841_j88399016886795_2_alg».proof.Proof.Gen.ReferenceIdeal
import proofs.«421841_j88399016886795_2_alg».proof.Proof.Gen.Pre_finite_inputs
import proofs.«421841_j88399016886795_2_alg».proof.Proof.KRun
import proofs.«421841_j88399016886795_2_alg».proof.Proof.KVal
import proofs.«421841_j88399016886795_2_alg».proof.Proof.RefRun

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.Run.run (F := Ideal) m ρ)

/-- The idealization rewrote nothing: there is nothing to preserve. -/
theorem preserves : Cert.preserves_Kernel_KernelIdeal := trivial

/-- From memories that agree on the arguments both programs end with the result array at the layer's term of those
    arguments: the kernel program by its run and the value of its last contents, the reference by its run. -/
theorem algebraic : Cert.algebraic_KernelIdeal_ReferenceIdeal := by
  intro m ρ m' ρ' hpre hagree
  refine ⟨fun c => Cert.ReferenceIdeal.Term.outT (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Val.value m ρ hpre c), (h c).2⟩)
      (Cert.KernelIdeal.Val.run_value (F := Ideal) m ρ)
  · refine (θ_run Cert.ReferenceIdeal.defs _ _).mono (fun r h c => ⟨(h c).1.trans ?_, (h c).2⟩)
      (Cert.ReferenceIdeal.Run.run (F := Ideal) m' ρ')
    obtain ⟨e0, e1, e2, e3, e4, e5, e6, e7, e8, e9, e10, e11, e12, e13⟩ := hagree c
    rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
